-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S2048x1024 : Shape := ⟨2, ![2048, 1024]⟩
abbrev S4096x512 : Shape := ⟨2, ![4096, 512]⟩
abbrev S2x256x512 : Shape := ⟨3, ![2, 256, 512]⟩
abbrev S8x256x512 : Shape := ⟨3, ![8, 256, 512]⟩
abbrev S2 : Shape := ⟨1, ![2]⟩
abbrev S8 : Shape := ⟨1, ![8]⟩
abbrev S_ : Shape := ⟨0, ![]⟩
abbrev S256x512 : Shape := ⟨2, ![256, 512]⟩
abbrev S1x256x512 : Shape := ⟨3, ![1, 256, 512]⟩
abbrev S1 : Shape := ⟨1, ![1]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | .local _ .vmem, ⟨0, _⟩ => ⟨S2048x1024, .f32⟩
  | .local _ .vmem, ⟨1, _⟩ => ⟨S4096x512, .f32⟩
  | .local _ .vmem, ⟨2, _⟩ => ⟨S2x256x512, .bf16⟩
  | .local _ .vmem, ⟨3, _⟩ => ⟨S8x256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v13 : BitVec 32 := Scalar.muli v9 c4_i32_6
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v15 : BitVec 32 := Scalar.muli v5 c2_i32_7
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v17 : BitVec 32 := Scalar.muli v8 c1_i32_8
  let v18 : BitVec 32 := Scalar.addi v16 v17
  v18.toNat
def k0_off1 (d0 : Dev nD) : Fin 2 → Nat :=
  let c0 : Index := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v19 : Index := Scalar.indexCast v11
  ![0, v19.toNat]
def k0_dev2 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v26 : BitVec 32 := Scalar.muli v9 c4_i32_17
  let v27 : BitVec 32 := Scalar.addi c0_i32_18 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v30 : BitVec 32 := Scalar.muli v8 c1_i32_20
  let v31 : BitVec 32 := Scalar.addi v29 v30
  v31.toNat
def k0_off2 (d0 : Dev nD) : Fin 2 → Nat :=
  let c256 : Index := 256#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v40 : Index := Scalar.indexCast v11
  ![256, v40.toNat]
def k0_dev3 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v47 : BitVec 32 := Scalar.muli v9 c4_i32_31
  let v48 : BitVec 32 := Scalar.addi c0_i32_32 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v49 : BitVec 32 := Scalar.muli v5 c2_i32_33
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v51 : BitVec 32 := Scalar.muli v8 c1_i32_34
  let v52 : BitVec 32 := Scalar.addi v50 v51
  v52.toNat
def k0_off3 (d0 : Dev nD) : Fin 2 → Nat :=
  let c512 : Index := 512#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v67 : Index := Scalar.indexCast v11
  ![512, v67.toNat]
def k0_dev4 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v74 : BitVec 32 := Scalar.muli v9 c4_i32_55
  let v75 : BitVec 32 := Scalar.addi c0_i32_56 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v76 : BitVec 32 := Scalar.muli v5 c2_i32_57
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v78 : BitVec 32 := Scalar.muli v8 c1_i32_58
  let v79 : BitVec 32 := Scalar.addi v77 v78
  v79.toNat
def k0_off4 (d0 : Dev nD) : Fin 2 → Nat :=
  let c768 : Index := 768#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v94 : Index := Scalar.indexCast v11
  ![768, v94.toNat]
def k0_dev5 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v101 : BitVec 32 := Scalar.muli v9 c4_i32_78
  let v102 : BitVec 32 := Scalar.addi c0_i32_79 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v103 : BitVec 32 := Scalar.muli v5 c2_i32_80
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v105 : BitVec 32 := Scalar.muli v8 c1_i32_81
  let v106 : BitVec 32 := Scalar.addi v104 v105
  v106.toNat
def k0_off5 (d0 : Dev nD) : Fin 2 → Nat :=
  let c1024 : Index := 1024#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v121 : Index := Scalar.indexCast v11
  ![1024, v121.toNat]
def k0_dev6 (d0 : Dev nD) : Nat :=
  let c0_i32_103 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_102 : BitVec 32 := 4#32
  let v128 : BitVec 32 := Scalar.muli v9 c4_i32_102
  let v129 : BitVec 32 := Scalar.addi c0_i32_103 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v130 : BitVec 32 := Scalar.muli v5 c2_i32_104
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v132 : BitVec 32 := Scalar.muli v8 c1_i32_105
  let v133 : BitVec 32 := Scalar.addi v131 v132
  v133.toNat
def k0_off6 (d0 : Dev nD) : Fin 2 → Nat :=
  let c1280 : Index := 1280#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v148 : Index := Scalar.indexCast v11
  ![1280, v148.toNat]
def k0_dev7 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v155 : BitVec 32 := Scalar.muli v9 c4_i32_125
  let v156 : BitVec 32 := Scalar.addi c0_i32_126 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v157 : BitVec 32 := Scalar.muli v5 c2_i32_127
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v159 : BitVec 32 := Scalar.muli v8 c1_i32_128
  let v160 : BitVec 32 := Scalar.addi v158 v159
  v160.toNat
def k0_off7 (d0 : Dev nD) : Fin 2 → Nat :=
  let c1536 : Index := 1536#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v175 : Index := Scalar.indexCast v11
  ![1536, v175.toNat]
def k0_dev8 (d0 : Dev nD) : Nat :=
  let c0_i32_149 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_148 : BitVec 32 := 4#32
  let v182 : BitVec 32 := Scalar.muli v9 c4_i32_148
  let v183 : BitVec 32 := Scalar.addi c0_i32_149 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v184 : BitVec 32 := Scalar.muli v5 c2_i32_150
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v186 : BitVec 32 := Scalar.muli v8 c1_i32_151
  let v187 : BitVec 32 := Scalar.addi v185 v186
  v187.toNat
def k0_off8 (d0 : Dev nD) : Fin 2 → Nat :=
  let c1792 : Index := 1792#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32 : BitVec 32 := 512#32
  let v11 : BitVec 32 := Scalar.muli v10 c512_i32
  let v202 : Index := Scalar.indexCast v11
  ![1792, v202.toNat]
def k0_dev9 (d0 : Dev nD) : Nat :=
  let c0_i32_172 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_171 : BitVec 32 := 4#32
  let v209 : BitVec 32 := Scalar.muli v9 c4_i32_171
  let v210 : BitVec 32 := Scalar.addi c0_i32_172 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v211 : BitVec 32 := Scalar.muli v5 c2_i32_173
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v213 : BitVec 32 := Scalar.muli v8 c1_i32_174
  let v214 : BitVec 32 := Scalar.addi v212 v213
  v214.toNat
def k0_off9 (d0 : Dev nD) : Fin 2 → Nat :=
  let c0_180 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_179 : BitVec 32 := 512#32
  let v223 : BitVec 32 := Scalar.muli v2 c512_i32_179
  let v224 : Index := Scalar.indexCast v223
  ![0, v224.toNat]
def k0_off10 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v227 : BitVec 32 := Scalar.muli v2 c2048_i32
  let v228 : Index := Scalar.indexCast v227
  let c0_181 : Index := 0#32
  ![v228.toNat, 0]
def k0_off11 (d0 : Dev nD) (c0_i32_199 : BitVec 32) : Fin 2 → Nat :=
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v230 : BitVec 32 := Scalar.subi c1_i32_182 v2
  let c2048_i32_183 : BitVec 32 := 2048#32
  let v231 : BitVec 32 := Scalar.muli v230 c2048_i32_183
  let v247 : BitVec 32 := Scalar.addi v231 c0_i32_199
  let v248 : Index := Scalar.indexCast v247
  let c0_200 : Index := 0#32
  ![v248.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S256x512 : 0 < S256x512.numel
  shapeCasts_S256x512_S256x512 : S256x512.ShapeCasts S256x512
  bitsLt_bf16_f32 : FTy.bits .bf16 < FTy.bits .f32
  inb_S2x256x512_S1x256x512_0_0_0 : ∀ a, (![0, 0, 0] : Fin 3 → Nat) a + S1x256x512.size a ≤ S2x256x512.size a
  h_S1x256x512 : 0 < S1x256x512.numel
  shapeCasts_S1x256x512_S256x512 : S1x256x512.ShapeCasts S256x512
  shapeCasts_S256x512_S1x256x512 : S256x512.ShapeCasts S1x256x512
  packedbf16_S2x256x512_S1x256x512_0_0_0 : (Rect.unit (s := S2x256x512) ![0, 0, 0] S1x256x512.size inb_S2x256x512_S1x256x512_0_0_0).PackedRows (EltTy.packing .bf16)
  inb_S2_S1_0 : ∀ a, (![0] : Fin 1 → Nat) a + S1.size a ≤ S2.size a
  squeezes_S1_S_ : S1.Squeezes S_
  inb_S8_S1_0 : ∀ a, (![0] : Fin 1 → Nat) a + S1.size a ≤ S8.size a
  inb_S8x256x512_S1x256x512_0_0_0 : ∀ a, (![0, 0, 0] : Fin 3 → Nat) a + S1x256x512.size a ≤ S8x256x512.size a
  squeezes_S1x256x512_S256x512 : S1x256x512.Squeezes S256x512
  wordsbf16_S2x256x512_S1x256x512_0_0_0 : (Rect.unit (s := S2x256x512) ![0, 0, 0] S1x256x512.size inb_S2x256x512_S1x256x512_0_0_0).WholeWords (EltTy.packing .bf16)
  wordsbf16_S8x256x512_S1x256x512_0_0_0 : (Rect.unit (s := S8x256x512) ![0, 0, 0] S1x256x512.size inb_S8x256x512_S1x256x512_0_0_0).WholeWords (EltTy.packing .bf16)
  inb_S2x256x512_S1x256x512_1_0_0 : ∀ a, (![1, 0, 0] : Fin 3 → Nat) a + S1x256x512.size a ≤ S2x256x512.size a
  packedbf16_S2x256x512_S1x256x512_1_0_0 : (Rect.unit (s := S2x256x512) ![1, 0, 0] S1x256x512.size inb_S2x256x512_S1x256x512_1_0_0).PackedRows (EltTy.packing .bf16)
  inb_S2_S1_1 : ∀ a, (![1] : Fin 1 → Nat) a + S1.size a ≤ S2.size a
  inb_S8_S1_1 : ∀ a, (![1] : Fin 1 → Nat) a + S1.size a ≤ S8.size a
  inb_S8x256x512_S1x256x512_1_0_0 : ∀ a, (![1, 0, 0] : Fin 3 → Nat) a + S1x256x512.size a ≤ S8x256x512.size a
  wordsbf16_S2x256x512_S1x256x512_1_0_0 : (Rect.unit (s := S2x256x512) ![1, 0, 0] S1x256x512.size inb_S2x256x512_S1x256x512_1_0_0).WholeWords (EltTy.packing .bf16)
  wordsbf16_S8x256x512_S1x256x512_1_0_0 : (Rect.unit (s := S8x256x512) ![1, 0, 0] S1x256x512.size inb_S8x256x512_S1x256x512_1_0_0).WholeWords (EltTy.packing .bf16)
  inb_S8_S1_2 : ∀ a, (![2] : Fin 1 → Nat) a + S1.size a ≤ S8.size a
  inb_S8x256x512_S1x256x512_2_0_0 : ∀ a, (![2, 0, 0] : Fin 3 → Nat) a + S1x256x512.size a ≤ S8x256x512.size a
  wordsbf16_S8x256x512_S1x256x512_2_0_0 : (Rect.unit (s := S8x256x512) ![2, 0, 0] S1x256x512.size inb_S8x256x512_S1x256x512_2_0_0).WholeWords (EltTy.packing .bf16)
  inb_S8_S1_3 : ∀ a, (![3] : Fin 1 → Nat) a + S1.size a ≤ S8.size a
  inb_S8x256x512_S1x256x512_3_0_0 : ∀ a, (![3, 0, 0] : Fin 3 → Nat) a + S1x256x512.size a ≤ S8x256x512.size a
  wordsbf16_S8x256x512_S1x256x512_3_0_0 : (Rect.unit (s := S8x256x512) ![3, 0, 0] S1x256x512.size inb_S8x256x512_S1x256x512_3_0_0).WholeWords (EltTy.packing .bf16)
  inb_S8_S1_4 : ∀ a, (![4] : Fin 1 → Nat) a + S1.size a ≤ S8.size a
  inb_S8x256x512_S1x256x512_4_0_0 : ∀ a, (![4, 0, 0] : Fin 3 → Nat) a + S1x256x512.size a ≤ S8x256x512.size a
  wordsbf16_S8x256x512_S1x256x512_4_0_0 : (Rect.unit (s := S8x256x512) ![4, 0, 0] S1x256x512.size inb_S8x256x512_S1x256x512_4_0_0).WholeWords (EltTy.packing .bf16)
  inb_S8_S1_5 : ∀ a, (![5] : Fin 1 → Nat) a + S1.size a ≤ S8.size a
  inb_S8x256x512_S1x256x512_5_0_0 : ∀ a, (![5, 0, 0] : Fin 3 → Nat) a + S1x256x512.size a ≤ S8x256x512.size a
  wordsbf16_S8x256x512_S1x256x512_5_0_0 : (Rect.unit (s := S8x256x512) ![5, 0, 0] S1x256x512.size inb_S8x256x512_S1x256x512_5_0_0).WholeWords (EltTy.packing .bf16)
  inb_S8_S1_6 : ∀ a, (![6] : Fin 1 → Nat) a + S1.size a ≤ S8.size a
  inb_S8x256x512_S1x256x512_6_0_0 : ∀ a, (![6, 0, 0] : Fin 3 → Nat) a + S1x256x512.size a ≤ S8x256x512.size a
  wordsbf16_S8x256x512_S1x256x512_6_0_0 : (Rect.unit (s := S8x256x512) ![6, 0, 0] S1x256x512.size inb_S8x256x512_S1x256x512_6_0_0).WholeWords (EltTy.packing .bf16)
  inb_S8_S1_7 : ∀ a, (![7] : Fin 1 → Nat) a + S1.size a ≤ S8.size a
  inb_S8x256x512_S1x256x512_7_0_0 : ∀ a, (![7, 0, 0] : Fin 3 → Nat) a + S1x256x512.size a ≤ S8x256x512.size a
  wordsbf16_S8x256x512_S1x256x512_7_0_0 : (Rect.unit (s := S8x256x512) ![7, 0, 0] S1x256x512.size inb_S8x256x512_S1x256x512_7_0_0).WholeWords (EltTy.packing .bf16)
  h_S2048x512 : 0 < S2048x512.numel
  shapeCasts_S2048x512_S2048x512 : S2048x512.ShapeCasts S2048x512
  hcc0_scratch2 : 2 + S2.numel ≤ 12
  hcc0_scratch3 : 4 + S8.numel ≤ 12
  k0_dev1_lt : ∀ d0 : Dev nD, (k0_dev1 d0) < nD
  k0_off1_inb : ∀ d0 : Dev nD, ∀ a, (k0_off1 d0) a + S256x512.size a ≤ S2048x1024.size a
  k0_dev2_lt : ∀ d0 : Dev nD, (k0_dev2 d0) < nD
  k0_off2_inb : ∀ d0 : Dev nD, ∀ a, (k0_off2 d0) a + S256x512.size a ≤ S2048x1024.size a
  k0_dev3_lt : ∀ d0 : Dev nD, (k0_dev3 d0) < nD
  k0_off3_inb : ∀ d0 : Dev nD, ∀ a, (k0_off3 d0) a + S256x512.size a ≤ S2048x1024.size a
  k0_dev4_lt : ∀ d0 : Dev nD, (k0_dev4 d0) < nD
  k0_off4_inb : ∀ d0 : Dev nD, ∀ a, (k0_off4 d0) a + S256x512.size a ≤ S2048x1024.size a
  k0_dev5_lt : ∀ d0 : Dev nD, (k0_dev5 d0) < nD
  k0_off5_inb : ∀ d0 : Dev nD, ∀ a, (k0_off5 d0) a + S256x512.size a ≤ S2048x1024.size a
  k0_dev6_lt : ∀ d0 : Dev nD, (k0_dev6 d0) < nD
  k0_off6_inb : ∀ d0 : Dev nD, ∀ a, (k0_off6 d0) a + S256x512.size a ≤ S2048x1024.size a
  k0_dev7_lt : ∀ d0 : Dev nD, (k0_dev7 d0) < nD
  k0_off7_inb : ∀ d0 : Dev nD, ∀ a, (k0_off7 d0) a + S256x512.size a ≤ S2048x1024.size a
  k0_dev8_lt : ∀ d0 : Dev nD, (k0_dev8 d0) < nD
  k0_off8_inb : ∀ d0 : Dev nD, ∀ a, (k0_off8 d0) a + S256x512.size a ≤ S2048x1024.size a
  k0_dev9_lt : ∀ d0 : Dev nD, (k0_dev9 d0) < nD
  k0_off9_inb : ∀ d0 : Dev nD, ∀ a, (k0_off9 d0) a + S2048x512.size a ≤ S2048x1024.size a
  k0_off10_inb : ∀ d0 : Dev nD, ∀ a, (k0_off10 d0) a + S2048x512.size a ≤ S4096x512.size a
  k0_off11_inb : ∀ d0 : Dev nD, ∀ (r : Fin 8), ∀ a, (k0_off11 d0 (BitVec.ofNat 32 (256 * r.val))) a + S256x512.size a ≤ S4096x512.size a
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S8 := SemArray.consecutive 4 S8 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Proto.lean ====
/-
  The exchange between a device and its partner across the first mesh axis: the names this proof uses.

  Device `c` (linear id `4·x + 2·y + z`) has ONE partner, `peer c`, the device with the other `x` and the same `y`, `z`;
  `peer` is an involution. Each device holds three kinds of semaphore cells: the barrier cell (one unit, signalled by the
  partner at entry), two departure cells (one per staging slot; slot `s` carries the transfers `s, s+2, s+4, s+6`, one per
  round), and eight arrival cells (transfer `i` of the partner lands in landing slot `i` and credits arrival cell `i`).
-/
import proofs.«900619_g7700000000000620_dist_a2a_v7x_xyz2x2x2_x_m2048_n512_f32_1_alg».proof.Proof.Gen.KernelIdeal
import proofs.«900619_g7700000000000620_dist_a2a_v7x_xyz2x2x2_x_m2048_n512_f32_1_alg».proof.Proof.Gen.KernelIdeal.Skeleton
import proofs.«900619_g7700000000000620_dist_a2a_v7x_xyz2x2x2_x_m2048_n512_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (every round has one duty: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device with the other coordinate on the first mesh axis. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

def swap : Dev nD ≃ Dev nD := ⟨peer, peer, peer_peer, peer_peer⟩

theorem dev_closed : ∀ c : Dev nD, (2 * ((c.val / 2) % 2) + (c.val % 2) + 4) - 4 * (c.val / 4) = (c.val + 4) % 8 := by decide

/-- Every `device_id` the body computes names the partner. -/
theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))

/-! ## The buffers -/

/-- The staged block of `x`, the staged result, the two staging slots, the eight landing slots. -/
abbrev xM : Memref sig .tc .vmem S2048x1024 .f32 := Memref.whole cc0_stg0_0
abbrev oM : Memref sig .tc .vmem S4096x512 .f32 := Memref.whole cc0_stg1_0
abbrev sM : Memref sig .tc .vmem S2x256x512 .bf16 := Memref.whole cc0_scratch0
abbrev rM : Memref sig .tc .vmem S8x256x512 .bf16 := Memref.whole cc0_scratch1

abbrev sSlot0 : Memref sig .tc .vmem S256x512 .bf16 := ((sM.slice (Rect.unit (s := S2x256x512) ![0, 0, 0] S1x256x512.size inb_S2x256x512_S1x256x512_0_0_0) (fun _ => rfl)).squeeze S256x512 squeezes_S1x256x512_S256x512)
abbrev sSlot1 : Memref sig .tc .vmem S256x512 .bf16 := ((sM.slice (Rect.unit (s := S2x256x512) ![1, 0, 0] S1x256x512.size inb_S2x256x512_S1x256x512_1_0_0) (fun _ => rfl)).squeeze S256x512 squeezes_S1x256x512_S256x512)
abbrev sSlot : Fin 2 → Memref sig .tc .vmem S256x512 .bf16 := fun | 0 => sSlot0 | 1 => sSlot1

abbrev rSlot0 : Memref sig .tc .vmem S256x512 .bf16 := ((rM.slice (Rect.unit (s := S8x256x512) ![0, 0, 0] S1x256x512.size inb_S8x256x512_S1x256x512_0_0_0) (fun _ => rfl)).squeeze S256x512 squeezes_S1x256x512_S256x512)
abbrev rSlot1 : Memref sig .tc .vmem S256x512 .bf16 := ((rM.slice (Rect.unit (s := S8x256x512) ![1, 0, 0] S1x256x512.size inb_S8x256x512_S1x256x512_1_0_0) (fun _ => rfl)).squeeze S256x512 squeezes_S1x256x512_S256x512)
abbrev rSlot2 : Memref sig .tc .vmem S256x512 .bf16 := ((rM.slice (Rect.unit (s := S8x256x512) ![2, 0, 0] S1x256x512.size inb_S8x256x512_S1x256x512_2_0_0) (fun _ => rfl)).squeeze S256x512 squeezes_S1x256x512_S256x512)
abbrev rSlot3 : Memref sig .tc .vmem S256x512 .bf16 := ((rM.slice (Rect.unit (s := S8x256x512) ![3, 0, 0] S1x256x512.size inb_S8x256x512_S1x256x512_3_0_0) (fun _ => rfl)).squeeze S256x512 squeezes_S1x256x512_S256x512)
abbrev rSlot4 : Memref sig .tc .vmem S256x512 .bf16 := ((rM.slice (Rect.unit (s := S8x256x512) ![4, 0, 0] S1x256x512.size inb_S8x256x512_S1x256x512_4_0_0) (fun _ => rfl)).squeeze S256x512 squeezes_S1x256x512_S256x512)
abbrev rSlot5 : Memref sig .tc .vmem S256x512 .bf16 := ((rM.slice (Rect.unit (s := S8x256x512) ![5, 0, 0] S1x256x512.size inb_S8x256x512_S1x256x512_5_0_0) (fun _ => rfl)).squeeze S256x512 squeezes_S1x256x512_S256x512)
abbrev rSlot6 : Memref sig .tc .vmem S256x512 .bf16 := ((rM.slice (Rect.unit (s := S8x256x512) ![6, 0, 0] S1x256x512.size inb_S8x256x512_S1x256x512_6_0_0) (fun _ => rfl)).squeeze S256x512 squeezes_S1x256x512_S256x512)
abbrev rSlot7 : Memref sig .tc .vmem S256x512 .bf16 := ((rM.slice (Rect.unit (s := S8x256x512) ![7, 0, 0] S1x256x512.size inb_S8x256x512_S1x256x512_7_0_0) (fun _ => rfl)).squeeze S256x512 squeezes_S1x256x512_S256x512)
abbrev rSlot : Fin 8 → Memref sig .tc .vmem S256x512 .bf16 := fun | 0 => rSlot0 | 1 => rSlot1 | 2 => rSlot2 | 3 => rSlot3 | 4 => rSlot4 | 5 => rSlot5 | 6 => rSlot6 | 7 => rSlot7

/-! ## The semaphores and their cells -/

/-- The barrier semaphore of the collective (the runtime's, not scoped to the launch). -/
abbrev barS : Sem sig := (SemArray.scalar (sig.barrier 0 rfl) : Sems sig S_).sem

abbrev sendS0 : DmaSems sig S_ := (cc0_scratch2.slice (Rect.unit (s := S2) ![0] S1.size inb_S2_S1_0)).squeeze S_ squeezes_S1_S_
abbrev sendS1 : DmaSems sig S_ := (cc0_scratch2.slice (Rect.unit (s := S2) ![1] S1.size inb_S2_S1_1)).squeeze S_ squeezes_S1_S_
abbrev sendS : Fin 2 → DmaSems sig S_ := fun | 0 => sendS0 | 1 => sendS1

abbrev recvS0 : DmaSems sig S_ := (cc0_scratch3.slice (Rect.unit (s := S8) ![0] S1.size inb_S8_S1_0)).squeeze S_ squeezes_S1_S_
abbrev recvS1 : DmaSems sig S_ := (cc0_scratch3.slice (Rect.unit (s := S8) ![1] S1.size inb_S8_S1_1)).squeeze S_ squeezes_S1_S_
abbrev recvS2 : DmaSems sig S_ := (cc0_scratch3.slice (Rect.unit (s := S8) ![2] S1.size inb_S8_S1_2)).squeeze S_ squeezes_S1_S_
abbrev recvS3 : DmaSems sig S_ := (cc0_scratch3.slice (Rect.unit (s := S8) ![3] S1.size inb_S8_S1_3)).squeeze S_ squeezes_S1_S_
abbrev recvS4 : DmaSems sig S_ := (cc0_scratch3.slice (Rect.unit (s := S8) ![4] S1.size inb_S8_S1_4)).squeeze S_ squeezes_S1_S_
abbrev recvS5 : DmaSems sig S_ := (cc0_scratch3.slice (Rect.unit (s := S8) ![5] S1.size inb_S8_S1_5)).squeeze S_ squeezes_S1_S_
abbrev recvS6 : DmaSems sig S_ := (cc0_scratch3.slice (Rect.unit (s := S8) ![6] S1.size inb_S8_S1_6)).squeeze S_ squeezes_S1_S_
abbrev recvS7 : DmaSems sig S_ := (cc0_scratch3.slice (Rect.unit (s := S8) ![7] S1.size inb_S8_S1_7)).squeeze S_ squeezes_S1_S_
abbrev recvS : Fin 8 → DmaSems sig S_ := fun | 0 => recvS0 | 1 => recvS1 | 2 => recvS2 | 3 => recvS3 | 4 => recvS4 | 5 => recvS5 | 6 => recvS6 | 7 => recvS7

/-- The eleven semaphores of the exchange, as this proof indexes them: barrier, two departures, eight arrivals. -/
abbrev csem : Fin 11 → SemLoc sig := fun
  | 0 => .reg barS | 1 => .dma sendS0.sem | 2 => .dma sendS1.sem
  | 3 => .dma recvS0.sem | 4 => .dma recvS1.sem | 5 => .dma recvS2.sem | 6 => .dma recvS3.sem
  | 7 => .dma recvS4.sem | 8 => .dma recvS5.sem | 9 => .dma recvS6.sem | 10 => .dma recvS7.sem

abbrev kcell (ck : Dev nD × Fin 11) : GSem nD τ sig := ((ck.1 : Thread nD τ), csem ck.2)
abbrev barCell (c : Dev nD) : GSem nD τ sig := ((c : Thread nD τ), .reg barS)
abbrev sendCell (c : Dev nD) (s : Fin 2) : GSem nD τ sig := ((c : Thread nD τ), .dma (sendS s).sem)
abbrev recvCell (c : Dev nD) (i : Fin 8) : GSem nD τ sig := ((c : Thread nD τ), .dma (recvS i).sem)

/-- The literal numbers of the semaphores: departures 2 and 3, arrivals 4 to 11 (0 and 1 are the two staging semaphores). -/
theorem sendS_val (s : Fin 2) : ((sendS s).sem : DmaSem sig).val = 2 + s.val := by fin_cases s <;> rfl
theorem recvS_val (i : Fin 8) : ((recvS i).sem : DmaSem sig).val = 4 + i.val := by fin_cases i <;> rfl

/-- The credit of one transfer: a slot's worth. -/
abbrev N : ℕ := (rSlot0 : Memref sig .tc .vmem S256x512 .bf16).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `d`'s staged input holds: its block of `x` (2048 rows of 1024). -/
def xstg (d : Dev nD) : (cc0_stg0_0 : Ref sig .tc).ty.Contents (Elt F) :=
  (win0_0.blk (0 : Fin 1)).view.read (Elt F) ((s₀ m ρ).mem ((d : Thread nD τ).loc main_arg0))

/-- A 256 × 512 tile of a staged input, read at a printed offset. -/
abbrev tileAt (X : (cc0_stg0_0 : Ref sig .tc).ty.Contents (Elt F)) (off : Fin 2 → Nat) (inb : ∀ a, off a + S256x512.size a ≤ S2048x1024.size a) : Vec F S256x512 .f32 :=
  (xM : Memref sig .tc .vmem S2048x1024 .f32).view.readAt (Elt F) (Rect.unit (s := S2048x1024) off S256x512.size inb).toLoadRect X

/-- Tile `i` of device `d`'s block, in the partner's column half, as the body stores it into a staging slot (narrowed to 16 bits, one
    leading unit axis): rows `256·i …`, columns `512·(1 − x) …`. -/
def chunk (d : Dev nD) : Fin 8 → FVec F S1x256x512 .bf16 := fun
  | 0 => k0_pay1 (tileAt (xstg m ρ d) (k0_off1 d) (k0_off1_inb d))
  | 1 => k0_pay2 (tileAt (xstg m ρ d) (k0_off2 d) (k0_off2_inb d))
  | 2 => k0_pay3 (tileAt (xstg m ρ d) (k0_off3 d) (k0_off3_inb d))
  | 3 => k0_pay4 (tileAt (xstg m ρ d) (k0_off4 d) (k0_off4_inb d))
  | 4 => k0_pay5 (tileAt (xstg m ρ d) (k0_off5 d) (k0_off5_inb d))
  | 5 => k0_pay6 (tileAt (xstg m ρ d) (k0_off6 d) (k0_off6_inb d))
  | 6 => k0_pay8 (k0_pay7 (tileAt (xstg m ρ d) (k0_off7 d) (k0_off7_inb d)))
  | 7 => k0_pay9 (tileAt (xstg m ρ d) (k0_off8 d) (k0_off8_inb d))

/-- The same tile as a staging slot holds it, seen through the slot: 256 × 512. -/
def sentVal (d : Dev nD) (i : Fin 8) : Vec F S256x512 .bf16 :=
  fun j => chunk m ρ d i (ValueIdx.ix3 (0 : Fin 1) (j 0 : Fin 256) (j 1 : Fin 512))

/-- A landing buffer all of whose slots hold `V`: what matters of it is one slot. -/
def slotsOf (V : Vec F S256x512 .bf16) : (cc0_scratch1 : Ref sig .tc).ty.Contents (Elt F) :=
  fun idx => V (ValueIdx.ix2 (idx 1 : Fin 256) (idx 2 : Fin 512))

/-- What landing slot `i` of device `c` holds after the partner's transfer `i`: the partner's tile `i`. -/
def landed (c : Dev nD) (i : Fin 8) : Buf (Elt F) ((rM : Memref sig .tc .vmem S8x256x512 .bf16).view.loc (c : Thread nD τ)) :=
  slotsOf (sentVal m ρ (peer c) i)

/-! ## The schedule -/

/-- Which semaphore of the exchange a location is. -/
inductive CK | bar | send (s : Fin 2) | recv (i : Fin 8)
  deriving DecidableEq

def classify : SemLoc sig → Option CK
  | .reg _ => some .bar
  | .dma q => if q.val = 2 then some (.send 0) else if q.val = 3 then some (.send 1)
      else if h : 4 ≤ q.val ∧ q.val < 12 then some (.recv ⟨q.val - 4, by omega⟩) else none

/-- The partner's signal hands a device the partner's whole landing buffer, over some contents: what the eight transfers into it write. -/
def barPay (c : Dev nD) : sProp 𝕄 :=
  iprop(∃ f, ((rM : Memref sig .tc .vmem S8x256x512 .bf16).view.loc (peer c : Thread nD τ)) ↦{fullShare} f)
/-- A departure hands the staging slot back, over some contents (it is overwritten or dropped next). -/
def sendPay (c : Dev nD) (s : Fin 2) : sProp 𝕄 :=
  iprop(∃ f, (sSlot s).view.loc (c : Thread nD τ) ↦[(sSlot s).view.set]{fullShare} f)
/-- An arrival hands the landing slot over, holding the partner's tile. -/
def recvPay (c : Dev nD) : Fin 8 → sProp 𝕄 := fun
  | 0 => rSlot0.view.loc (c : Thread nD τ) ↦[rSlot0.view.set]{fullShare} landed m ρ c 0
  | 1 => rSlot1.view.loc (c : Thread nD τ) ↦[rSlot1.view.set]{fullShare} landed m ρ c 1
  | 2 => rSlot2.view.loc (c : Thread nD τ) ↦[rSlot2.view.set]{fullShare} landed m ρ c 2
  | 3 => rSlot3.view.loc (c : Thread nD τ) ↦[rSlot3.view.set]{fullShare} landed m ρ c 3
  | 4 => rSlot4.view.loc (c : Thread nD τ) ↦[rSlot4.view.set]{fullShare} landed m ρ c 4
  | 5 => rSlot5.view.loc (c : Thread nD τ) ↦[rSlot5.view.set]{fullShare} landed m ρ c 5
  | 6 => rSlot6.view.loc (c : Thread nD τ) ↦[rSlot6.view.set]{fullShare} landed m ρ c 6
  | 7 => rSlot7.view.loc (c : Thread nD τ) ↦[rSlot7.view.set]{fullShare} landed m ρ c 7

/-- One duty a round: the barrier cell and the arrival cells have one round, a departure cell four (its slot is used four times). -/
def sched : Rounds.Schedule (GSem nD τ sig) Unit 𝕄 where
  duties g r := if g.1.2 = .tc then
      (match classify g.2 with
        | some .bar => if r = 0 then {()} else ∅
        | some (.send _) => if r < 4 then {()} else ∅
        | some (.recv _) => if r = 0 then {()} else ∅
        | none => ∅)
    else ∅
  unitless _ := False
  amount g _ _ := match classify g.2 with | some .bar => 1 | _ => N
  payload g _ _ := match classify g.2 with
    | some .bar => barPay g.1.1
    | some (.send s) => sendPay g.1.1 s
    | some (.recv i) => recvPay m ρ g.1.1 i
    | none => iprop(emp)
  amount_pos g _ _ _ := by
    cases classify g.2 with
    | none => exact N_pos
    | some k => cases k with
      | bar => exact Nat.one_pos
      | send s => exact N_pos
      | recv i => exact N_pos

theorem classify_bar : classify (.reg barS : SemLoc sig) = some .bar := rfl
theorem classify_send (s : Fin 2) : classify (.dma (sendS s).sem : SemLoc sig) = some (.send s) := by fin_cases s <;> rfl
theorem classify_recv (i : Fin 8) : classify (.dma (recvS i).sem : SemLoc sig) = some (.recv i) := by fin_cases i <;> rfl

section Sched
variable (c : Dev nD)

theorem duties_bar : (sched (F := F) m ρ).duties (barCell c) 0 = {()} := by
  dsimp only [sched]; rw [if_pos rfl, classify_bar]; rfl
theorem duties_send (s : Fin 2) (r : ℕ) (hr : r < 4) : (sched (F := F) m ρ).duties (sendCell c s) r = {()} := by
  dsimp only [sched]; rw [if_pos rfl, classify_send]; exact if_pos hr
theorem duties_recv (i : Fin 8) : (sched (F := F) m ρ).duties (recvCell c i) 0 = {()} := by
  dsimp only [sched]; rw [if_pos rfl, classify_recv]; rfl

theorem amount_bar (r : ℕ) (d : Unit) : (sched (F := F) m ρ).amount (barCell c) r d = 1 := by dsimp only [sched]; rw [classify_bar]
theorem amount_send (s : Fin 2) (r : ℕ) (d : Unit) : (sched (F := F) m ρ).amount (sendCell c s) r d = N := by dsimp only [sched]; rw [classify_send]
theorem amount_recv (i : Fin 8) (r : ℕ) (d : Unit) : (sched (F := F) m ρ).amount (recvCell c i) r d = N := by dsimp only [sched]; rw [classify_recv]

theorem expect_bar : (sched (F := F) m ρ).expect (barCell c) 0 = 1 := by
  unfold Schedule.expect Schedule.amountOf; rw [duties_bar, Finset.sum_singleton, amount_bar]
theorem expect_send (s : Fin 2) (r : ℕ) (hr : r < 4) : (sched (F := F) m ρ).expect (sendCell c s) r = N := by
  unfold Schedule.expect Schedule.amountOf; rw [duties_send m ρ c s r hr, Finset.sum_singleton, amount_send]
theorem expect_recv (i : Fin 8) : (sched (F := F) m ρ).expect (recvCell c i) 0 = N := by
  unfold Schedule.expect Schedule.amountOf; rw [duties_recv, Finset.sum_singleton, amount_recv]

theorem payload_bar (r : ℕ) (d : Unit) : (sched (F := F) m ρ).payload (barCell c) r d = barPay c := by dsimp only [sched]; rw [classify_bar]
theorem payload_send (s : Fin 2) (r : ℕ) (d : Unit) : (sched (F := F) m ρ).payload (sendCell c s) r d = sendPay c s := by dsimp only [sched]; rw [classify_send]
theorem payload_recv (i : Fin 8) (r : ℕ) (d : Unit) : (sched (F := F) m ρ).payload (recvCell c i) r d = recvPay m ρ c i := by dsimp only [sched]; rw [classify_recv]

end Sched

/-! ## After the last round -/

section Later
variable (c : Dev nD)

theorem duties_bar_later (r : ℕ) (hr : 1 ≤ r) : (sched (F := F) m ρ).duties (barCell c) r = ∅ := by
  dsimp only [sched]; rw [if_pos rfl, classify_bar]; exact if_neg (by omega)
theorem duties_send_later (s : Fin 2) (r : ℕ) (hr : 4 ≤ r) : (sched (F := F) m ρ).duties (sendCell c s) r = ∅ := by
  dsimp only [sched]; rw [if_pos rfl, classify_send]; exact if_neg (by omega)
theorem duties_recv_later (i : Fin 8) (r : ℕ) (hr : 1 ≤ r) : (sched (F := F) m ρ).duties (recvCell c i) r = ∅ := by
  dsimp only [sched]; rw [if_pos rfl, classify_recv]; exact if_neg (by omega)

end Later

/-! ## What each device owes at launch; the levels -/

/-- Device `c` owes the partner's barrier cell one unit and each of the partner's eight arrival cells a slot's credit — summed so that the
    signal peels the last summand and transfer `i` the one before the rest. -/
def O₀ (c : Dev nD) : CellTallies nD τ sig Unit :=
  tallyAt (recvCell (peer c) 7) () N + tallyAt (recvCell (peer c) 6) () N + tallyAt (recvCell (peer c) 5) () N + tallyAt (recvCell (peer c) 4) () N
    + tallyAt (recvCell (peer c) 3) () N + tallyAt (recvCell (peer c) 2) () N + tallyAt (recvCell (peer c) 1) () N + tallyAt (recvCell (peer c) 0) () N
    + tallyAt (barCell (peer c)) () 1

def L (g : GSem nD τ sig) : Finset Unit := if g.1.2 = .tc then {()} else ∅
/-- The barrier cells at level 1, the arrival cells at 2, everything else (the pipeline's staging cells, the departure cells) at 0: a device
    waits on its barrier cell owing only arrival credit, on a departure cell owing only arrival credit, on an arrival cell owing nothing. -/
def lv (g : GSem nD τ sig) (_ : Unit) : ℕ := match classify g.2 with | some .bar => 1 | some (.recv _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [classify_bar]
theorem lv_send (c : Dev nD) (s : Fin 2) (u : Unit) : lv (sendCell c s) u = 0 := by dsimp only [lv]; rw [classify_send]
theorem lv_recv (c : Dev nD) (i : Fin 8) (u : Unit) : lv (recvCell c i) u = 2 := by dsimp only [lv]; rw [classify_recv]

end Cert.KernelIdeal.A2A

end
-- ==== Proof.Dat.lean ====
/-
  What a device holds when its body starts and when it ends, and the contents the body leaves in the staged result.

  The result block of device `c` (4096 rows of 512) is filled by nine stores: its own column half of its own rows, and for each of the
  eight landed tiles the tile widened back to 32 bits, at the partner's rows. Read back as ONE function it is `View.canon` of those nine
  pieces (the last store first).
-/
import proofs.«900619_g7700000000000620_dist_a2a_v7x_xyz2x2x2_x_m2048_n512_f32_1_alg».proof.Proof.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's contents -/

/-- The device's own column half of its own 2048 rows. -/
def ownTile (c : Dev nD) : Vec F S2048x512 .f32 :=
  (xM : Memref sig .tc .vmem S2048x1024 .f32).view.readAt (Elt F) (Rect.unit (s := S2048x1024) (k0_off9 c) S2048x512.size (k0_off9_inb c)).toLoadRect (xstg m ρ c)

/-- The nine stores into the staged result, the last first. -/
def outPieces (c : Dev nD) : List (View.Piece (Elt F) S4096x512 .f32) :=
  [
    ⟨Rect.unit (s := S4096x512) (k0_off11 c 1792#32) S256x512.size (k0_off11_inb c 7), (k0_pay18 ((rM : Memref sig .tc .vmem S8x256x512 .bf16).view.readAt (Elt F) (Rect.unit (s := S8x256x512) ![7, 0, 0] S1x256x512.size inb_S8x256x512_S1x256x512_7_0_0).toLoadRect (landed m ρ c 7)))⟩,
    ⟨Rect.unit (s := S4096x512) (k0_off11 c 1536#32) S256x512.size (k0_off11_inb c 6), (k0_pay17 ((rM : Memref sig .tc .vmem S8x256x512 .bf16).view.readAt (Elt F) (Rect.unit (s := S8x256x512) ![6, 0, 0] S1x256x512.size inb_S8x256x512_S1x256x512_6_0_0).toLoadRect (landed m ρ c 6)))⟩,
    ⟨Rect.unit (s := S4096x512) (k0_off11 c 1280#32) S256x512.size (k0_off11_inb c 5), (k0_pay16 ((rM : Memref sig .tc .vmem S8x256x512 .bf16).view.readAt (Elt F) (Rect.unit (s := S8x256x512) ![5, 0, 0] S1x256x512.size inb_S8x256x512_S1x256x512_5_0_0).toLoadRect (landed m ρ c 5)))⟩,
    ⟨Rect.unit (s := S4096x512) (k0_off11 c 1024#32) S256x512.size (k0_off11_inb c 4), (k0_pay15 ((rM : Memref sig .tc .vmem S8x256x512 .bf16).view.readAt (Elt F) (Rect.unit (s := S8x256x512) ![4, 0, 0] S1x256x512.size inb_S8x256x512_S1x256x512_4_0_0).toLoadRect (landed m ρ c 4)))⟩,
    ⟨Rect.unit (s := S4096x512) (k0_off11 c 768#32) S256x512.size (k0_off11_inb c 3), (k0_pay14 ((rM : Memref sig .tc .vmem S8x256x512 .bf16).view.readAt (Elt F) (Rect.unit (s := S8x256x512) ![3, 0, 0] S1x256x512.size inb_S8x256x512_S1x256x512_3_0_0).toLoadRect (landed m ρ c 3)))⟩,
    ⟨Rect.unit (s := S4096x512) (k0_off11 c 512#32) S256x512.size (k0_off11_inb c 2), (k0_pay13 ((rM : Memref sig .tc .vmem S8x256x512 .bf16).view.readAt (Elt F) (Rect.unit (s := S8x256x512) ![2, 0, 0] S1x256x512.size inb_S8x256x512_S1x256x512_2_0_0).toLoadRect (landed m ρ c 2)))⟩,
    ⟨Rect.unit (s := S4096x512) (k0_off11 c 256#32) S256x512.size (k0_off11_inb c 1), (k0_pay12 ((rM : Memref sig .tc .vmem S8x256x512 .bf16).view.readAt (Elt F) (Rect.unit (s := S8x256x512) ![1, 0, 0] S1x256x512.size inb_S8x256x512_S1x256x512_1_0_0).toLoadRect (landed m ρ c 1)))⟩,
    ⟨Rect.unit (s := S4096x512) (k0_off11 c 0#32) S256x512.size (k0_off11_inb c 0), (k0_pay11 ((rM : Memref sig .tc .vmem S8x256x512 .bf16).view.readAt (Elt F) (Rect.unit (s := S8x256x512) ![0, 0, 0] S1x256x512.size inb_S8x256x512_S1x256x512_0_0_0).toLoadRect (landed m ρ c 0)))⟩,
    ⟨Rect.unit (s := S4096x512) (k0_off10 c) S2048x512.size (k0_off10_inb c), k0_pay10 (ownTile m ρ c)⟩ ]

/-- What the body leaves in the staged result. -/
def outAt (c : Dev nD) : (cc0_stg1_0 : Ref sig .tc).ty.Contents (Elt F) := View.canon (outPieces m ρ c)

/-! ## The ghost state -/

/-- The cells' invariants device `c`'s body opens, under the names `K` the launch allocated them at: its own eleven and its partner's. -/
def invs (K : Dev nD × Fin 11 → ℕ) (c : Dev nD) : sProp 𝕄 :=
  iprop((bigSep Finset.univ fun k : Fin 11 => cellInv ER (sched m ρ) (K (c, k)) (kcell (c, k)))
    ∗ (bigSep Finset.univ fun k : Fin 11 => cellInv ER (sched m ρ) (K (peer c, k)) (kcell (peer c, k))))

instance invs_persistent (K : Dev nD × Fin 11 → ℕ) (c : Dev nD) : BI.Persistent (invs m ρ K c) := by unfold invs; infer_instance

/-- The tokens of the duties device `c` pays: the partner's barrier duty, the partner's eight arrival duties, and its own two departure
    cells' four duties each. -/
def payToks (c : Dev nD) : sProp 𝕄 :=
  iprop(dutyTok ER (barCell (peer c)) 0 ()
    ∗ (bigSep Finset.univ fun i : Fin 8 => dutyTok ER (recvCell (peer c) i) 0 ())
    ∗ (bigSep Finset.univ fun sr : Fin 2 × Fin 4 => dutyTok ER (sendCell c sr.1) sr.2.val ()))

/-- The exchange's ghost state device `c` starts from: the invariants; its positions at round 0 of its eleven cells; round 0 reached of its
    own cells and of its partner's; the tokens it pays with. -/
def ghost (K : Dev nD × Fin 11 → ℕ) (c : Dev nD) : sProp 𝕄 :=
  iprop(invs m ρ K c
    ∗ (bigSep Finset.univ fun k : Fin 11 => atPos ER (kcell (c, k)) 0 ∅ 0)
    ∗ (bigSep Finset.univ fun k : Fin 11 => reached ER (kcell (c, k)) 0)
    ∗ (bigSep Finset.univ fun k : Fin 11 => reached ER (kcell (peer c, k)) 0)
    ∗ payToks c)

/-- The credit a device is dealt at launch: its barrier's unit and each arrival cell's slot credit. -/
def creds (c : Dev nD) : sProp 𝕄 :=
  iprop(cred (tallyAt (barCell c) () 1) ∗ bigSep Finset.univ fun i : Fin 8 => cred (tallyAt (recvCell c i) () N))

/-- What device `c`'s body starts from besides its buffers: the ghost state at some names, its launch credit, the level facts. -/
def start (c : Dev nD) : sProp 𝕄 :=
  iprop((∃ K, ghost m ρ K c) ∗ creds c ∗ levAts L lv)

/-- The two scratch buffers, each whole over some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The kernel's own ten semaphores at zero. -/
def ownZero (c : Dev nD) : sProp 𝕄 :=
  iprop((bigSep Finset.univ fun s : Fin 2 => semVal (sendCell c s) 0) ∗ (bigSep Finset.univ fun i : Fin 8 => semVal (recvCell c i) 0))

def Φ₀ (c : Dev nD) : sProp 𝕄 := iprop(start m ρ c ∗ scratch c)
/-- After the point: the scratch buffers back whole, the ten own cells closed with their counters at zero (the barrier cell is the runtime's:
    nothing to hand back). -/
def Φ₁ (c : Dev nD) : sProp 𝕄 := iprop(scratch c ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 11 → ℕ) (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.A2A

end
-- ==== Proof.Levels.lean ====
/-
  The levels' word at each wait of the exchange: everything a device still owes lies above the cell it waits on.

  A device owes only its partner's cells: the partner's barrier cell (level 1) one unit until its signal, and the partner's arrival cells
  (level 2) until its transfers. It waits on the pipeline's staging cells and on its own departure cells (level 0) owing any of these, on
  its own barrier cell (level 1) owing arrival credit only, and on its own arrival cells owing nothing.
-/
import proofs.«900619_g7700000000000620_dist_a2a_v7x_xyz2x2x2_x_m2048_n512_f32_1_alg».proof.Proof.Dat

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is owed lies among the partner's arrival cells and the partner's barrier cell. -/
def OwesPartner (c : Dev nD) (O : CellTallies nD τ sig Unit) : Prop :=
  ∀ g u, 0 < O g u → (∃ i : Fin 8, g = recvCell (peer c) i) ∨ g = barCell (peer c)
/-- What is owed lies among the partner's arrival cells. -/
def OwesArrivals (c : Dev nD) (O : CellTallies nD τ sig Unit) : Prop :=
  ∀ g u, 0 < O g u → ∃ i : Fin 8, g = recvCell (peer c) i

theorem owesPartner_zero (c : Dev nD) : OwesPartner c 0 := fun g u h => absurd h (Nat.lt_irrefl 0)
theorem owesArrivals_zero (c : Dev nD) : OwesArrivals c 0 := fun g u h => absurd h (Nat.lt_irrefl 0)
theorem OwesArrivals.partner {c : Dev nD} {O : CellTallies nD τ sig Unit} (h : OwesArrivals c O) : OwesPartner c O := fun g u hg => .inl (h g u hg)

/-- A sum owes the partner when both summands do; a single tally on a partner's arrival cell or barrier cell does. -/
theorem OwesPartner.add {c : Dev nD} {O O' : CellTallies nD τ sig Unit} (h : OwesPartner c O) (h' : OwesPartner c O') : OwesPartner c (O + O') := by
  intro g u hg
  rcases Pipeline.add_pos_cases hg with h1 | h2
  · exact h g u h1
  · exact h' g u h2
theorem OwesArrivals.add {c : Dev nD} {O O' : CellTallies nD τ sig Unit} (h : OwesArrivals c O) (h' : OwesArrivals c O') : OwesArrivals c (O + O') := by
  intro g u hg
  rcases Pipeline.add_pos_cases hg with h1 | h2
  · exact h g u h1
  · exact h' g u h2
theorem owesArrivals_tally (c : Dev nD) (i : Fin 8) (n : ℕ) : OwesArrivals c (tallyAt (recvCell (peer c) i) () n) := by
  intro g u hg
  exact ⟨i, (Pipeline.tallyAt_pos hg).1⟩
theorem owesPartner_bar (c : Dev nD) (n : ℕ) : OwesPartner c (tallyAt (barCell (peer c)) () n) := by
  intro g u hg
  exact .inr (Pipeline.tallyAt_pos hg).1
theorem owesPartner_O₀ (c : Dev nD) : OwesPartner c (O₀ c) := by
  unfold O₀
  exact ((((((((owesArrivals_tally c 7 N).add (owesArrivals_tally c 6 N)).add (owesArrivals_tally c 5 N)).add (owesArrivals_tally c 4 N)).add
    (owesArrivals_tally c 3 N)).add (owesArrivals_tally c 2 N)).add (owesArrivals_tally c 1 N)).add (owesArrivals_tally c 0 N)).partner.add
    (owesPartner_bar c 1)

/-- A wait on a cell at level 0 of the device's own thread, owing the partner. -/
theorem mayWait_low (c : Dev nD) (q : SemLoc sig) (hq : lv ((c : Thread nD τ), q) () = 0) (O : CellTallies nD τ sig Unit) (hO : OwesPartner c O) :
    (levAts L lv : sProp 𝕄) ⊢ MayWait (c : Thread nD τ) q () O := by
  -- the waited cell is at level 0; whatever is owed is a partner's arrival cell (level 2) or the partner's barrier cell (level 1)
  refine Pipeline.mayWait_of_levAts (L := L) (lev := lv) (by rw [L_tc]; exact Finset.mem_singleton_self _) fun g u hg => ?_
  rcases hO g u hg with ⟨i, rfl⟩ | rfl
  · refine ⟨by rw [L_tc]; exact Finset.mem_singleton_self _, ?_⟩
    rw [hq, lv_recv]; exact Nat.zero_lt_two
  · refine ⟨by rw [L_tc]; exact Finset.mem_singleton_self _, ?_⟩
    rw [hq, lv_bar]; exact Nat.zero_lt_one

/-- The barrier wait, owing arrival credit only. -/
theorem mayWait_bar (c : Dev nD) (O : CellTallies nD τ sig Unit) (hO : OwesArrivals c O) :
    (levAts L lv : sProp 𝕄) ⊢ MayWait (c : Thread nD τ) (.reg barS) () O := by
  -- the barrier cell is at level 1; whatever is owed is a partner's arrival cell, at level 2
  refine Pipeline.mayWait_of_levAts (L := L) (lev := lv) (by rw [L_tc]; exact Finset.mem_singleton_self _) fun g u hg => ?_
  obtain ⟨i, rfl⟩ := hO g u hg
  refine ⟨by rw [L_tc]; exact Finset.mem_singleton_self _, ?_⟩
  rw [lv_bar c (), lv_recv]; exact Nat.one_lt_two

/-- The pipeline's two staging cells are at level 0. -/
theorem lv_stage (c : Dev nD) (q : DmaSem sig) (hq : q.val < 2) : lv ((c : Thread nD τ), .dma q) () = 0 := by
  -- semaphores 0 and 1 are none of the exchange's: neither 2, nor 3, nor in 4 … 11
  have hcl : classify (.dma q : SemLoc sig) = none := by
    show (if q.val = 2 then some (CK.send 0) else _) = none
    rw [if_neg (by omega), if_neg (by omega), dif_neg (by omega)]
  unfold lv
  rw [hcl]

/-- info: 'Cert.KernelIdeal.A2A.mayWait_low' depends on axioms: [propext, Classical.choice, Quot.sound] -/
#guard_msgs in #print axioms mayWait_low

/-- info: 'Cert.KernelIdeal.A2A.mayWait_bar' depends on axioms: [propext, Classical.choice, Quot.sound] -/
#guard_msgs in #print axioms mayWait_bar

end Cert.KernelIdeal.A2A

end
-- ==== Proof.Slots.lean ====
/-
  Cutting the two scratch buffers into their slots and joining them back, and what a landing leaves in a landing slot.

  The staging buffer is two slots and the landing buffer eight, each slot the part of its buffer at one first coordinate: the slots of a
  buffer are pairwise disjoint and together are the whole buffer. A landing slot written everywhere with the partner's tile holds, on the
  slot, what the schedule promises the slot's owner.
-/
import proofs.«900619_g7700000000000620_dist_a2a_v7x_xyz2x2x2_x_m2048_n512_f32_1_alg».proof.Proof.Dat

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staging buffer: two slots

A slot of the staging buffer is the unit rectangle at first coordinate `k`, whole on the other two axes: an element of the buffer
lies in slot `k` exactly when its first coordinate is `k`. -/

theorem mem_unit_S2 (k : ℕ) (inb : ∀ a, (![k, 0, 0] : Fin 3 → Nat) a + S1x256x512.size a ≤ S2x256x512.size a) (i : S2x256x512.Idx) :
    i ∈ (Rect.unit (s := S2x256x512) ![k, 0, 0] S1x256x512.size inb).set ↔ (i 0).val = k := by
  have h1 : (i 1).val < 256 := (i 1).isLt
  have h2 : (i 2).val < 512 := (i 2).isLt
  rw [Rect.mem_set_unit]
  constructor
  · intro h
    have h0 := h 0
    simp only [Matrix.cons_val_zero] at h0
    omega
  · intro h a
    fin_cases a
    · simp only [Fin.zero_eta, Matrix.cons_val_zero]; omega
    · simp only [Fin.mk_one, Matrix.cons_val_one, Matrix.cons_val_zero]; omega
    · simp only [Fin.reduceFinMk, Matrix.cons_val]; omega

theorem mem_sSlot0 (i : S2x256x512.Idx) : i ∈ (sSlot0 : Memref sig .tc .vmem S256x512 .bf16).view.set ↔ (i 0).val = 0 := by
  rw [show (sSlot0 : Memref sig .tc .vmem S256x512 .bf16).view.set = (Rect.unit (s := S2x256x512) ![0, 0, 0] S1x256x512.size inb_S2x256x512_S1x256x512_0_0_0).set from by
    simp only [Memref.view_squeeze, Memref.view_slice, Memref.view_whole, View.set_reshape, View.set_slice_whole]]
  exact mem_unit_S2 0 _ i

theorem mem_sSlot1 (i : S2x256x512.Idx) : i ∈ (sSlot1 : Memref sig .tc .vmem S256x512 .bf16).view.set ↔ (i 0).val = 1 := by
  rw [show (sSlot1 : Memref sig .tc .vmem S256x512 .bf16).view.set = (Rect.unit (s := S2x256x512) ![1, 0, 0] S1x256x512.size inb_S2x256x512_S1x256x512_1_0_0).set from by
    simp only [Memref.view_squeeze, Memref.view_slice, Memref.view_whole, View.set_reshape, View.set_slice_whole]]
  exact mem_unit_S2 1 _ i

theorem sSlot_disjoint : Disjoint (sSlot0 : Memref sig .tc .vmem S256x512 .bf16).view.set (sSlot1 : Memref sig .tc .vmem S256x512 .bf16).view.set :=
  Finset.disjoint_left.mpr fun i h0 h1 => by
    rw [mem_sSlot0] at h0; rw [mem_sSlot1] at h1; omega

theorem sSlot_cover : (sSlot0 : Memref sig .tc .vmem S256x512 .bf16).view.set ∪ (sSlot1 : Memref sig .tc .vmem S256x512 .bf16).view.set = Finset.univ := by
  refine Finset.eq_univ_of_forall fun (i : S2x256x512.Idx) => ?_
  have h0 : (i 0).val < 2 := (i 0).isLt
  rw [Finset.mem_union, mem_sSlot0, mem_sSlot1]
  omega

/-- The staging buffer, whole, is its two slots. -/
theorem send_split (c : Dev nD) (f : Buf (Elt F) ((c : Thread nD τ).loc cc0_scratch0)) :
    (((c : Thread nD τ).loc cc0_scratch0) ↦{fullShare} f : sProp 𝕄)
      ⊢ iprop((sSlot0.view.loc (c : Thread nD τ) ↦[sSlot0.view.set]{fullShare} f) ∗ (sSlot1.view.loc (c : Thread nD τ) ↦[sSlot1.view.set]{fullShare} f)) := by
  refine (Entails.of_eq ?_).trans (pointsTo_union (ℓ := (c : Thread nD τ).loc cc0_scratch0) sSlot_disjoint).1
  rw [sSlot_cover]

/-- The two slots, over any contents, are the staging buffer whole over some contents. -/
theorem send_join (c : Dev nD) (f g : Buf (Elt F) ((c : Thread nD τ).loc cc0_scratch0)) :
    iprop((sSlot0.view.loc (c : Thread nD τ) ↦[sSlot0.view.set]{fullShare} f) ∗ (sSlot1.view.loc (c : Thread nD τ) ↦[sSlot1.view.set]{fullShare} g))
      ⊢ (iprop(∃ h : Buf (Elt F) ((c : Thread nD τ).loc cc0_scratch0), ((c : Thread nD τ).loc cc0_scratch0) ↦{fullShare} h) : sProp 𝕄) := by
  refine (pointsTo_join (ℓ := (c : Thread nD τ).loc cc0_scratch0) sSlot_disjoint).trans ?_
  rw [sSlot_cover]
  exact exists_intro (Φ := fun h : Buf (Elt F) ((c : Thread nD τ).loc cc0_scratch0) => (((c : Thread nD τ).loc cc0_scratch0) ↦{fullShare} h : sProp 𝕄)) _

/-! ## The landing buffer: eight slots

Landing slot `k` is the unit rectangle at first coordinate `k` of the landing buffer, whole on the other two axes, its leading unit axis
dropped: its index `y` sits at `(k, y 0, y 1)`. -/

/-- Landing slot `k`, for any in-range `k`: each of the eight named slots is one of these. -/
abbrev rSlotAt (k : ℕ) (inb : ∀ a, (![k, 0, 0] : Fin 3 → Nat) a + S1x256x512.size a ≤ S8x256x512.size a) : Memref sig .tc .vmem S256x512 .bf16 :=
  ((rM.slice (Rect.unit (s := S8x256x512) ![k, 0, 0] S1x256x512.size inb) (fun _ => rfl)).squeeze S256x512 squeezes_S1x256x512_S256x512)

/-- A buffer all of whose slots hold `V`, read under index `y` of slot `k`, is `V y`. -/
theorem slotsOf_emb (V : Vec F S256x512 .bf16) (k : ℕ) (inb : ∀ a, (![k, 0, 0] : Fin 3 → Nat) a + S1x256x512.size a ≤ S8x256x512.size a) (y : S256x512.Idx) :
    slotsOf V ((rSlotAt k inb).view.emb y) = V y := by
  have he : (rSlotAt k inb).view.emb y
      = (Rect.unit (s := S8x256x512) ![k, 0, 0] S1x256x512.size inb).emb (Shape.reshapeEquiv squeezes_S1x256x512_S256x512.numel_eq y) := rfl
  rw [he, Shape.reshapeEquiv_cons_one]
  unfold slotsOf
  congr 1
  funext a
  match a with
  | ⟨0, _⟩ =>
    refine Fin.ext ?_
    show 0 + 1 * ((Fin.cons (⟨0, Nat.one_pos⟩ : Fin 1) y : S1x256x512.Idx) 1).val = (y 0).val
    rw [Nat.zero_add, Nat.one_mul]; rfl
  | ⟨1, _⟩ =>
    refine Fin.ext ?_
    show 0 + 1 * ((Fin.cons (⟨0, Nat.one_pos⟩ : Fin 1) y : S1x256x512.Idx) 2).val = (y 1).val
    rw [Nat.zero_add, Nat.one_mul]; rfl

/-- A landing slot written everywhere with `V` holds, on the slot, what a buffer all of whose slots hold `V` holds. -/
theorem landing_at (k : ℕ) (inb : ∀ a, (![k, 0, 0] : Fin 3 → Nat) a + S1x256x512.size a ≤ S8x256x512.size a) (d : Dev nD)
    (fd : Buf (Elt F) ((rSlotAt k inb).view.loc (d : Thread nD τ))) (V : Vec F S256x512 .bf16) :
    (((rSlotAt k inb).view.loc (d : Thread nD τ)) ↦[(rSlotAt k inb).view.set]{fullShare} ((rSlotAt k inb).view.write (Elt F) fd V Finset.univ) : sProp 𝕄)
      = (((rSlotAt k inb).view.loc (d : Thread nD τ)) ↦[(rSlotAt k inb).view.set]{fullShare} slotsOf V) := by
  refine pointsTo_congr fun j hj => ?_
  obtain ⟨y, rfl⟩ := View.exists_emb_of_mem_set (rSlotAt k inb).view hj
  rw [View.write_emb_of_mem _ _ (Finset.mem_univ y)]
  exact (slotsOf_emb V k inb y).symm

section Landing
variable (m : (ℓ : Loc nD τ sig) → Buf (Elt F) ℓ) (ρ : Dev nD → PrngReg)

/-- What a transfer of device `c`'s tile `i` leaves in landing slot `i` of the partner is what the schedule promises the partner. -/
theorem landing (c : Dev nD) (i : Fin 8) (fd : Buf (Elt F) ((rSlot i).view.loc (peer c : Thread nD τ))) (v : Vec F S256x512 .bf16) (hv : v = sentVal m ρ c i) :
    (((rSlot i).view.loc (peer c : Thread nD τ)) ↦[(rSlot i).view.set]{fullShare} ((rSlot i).view.write (Elt F) fd v Finset.univ) : sProp 𝕄)
      ⊢ (sched m ρ).payload (recvCell (peer c) i) 0 () := by
  subst hv
  rw [payload_recv]
  fin_cases i
  · exact Entails.of_eq ((landing_at 0 inb_S8x256x512_S1x256x512_0_0_0 (peer c) fd (sentVal m ρ c 0)).trans (by unfold recvPay landed; rw [peer_peer]))
  · exact Entails.of_eq ((landing_at 1 inb_S8x256x512_S1x256x512_1_0_0 (peer c) fd (sentVal m ρ c 1)).trans (by unfold recvPay landed; rw [peer_peer]))
  · exact Entails.of_eq ((landing_at 2 inb_S8x256x512_S1x256x512_2_0_0 (peer c) fd (sentVal m ρ c 2)).trans (by unfold recvPay landed; rw [peer_peer]))
  · exact Entails.of_eq ((landing_at 3 inb_S8x256x512_S1x256x512_3_0_0 (peer c) fd (sentVal m ρ c 3)).trans (by unfold recvPay landed; rw [peer_peer]))
  · exact Entails.of_eq ((landing_at 4 inb_S8x256x512_S1x256x512_4_0_0 (peer c) fd (sentVal m ρ c 4)).trans (by unfold recvPay landed; rw [peer_peer]))
  · exact Entails.of_eq ((landing_at 5 inb_S8x256x512_S1x256x512_5_0_0 (peer c) fd (sentVal m ρ c 5)).trans (by unfold recvPay landed; rw [peer_peer]))
  · exact Entails.of_eq ((landing_at 6 inb_S8x256x512_S1x256x512_6_0_0 (peer c) fd (sentVal m ρ c 6)).trans (by unfold recvPay landed; rw [peer_peer]))
  · exact Entails.of_eq ((landing_at 7 inb_S8x256x512_S1x256x512_7_0_0 (peer c) fd (sentVal m ρ c 7)).trans (by unfold recvPay landed; rw [peer_peer]))

end Landing

/-! ## A staging slot read back after a store through the enclosing buffer

Index `j` of staging slot `k` and index `(0, j 0, j 1)` of the unit rectangle at first coordinate `k` are the same element of the staging
buffer, so the slot reads back what was stored through the rectangle. -/

/-- Staging slot `k`, for any in-range `k`: each of the two named slots is one of these. -/
abbrev sSlotAt (k : ℕ) (inb : ∀ a, (![k, 0, 0] : Fin 3 → Nat) a + S1x256x512.size a ≤ S2x256x512.size a) : Memref sig .tc .vmem S256x512 .bf16 :=
  ((sM.slice (Rect.unit (s := S2x256x512) ![k, 0, 0] S1x256x512.size inb) (fun _ => rfl)).squeeze S256x512 squeezes_S1x256x512_S256x512)

/-- An index of a slot behind the one coordinate `0`, by coordinates. -/
theorem cons_eq_ix3 (j : S256x512.Idx) :
    (Fin.cons (⟨0, Nat.one_pos⟩ : Fin 1) j : S1x256x512.Idx) = ValueIdx.ix3 (0 : Fin 1) (j 0 : Fin 256) (j 1 : Fin 512) := by
  funext a; match a with | ⟨0, _⟩ => rfl | ⟨1, _⟩ => rfl | ⟨2, _⟩ => rfl

theorem slot_read_write_at (k : ℕ) (inb : ∀ a, (![k, 0, 0] : Fin 3 → Nat) a + S1x256x512.size a ≤ S2x256x512.size a)
    (f : (cc0_scratch0 : Ref sig .tc).ty.Contents (Elt F)) (w : FVec F S1x256x512 .bf16) :
    (sSlotAt k inb).view.read (Elt F) (View.write (Elt F) ((Memref.whole cc0_scratch0 : Memref sig .tc .vmem S2x256x512 .bf16).access (Rect.unit (s := S2x256x512) ![k, 0, 0] S1x256x512.size inb)) f w Finset.univ)
      = fun j => w (ValueIdx.ix3 (0 : Fin 1) (j 0 : Fin 256) (j 1 : Fin 512)) := by
  funext j
  have he : (sSlotAt k inb).view.emb j
      = ((Memref.whole cc0_scratch0 : Memref sig .tc .vmem S2x256x512 .bf16).access (Rect.unit (s := S2x256x512) ![k, 0, 0] S1x256x512.size inb)).emb
          (ValueIdx.ix3 (0 : Fin 1) (j 0 : Fin 256) (j 1 : Fin 512)) := by
    show (Rect.unit (s := S2x256x512) ![k, 0, 0] S1x256x512.size inb).emb (Shape.reshapeEquiv squeezes_S1x256x512_S256x512.numel_eq j)
      = (Rect.unit (s := S2x256x512) ![k, 0, 0] S1x256x512.size inb).emb (ValueIdx.ix3 (0 : Fin 1) (j 0 : Fin 256) (j 1 : Fin 512))
    rw [Shape.reshapeEquiv_cons_one]
    exact congrArg (fun z : S1x256x512.Idx => (Rect.unit (s := S2x256x512) ![k, 0, 0] S1x256x512.size inb).emb z) (cons_eq_ix3 j)
  rw [View.read_apply, he, View.write_emb_of_mem _ _ (Finset.mem_univ _)]
  rfl

theorem slot0_read_write (c : Dev nD) (f : Buf (Elt F) ((c : Thread nD τ).loc cc0_scratch0)) (w : FVec F S1x256x512 .bf16) :
    sSlot0.view.read (Elt F) (View.write (Elt F) ((Memref.whole cc0_scratch0 : Memref sig .tc .vmem S2x256x512 .bf16).access (Rect.unit (s := S2x256x512) ![0, 0, 0] S1x256x512.size inb_S2x256x512_S1x256x512_0_0_0)) f w Finset.univ)
      = fun j => w (ValueIdx.ix3 (0 : Fin 1) (j 0 : Fin 256) (j 1 : Fin 512)) :=
  slot_read_write_at 0 inb_S2x256x512_S1x256x512_0_0_0 f w

theorem slot1_read_write (c : Dev nD) (f : Buf (Elt F) ((c : Thread nD τ).loc cc0_scratch0)) (w : FVec F S1x256x512 .bf16) :
    sSlot1.view.read (Elt F) (View.write (Elt F) ((Memref.whole cc0_scratch0 : Memref sig .tc .vmem S2x256x512 .bf16).access (Rect.unit (s := S2x256x512) ![1, 0, 0] S1x256x512.size inb_S2x256x512_S1x256x512_1_0_0)) f w Finset.univ)
      = fun j => w (ValueIdx.ix3 (0 : Fin 1) (j 0 : Fin 256) (j 1 : Fin 512)) :=
  slot_read_write_at 1 inb_S2x256x512_S1x256x512_1_0_0 f w

/-- An element of the landing buffer lies in landing slot `k` exactly when its first coordinate is `k`. -/
theorem mem_unit_S8 (k : ℕ) (inb : ∀ a, (![k, 0, 0] : Fin 3 → Nat) a + S1x256x512.size a ≤ S8x256x512.size a) (i : S8x256x512.Idx) :
    i ∈ (Rect.unit (s := S8x256x512) ![k, 0, 0] S1x256x512.size inb).set ↔ (i 0).val = k := by
  have h1 : (i 1).val < 256 := (i 1).isLt
  have h2 : (i 2).val < 512 := (i 2).isLt
  rw [Rect.mem_set_unit]
  constructor
  · intro h
    have h0 := h 0
    simp only [Matrix.cons_val_zero] at h0
    omega
  · intro h a
    fin_cases a
    · simp only [Fin.zero_eta, Matrix.cons_val_zero]; omega
    · simp only [Fin.mk_one, Matrix.cons_val_one, Matrix.cons_val_zero]; omega
    · simp only [Fin.reduceFinMk, Matrix.cons_val]; omega

theorem mem_rSlotAt (k : ℕ) (inb : ∀ a, (![k, 0, 0] : Fin 3 → Nat) a + S1x256x512.size a ≤ S8x256x512.size a) (i : S8x256x512.Idx) :
    i ∈ (rSlotAt k inb).view.set ↔ (i 0).val = k := by
  rw [show (rSlotAt k inb).view.set = (Rect.unit (s := S8x256x512) ![k, 0, 0] S1x256x512.size inb).set from by
    simp only [Memref.view_squeeze, Memref.view_slice, Memref.view_whole, View.set_reshape, View.set_slice_whole]]
  exact mem_unit_S8 k inb i

theorem mem_rSlot0 (i : S8x256x512.Idx) : i ∈ (rSlot0 : Memref sig .tc .vmem S256x512 .bf16).view.set ↔ (i 0).val = 0 := mem_rSlotAt 0 _ i
theorem mem_rSlot1 (i : S8x256x512.Idx) : i ∈ (rSlot1 : Memref sig .tc .vmem S256x512 .bf16).view.set ↔ (i 0).val = 1 := mem_rSlotAt 1 _ i
theorem mem_rSlot2 (i : S8x256x512.Idx) : i ∈ (rSlot2 : Memref sig .tc .vmem S256x512 .bf16).view.set ↔ (i 0).val = 2 := mem_rSlotAt 2 _ i
theorem mem_rSlot3 (i : S8x256x512.Idx) : i ∈ (rSlot3 : Memref sig .tc .vmem S256x512 .bf16).view.set ↔ (i 0).val = 3 := mem_rSlotAt 3 _ i
theorem mem_rSlot4 (i : S8x256x512.Idx) : i ∈ (rSlot4 : Memref sig .tc .vmem S256x512 .bf16).view.set ↔ (i 0).val = 4 := mem_rSlotAt 4 _ i
theorem mem_rSlot5 (i : S8x256x512.Idx) : i ∈ (rSlot5 : Memref sig .tc .vmem S256x512 .bf16).view.set ↔ (i 0).val = 5 := mem_rSlotAt 5 _ i
theorem mem_rSlot6 (i : S8x256x512.Idx) : i ∈ (rSlot6 : Memref sig .tc .vmem S256x512 .bf16).view.set ↔ (i 0).val = 6 := mem_rSlotAt 6 _ i
theorem mem_rSlot7 (i : S8x256x512.Idx) : i ∈ (rSlot7 : Memref sig .tc .vmem S256x512 .bf16).view.set ↔ (i 0).val = 7 := mem_rSlotAt 7 _ i

/-- Each landing slot is disjoint from the slots after it. -/
theorem rSlot_disjoint0 : Disjoint ((rSlot0 : Memref sig .tc .vmem S256x512 .bf16).view.set) ((rSlot1 : Memref sig .tc .vmem S256x512 .bf16).view.set ∪ ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))))) :=
  Finset.disjoint_left.mpr fun (i : S8x256x512.Idx) h h' => by
    rw [mem_rSlot0] at h; rw [Finset.mem_union, mem_rSlot1, Finset.mem_union, mem_rSlot2, Finset.mem_union, mem_rSlot3, Finset.mem_union, mem_rSlot4, Finset.mem_union, mem_rSlot5, Finset.mem_union, mem_rSlot6, mem_rSlot7] at h'; omega
theorem rSlot_disjoint1 : Disjoint ((rSlot1 : Memref sig .tc .vmem S256x512 .bf16).view.set) ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set)))))) :=
  Finset.disjoint_left.mpr fun (i : S8x256x512.Idx) h h' => by
    rw [mem_rSlot1] at h; rw [Finset.mem_union, mem_rSlot2, Finset.mem_union, mem_rSlot3, Finset.mem_union, mem_rSlot4, Finset.mem_union, mem_rSlot5, Finset.mem_union, mem_rSlot6, mem_rSlot7] at h'; omega
theorem rSlot_disjoint2 : Disjoint ((rSlot2 : Memref sig .tc .vmem S256x512 .bf16).view.set) ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))) :=
  Finset.disjoint_left.mpr fun (i : S8x256x512.Idx) h h' => by
    rw [mem_rSlot2] at h; rw [Finset.mem_union, mem_rSlot3, Finset.mem_union, mem_rSlot4, Finset.mem_union, mem_rSlot5, Finset.mem_union, mem_rSlot6, mem_rSlot7] at h'; omega
theorem rSlot_disjoint3 : Disjoint ((rSlot3 : Memref sig .tc .vmem S256x512 .bf16).view.set) ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set)))) :=
  Finset.disjoint_left.mpr fun (i : S8x256x512.Idx) h h' => by
    rw [mem_rSlot3] at h; rw [Finset.mem_union, mem_rSlot4, Finset.mem_union, mem_rSlot5, Finset.mem_union, mem_rSlot6, mem_rSlot7] at h'; omega
theorem rSlot_disjoint4 : Disjoint ((rSlot4 : Memref sig .tc .vmem S256x512 .bf16).view.set) ((rSlot5 : Memref sig .tc .vmem S256x512 .bf16).view.set ∪ ((rSlot6 : Memref sig .tc .vmem S256x512 .bf16).view.set ∪ ((rSlot7 : Memref sig .tc .vmem S256x512 .bf16).view.set))) :=
  Finset.disjoint_left.mpr fun (i : S8x256x512.Idx) h h' => by
    rw [mem_rSlot4] at h; rw [Finset.mem_union, mem_rSlot5, Finset.mem_union, mem_rSlot6, mem_rSlot7] at h'; omega
theorem rSlot_disjoint5 : Disjoint ((rSlot5 : Memref sig .tc .vmem S256x512 .bf16).view.set) ((rSlot6 : Memref sig .tc .vmem S256x512 .bf16).view.set ∪ ((rSlot7 : Memref sig .tc .vmem S256x512 .bf16).view.set)) :=
  Finset.disjoint_left.mpr fun (i : S8x256x512.Idx) h h' => by
    rw [mem_rSlot5] at h; rw [Finset.mem_union, mem_rSlot6, mem_rSlot7] at h'; omega
theorem rSlot_disjoint6 : Disjoint ((rSlot6 : Memref sig .tc .vmem S256x512 .bf16).view.set) ((rSlot7 : Memref sig .tc .vmem S256x512 .bf16).view.set) :=
  Finset.disjoint_left.mpr fun (i : S8x256x512.Idx) h h' => by
    rw [mem_rSlot6] at h; rw [mem_rSlot7] at h'; omega

/-- The eight landing slots are the whole landing buffer. -/
theorem rSlot_cover : (rSlot0 : Memref sig .tc .vmem S256x512 .bf16).view.set ∪ ((rSlot1 : Memref sig .tc .vmem S256x512 .bf16).view.set ∪ ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))))) = Finset.univ := by
  refine Finset.eq_univ_of_forall fun (i : S8x256x512.Idx) => ?_
  have h0 : (i 0).val < 8 := (i 0).isLt
  rw [Finset.mem_union, mem_rSlot0, Finset.mem_union, mem_rSlot1, Finset.mem_union, mem_rSlot2, Finset.mem_union, mem_rSlot3, Finset.mem_union, mem_rSlot4, Finset.mem_union, mem_rSlot5, Finset.mem_union, mem_rSlot6, mem_rSlot7]
  omega

/-- The landing buffer, whole, is its eight slots. -/
theorem recv_split (c : Dev nD) (f : Buf (Elt F) ((c : Thread nD τ).loc cc0_scratch1)) :
    (((c : Thread nD τ).loc cc0_scratch1) ↦{fullShare} f : sProp 𝕄)
      ⊢ iprop((rSlot0.view.loc (c : Thread nD τ) ↦[rSlot0.view.set]{fullShare} f) ∗ (rSlot1.view.loc (c : Thread nD τ) ↦[rSlot1.view.set]{fullShare} f) ∗ (rSlot2.view.loc (c : Thread nD τ) ↦[rSlot2.view.set]{fullShare} f) ∗ (rSlot3.view.loc (c : Thread nD τ) ↦[rSlot3.view.set]{fullShare} f) ∗ (rSlot4.view.loc (c : Thread nD τ) ↦[rSlot4.view.set]{fullShare} f) ∗ (rSlot5.view.loc (c : Thread nD τ) ↦[rSlot5.view.set]{fullShare} f) ∗ (rSlot6.view.loc (c : Thread nD τ) ↦[rSlot6.view.set]{fullShare} f) ∗ (rSlot7.view.loc (c : Thread nD τ) ↦[rSlot7.view.set]{fullShare} f)) := by
  refine (Entails.of_eq ?_).trans
    ((pointsTo_union (ℓ := (c : Thread nD τ).loc cc0_scratch1) rSlot_disjoint0).1.trans (Idealize.SL.BI.sep_mono_r
    ((pointsTo_union (ℓ := (c : Thread nD τ).loc cc0_scratch1) rSlot_disjoint1).1.trans (Idealize.SL.BI.sep_mono_r
    ((pointsTo_union (ℓ := (c : Thread nD τ).loc cc0_scratch1) rSlot_disjoint2).1.trans (Idealize.SL.BI.sep_mono_r
    ((pointsTo_union (ℓ := (c : Thread nD τ).loc cc0_scratch1) rSlot_disjoint3).1.trans (Idealize.SL.BI.sep_mono_r
    ((pointsTo_union (ℓ := (c : Thread nD τ).loc cc0_scratch1) rSlot_disjoint4).1.trans (Idealize.SL.BI.sep_mono_r
    ((pointsTo_union (ℓ := (c : Thread nD τ).loc cc0_scratch1) rSlot_disjoint5).1.trans (Idealize.SL.BI.sep_mono_r
    (pointsTo_union (ℓ := (c : Thread nD τ).loc cc0_scratch1) rSlot_disjoint6).1))))))))))))
  rw [rSlot_cover]

/-- The eight slots, over any contents, are the landing buffer whole over some contents. -/
theorem recv_join (c : Dev nD) (f0 f1 f2 f3 f4 f5 f6 f7 : Buf (Elt F) ((c : Thread nD τ).loc cc0_scratch1)) :
    iprop((rSlot0.view.loc (c : Thread nD τ) ↦[rSlot0.view.set]{fullShare} f0) ∗ (rSlot1.view.loc (c : Thread nD τ) ↦[rSlot1.view.set]{fullShare} f1) ∗ (rSlot2.view.loc (c : Thread nD τ) ↦[rSlot2.view.set]{fullShare} f2) ∗ (rSlot3.view.loc (c : Thread nD τ) ↦[rSlot3.view.set]{fullShare} f3) ∗ (rSlot4.view.loc (c : Thread nD τ) ↦[rSlot4.view.set]{fullShare} f4) ∗ (rSlot5.view.loc (c : Thread nD τ) ↦[rSlot5.view.set]{fullShare} f5) ∗ (rSlot6.view.loc (c : Thread nD τ) ↦[rSlot6.view.set]{fullShare} f6) ∗ (rSlot7.view.loc (c : Thread nD τ) ↦[rSlot7.view.set]{fullShare} f7))
      ⊢ (iprop(∃ h : Buf (Elt F) ((c : Thread nD τ).loc cc0_scratch1), ((c : Thread nD τ).loc cc0_scratch1) ↦{fullShare} h) : sProp 𝕄) := by
  refine (Idealize.SL.BI.sep_mono_r (Idealize.SL.BI.sep_mono_r (Idealize.SL.BI.sep_mono_r (Idealize.SL.BI.sep_mono_r (Idealize.SL.BI.sep_mono_r (Idealize.SL.BI.sep_mono_r (pointsTo_join (ℓ := (c : Thread nD τ).loc cc0_scratch1) rSlot_disjoint6))))))).trans ?_
  refine (Idealize.SL.BI.sep_mono_r (Idealize.SL.BI.sep_mono_r (Idealize.SL.BI.sep_mono_r (Idealize.SL.BI.sep_mono_r (Idealize.SL.BI.sep_mono_r (pointsTo_join (ℓ := (c : Thread nD τ).loc cc0_scratch1) rSlot_disjoint5)))))).trans ?_
  refine (Idealize.SL.BI.sep_mono_r (Idealize.SL.BI.sep_mono_r (Idealize.SL.BI.sep_mono_r (Idealize.SL.BI.sep_mono_r (pointsTo_join (ℓ := (c : Thread nD τ).loc cc0_scratch1) rSlot_disjoint4))))).trans ?_
  refine (Idealize.SL.BI.sep_mono_r (Idealize.SL.BI.sep_mono_r (Idealize.SL.BI.sep_mono_r (pointsTo_join (ℓ := (c : Thread nD τ).loc cc0_scratch1) rSlot_disjoint3)))).trans ?_
  refine (Idealize.SL.BI.sep_mono_r (Idealize.SL.BI.sep_mono_r (pointsTo_join (ℓ := (c : Thread nD τ).loc cc0_scratch1) rSlot_disjoint2))).trans ?_
  refine (Idealize.SL.BI.sep_mono_r (pointsTo_join (ℓ := (c : Thread nD τ).loc cc0_scratch1) rSlot_disjoint1)).trans ?_
  refine (pointsTo_join (ℓ := (c : Thread nD τ).loc cc0_scratch1) rSlot_disjoint0).trans ?_
  rw [rSlot_cover]
  exact exists_intro (Φ := fun h : Buf (Elt F) ((c : Thread nD τ).loc cc0_scratch1) => (((c : Thread nD τ).loc cc0_scratch1) ↦{fullShare} h : sProp 𝕄)) _

/-- info: 'Cert.KernelIdeal.A2A.send_split' depends on axioms: [propext, Classical.choice, Quot.sound] -/
#guard_msgs in #print axioms send_split

/-- info: 'Cert.KernelIdeal.A2A.send_join' depends on axioms: [propext, Classical.choice, Quot.sound] -/
#guard_msgs in #print axioms send_join

/-- info: 'Cert.KernelIdeal.A2A.landing' depends on axioms: [propext, Classical.choice, Quot.sound] -/
#guard_msgs in #print axioms landing

/-- info: 'Cert.KernelIdeal.A2A.slot0_read_write' depends on axioms: [propext, Classical.choice, Quot.sound] -/
#guard_msgs in #print axioms slot0_read_write

/-- info: 'Cert.KernelIdeal.A2A.slot1_read_write' depends on axioms: [propext, Classical.choice, Quot.sound] -/
#guard_msgs in #print axioms slot1_read_write

/-- info: 'Cert.KernelIdeal.A2A.recv_split' depends on axioms: [propext, Classical.choice, Quot.sound] -/
#guard_msgs in #print axioms recv_split

/-- info: 'Cert.KernelIdeal.A2A.recv_join' depends on axioms: [propext, Classical.choice, Quot.sound] -/
#guard_msgs in #print axioms recv_join

end Cert.KernelIdeal.A2A

end
-- ==== Proof.Cover.lean ====
/-
  The nine stores into the staged result tile it.

  Write x for the device's coordinate on the first mesh axis (x = c / 4, so x is 0 or 1). The large store covers the
  device's own rows [2048 x, 2048 x + 2048) and the store of landed tile i the partner's rows
  [2048 (1 - x) + 256 i, 2048 (1 - x) + 256 i + 256); every store spans all 512 columns. The eight tiles exhaust the
  partner's 2048 rows, so each index of the 4096 x 512 block lies under one of the nine rectangles: row t of the partner's
  half lies under tile t / 256. Hence what the nine stores leave reads back as ONE function, the overlay of their payloads,
  whatever the buffer held before.
-/
import proofs.«900619_g7700000000000620_dist_a2a_v7x_xyz2x2x2_x_m2048_n512_f32_1_alg».proof.Proof.Dat
import Idealize.ShloMosaic.Lib.Pipeline.FrameBody

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the nine rectangles -/

/-- A device's coordinate on the first mesh axis is 0 or 1. -/
theorem dev_x (c : Dev nD) : c.val / 4 = 0 ∨ c.val / 4 = 1 := by
  have h : c.val < 8 := c.isLt
  omega

/-- The large rectangle holds every index whose row is one of the device's own 2048 rows. -/
theorem mem_own (c : Dev nD) (y : S4096x512.Idx)
    (h : 2048 * (c.val / 4) ≤ (y 0).val ∧ (y 0).val < 2048 * (c.val / 4) + 2048) :
    y ∈ (Rect.unit (s := S4096x512) (k0_off10 c) S2048x512.size (k0_off10_inb c)).set := by
  rw [Rect.mem_set_unit]
  intro a
  rw [k0_off10_eq c]
  match a with
  | ⟨0, _⟩ => exact h
  | ⟨1, _⟩ =>
    have h1 : (y 1).val < 512 := (y 1).isLt
    show 0 ≤ (y 1).val ∧ (y 1).val < 0 + 512
    omega

/-- The rectangle of landed tile `r` holds every index whose row is one of that tile's 256 rows of the partner's half. -/
theorem mem_tile (c : Dev nD) (r : Fin 8) (y : S4096x512.Idx)
    (h : 256 * r.val + 2048 - 2048 * (c.val / 4) ≤ (y 0).val
      ∧ (y 0).val < 256 * r.val + 2048 - 2048 * (c.val / 4) + 256) :
    y ∈ (Rect.unit (s := S4096x512) (k0_off11 c (BitVec.ofNat 32 (256 * r.val))) S256x512.size (k0_off11_inb c r)).set := by
  rw [Rect.mem_set_unit]
  intro a
  rw [k0_off11_eq c r]
  match a with
  | ⟨0, _⟩ => exact h
  | ⟨1, _⟩ =>
    have h1 : (y 1).val < 512 := (y 1).isLt
    show 0 ≤ (y 1).val ∧ (y 1).val < 0 + 512
    omega

/-! ## The nine pieces, found in the list -/

/-- The large piece is the list's last. -/
theorem own_mem (c : Dev nD) :
    (⟨Rect.unit (s := S4096x512) (k0_off10 c) S2048x512.size (k0_off10_inb c), k0_pay10 (ownTile m ρ c)⟩ :
      View.Piece (Elt F) S4096x512 .f32) ∈ outPieces m ρ c := by
  unfold outPieces
  exact .tail _ (.tail _ (.tail _ (.tail _ (.tail _ (.tail _ (.tail _ (.tail _ (.head _))))))))

/-- The piece stored at the rectangle of landed tile `r` is in the list, at place `7 - r`, with some payload. -/
theorem tile_mem (c : Dev nD) (r : Fin 8) :
    ∃ w, (⟨Rect.unit (s := S4096x512) (k0_off11 c (BitVec.ofNat 32 (256 * r.val))) S256x512.size (k0_off11_inb c r), w⟩ :
      View.Piece (Elt F) S4096x512 .f32) ∈ outPieces m ρ c := by
  unfold outPieces
  match r with
  | ⟨0, _⟩ => exact ⟨_, .tail _ (.tail _ (.tail _ (.tail _ (.tail _ (.tail _ (.tail _ (.head _)))))))⟩
  | ⟨1, _⟩ => exact ⟨_, .tail _ (.tail _ (.tail _ (.tail _ (.tail _ (.tail _ (.head _))))))⟩
  | ⟨2, _⟩ => exact ⟨_, .tail _ (.tail _ (.tail _ (.tail _ (.tail _ (.head _)))))⟩
  | ⟨3, _⟩ => exact ⟨_, .tail _ (.tail _ (.tail _ (.tail _ (.head _))))⟩
  | ⟨4, _⟩ => exact ⟨_, .tail _ (.tail _ (.tail _ (.head _)))⟩
  | ⟨5, _⟩ => exact ⟨_, .tail _ (.tail _ (.head _))⟩
  | ⟨6, _⟩ => exact ⟨_, .tail _ (.head _)⟩
  | ⟨7, _⟩ => exact ⟨_, .head _⟩

/-! ## The cover, and the contents read back -/

/-- Every index of the staged result lies under one of the nine stores. -/
theorem outPieces_cover (c : Dev nD) : ∀ y : S4096x512.Idx, ∃ p ∈ outPieces m ρ c, y ∈ p.1.set := by
  intro y
  have h0 : (y 0).val < 4096 := (y 0).isLt
  have hx := dev_x c
  by_cases hown : 2048 * (c.val / 4) ≤ (y 0).val ∧ (y 0).val < 2048 * (c.val / 4) + 2048
  · exact ⟨_, own_mem m ρ c, mem_own c y hown⟩
  · -- a row of the partner's half: `t = row - 2048 (1 - x)` lies in [0, 2048), under tile `t / 256`
    have hr : ((y 0).val - (2048 - 2048 * (c.val / 4))) / 256 < 8 := by omega
    obtain ⟨w, hw⟩ := tile_mem m ρ c ⟨((y 0).val - (2048 - 2048 * (c.val / 4))) / 256, hr⟩
    refine ⟨_, hw, mem_tile c ⟨((y 0).val - (2048 - 2048 * (c.val / 4))) / 256, hr⟩ y ?_⟩
    show 256 * (((y 0).val - (2048 - 2048 * (c.val / 4))) / 256) + 2048 - 2048 * (c.val / 4) ≤ (y 0).val
      ∧ (y 0).val < 256 * (((y 0).val - (2048 - 2048 * (c.val / 4))) / 256) + 2048 - 2048 * (c.val / 4) + 256
    omega

/-- What any prior contents read as after the nine stores: the overlay of their payloads. -/
theorem out_writes_eq (c : Dev nD) (f : (cc0_stg1_0 : Ref sig .tc).ty.Contents (Elt F)) :
    (oM : Memref sig .tc .vmem S4096x512 .f32).view.read (Elt F)
      ((oM : Memref sig .tc .vmem S4096x512 .f32).view.writes (Elt F) f (outPieces m ρ c)) = outAt m ρ c := by
  unfold outAt
  exact View.read_writes_eq_canon (oM : Memref sig .tc .vmem S4096x512 .f32).view f (outPieces m ρ c)
    (outPieces_cover m ρ c)

/-- The staged result is the whole buffer, read as it stands: the contents the nine stores leave ARE that overlay. -/
theorem out_writes_eq_whole (c : Dev nD) (f : (cc0_stg1_0 : Ref sig .tc).ty.Contents (Elt F)) :
    (oM : Memref sig .tc .vmem S4096x512 .f32).view.writes (Elt F) f (outPieces m ρ c) = outAt m ρ c :=
  (View.read_whole cc0_stg1_0 _).symm.trans (out_writes_eq m ρ c f)

/-- info: 'Cert.KernelIdeal.A2A.outPieces_cover' depends on axioms: [propext, Classical.choice, Quot.sound] -/
#guard_msgs in #print axioms outPieces_cover

/-- info: 'Cert.KernelIdeal.A2A.out_writes_eq_whole' depends on axioms: [propext, Classical.choice, Quot.sound] -/
#guard_msgs in #print axioms out_writes_eq_whole

end Cert.KernelIdeal.A2A

end
-- ==== Proof.Body.lean ====
/-
  One device's body, stepped from what it holds at entry to what it holds at exit.

  At entry: the exchange's ghost state (the invariants of its own and its partner's cells, its positions, the tokens of the duties it pays),
  the launch credit, the two scratch buffers, the staged block of `x` and the staged result. The body signals the partner's barrier cell (its
  landing buffer goes with the signal), fills staging slot 0, waits its own barrier cell (the partner's landing buffer arrives), and then,
  tile by tile, waits the departure of the slot's previous transfer, fills the slot and transfers it into the partner's landing slot. It
  stores its own column half, then waits each arrival and stores the landed tile, widened. At exit every own cell is past its last round and
  is closed, the slots are joined back into the two scratch buffers, and the staged result holds the nine stores' one function.
-/
import proofs.«900619_g7700000000000620_dist_a2a_v7x_xyz2x2x2_x_m2048_n512_f32_1_alg».proof.Proof.Dat
import proofs.«900619_g7700000000000620_dist_a2a_v7x_xyz2x2x2_x_m2048_n512_f32_1_alg».proof.Proof.Levels
import proofs.«900619_g7700000000000620_dist_a2a_v7x_xyz2x2x2_x_m2048_n512_f32_1_alg».proof.Proof.Slots
import proofs.«900619_g7700000000000620_dist_a2a_v7x_xyz2x2x2_x_m2048_n512_f32_1_alg».proof.Proof.Cover
import proofs.«900619_g7700000000000620_dist_a2a_v7x_xyz2x2x2_x_m2048_n512_f32_1_alg».proof.Proof.Gen.KernelIdeal.Points
import proofs.«900619_g7700000000000620_dist_a2a_v7x_xyz2x2x2_x_m2048_n512_f32_1_alg».proof.Proof.Gen.KernelIdeal.Frame

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Opening

theorem sepChain_fin2 (Φ : Fin 2 → sProp 𝕄) : bigSep Finset.univ Φ = iprop(Φ 0 ∗ Φ 1) := bigSep_univ_eq_bigSepL [0, 1] (by decide) (by decide) Φ
theorem sepChain_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem sepChain_fin8 (Φ : Fin 8 → sProp 𝕄) : bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
theorem sepChain_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := bigSep_univ_eq_bigSepL [0, 1, 2, 3, 4, 5, 6, 7, 8, 9, 10] (by decide) (by decide) Φ

end Opening

section Flat
variable (K : Dev nD × Fin 11 → ℕ) (c : Dev nD)

theorem invs_flat : invs m ρ K c = iprop((cellInv ER (sched m ρ) (K (c, 0)) (kcell (c, 0)) ∗ cellInv ER (sched m ρ) (K (c, 1)) (kcell (c, 1)) ∗ cellInv ER (sched m ρ) (K (c, 2)) (kcell (c, 2)) ∗ cellInv ER (sched m ρ) (K (c, 3)) (kcell (c, 3)) ∗ cellInv ER (sched m ρ) (K (c, 4)) (kcell (c, 4)) ∗ cellInv ER (sched m ρ) (K (c, 5)) (kcell (c, 5)) ∗ cellInv ER (sched m ρ) (K (c, 6)) (kcell (c, 6)) ∗ cellInv ER (sched m ρ) (K (c, 7)) (kcell (c, 7)) ∗ cellInv ER (sched m ρ) (K (c, 8)) (kcell (c, 8)) ∗ cellInv ER (sched m ρ) (K (c, 9)) (kcell (c, 9)) ∗ cellInv ER (sched m ρ) (K (c, 10)) (kcell (c, 10)))
    ∗ (cellInv ER (sched m ρ) (K (peer c, 0)) (kcell (peer c, 0)) ∗ cellInv ER (sched m ρ) (K (peer c, 1)) (kcell (peer c, 1)) ∗ cellInv ER (sched m ρ) (K (peer c, 2)) (kcell (peer c, 2)) ∗ cellInv ER (sched m ρ) (K (peer c, 3)) (kcell (peer c, 3)) ∗ cellInv ER (sched m ρ) (K (peer c, 4)) (kcell (peer c, 4)) ∗ cellInv ER (sched m ρ) (K (peer c, 5)) (kcell (peer c, 5)) ∗ cellInv ER (sched m ρ) (K (peer c, 6)) (kcell (peer c, 6)) ∗ cellInv ER (sched m ρ) (K (peer c, 7)) (kcell (peer c, 7)) ∗ cellInv ER (sched m ρ) (K (peer c, 8)) (kcell (peer c, 8)) ∗ cellInv ER (sched m ρ) (K (peer c, 9)) (kcell (peer c, 9)) ∗ cellInv ER (sched m ρ) (K (peer c, 10)) (kcell (peer c, 10)))) := by
  unfold invs; rw [sepChain_fin11, sepChain_fin11]

theorem payToks_flat : payToks (F := F) c = iprop(dutyTok ER (barCell (peer c)) 0 ()
    ∗ (dutyTok ER (recvCell (peer c) 0) 0 () ∗ dutyTok ER (recvCell (peer c) 1) 0 () ∗ dutyTok ER (recvCell (peer c) 2) 0 () ∗ dutyTok ER (recvCell (peer c) 3) 0 () ∗ dutyTok ER (recvCell (peer c) 4) 0 () ∗ dutyTok ER (recvCell (peer c) 5) 0 () ∗ dutyTok ER (recvCell (peer c) 6) 0 () ∗ dutyTok ER (recvCell (peer c) 7) 0 ())
    ∗ (dutyTok ER (sendCell c 0) 0 () ∗ dutyTok ER (sendCell c 0) 1 () ∗ dutyTok ER (sendCell c 0) 2 () ∗ dutyTok ER (sendCell c 0) 3 ())
    ∗ (dutyTok ER (sendCell c 1) 0 () ∗ dutyTok ER (sendCell c 1) 1 () ∗ dutyTok ER (sendCell c 1) 2 () ∗ dutyTok ER (sendCell c 1) 3 ())) := by
  unfold payToks; rw [sepChain_fin8, bigSep_univ_prod, sepChain_fin2, sepChain_fin4, sepChain_fin4]; rfl

theorem creds_flat : creds (F := F) c = iprop(cred (tallyAt (barCell c) () 1)
    ∗ (cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))) := by
  unfold creds; rw [sepChain_fin8]

theorem ghost_flat : ghost m ρ K c = iprop(invs m ρ K c
    ∗ (atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0 ∗ atPos ER (kcell (c, 10)) 0 ∅ 0)
    ∗ (reached ER (kcell (c, 0)) 0 ∗ reached ER (kcell (c, 1)) 0 ∗ reached ER (kcell (c, 2)) 0 ∗ reached ER (kcell (c, 3)) 0 ∗ reached ER (kcell (c, 4)) 0 ∗ reached ER (kcell (c, 5)) 0 ∗ reached ER (kcell (c, 6)) 0 ∗ reached ER (kcell (c, 7)) 0 ∗ reached ER (kcell (c, 8)) 0 ∗ reached ER (kcell (c, 9)) 0 ∗ reached ER (kcell (c, 10)) 0)
    ∗ (reached ER (kcell (peer c, 0)) 0 ∗ reached ER (kcell (peer c, 1)) 0 ∗ reached ER (kcell (peer c, 2)) 0 ∗ reached ER (kcell (peer c, 3)) 0 ∗ reached ER (kcell (peer c, 4)) 0 ∗ reached ER (kcell (peer c, 5)) 0 ∗ reached ER (kcell (peer c, 6)) 0 ∗ reached ER (kcell (peer c, 7)) 0 ∗ reached ER (kcell (peer c, 8)) 0 ∗ reached ER (kcell (peer c, 9)) 0 ∗ reached ER (kcell (peer c, 10)) 0)
    ∗ payToks c) := by
  unfold ghost; rw [sepChain_fin11, sepChain_fin11, sepChain_fin11]

end Flat

section Tables
variable (d : Dev nD)

/-! The schedule's tables as the run reads them: the cell spelt as its invariant spells it, the entry on the left, a payload spelt as the
    points-to itself. -/
theorem tb_peer_peer : peer (peer d) = d := peer_peer d

theorem tb_duties_bar : (sched (F := F) m ρ).duties (kcell (d, 0)) 0 = {()} := duties_bar m ρ d
theorem tb_amount_bar (r : ℕ) (u : Unit) : (sched (F := F) m ρ).amount (kcell (d, 0)) r u = 1 := amount_bar m ρ d r u
theorem tb_expect_bar : (sched (F := F) m ρ).expect (kcell (d, 0)) 0 = 1 := expect_bar m ρ d
theorem tb_payload_bar (r : ℕ) (u : Unit) : (sched (F := F) m ρ).payload (kcell (d, 0)) r u
    = iprop(∃ f, ((rM : Memref sig .tc .vmem S8x256x512 .bf16).view.loc (peer d : Thread nD τ)) ↦{fullShare} f) := payload_bar m ρ d r u

theorem tb_duties_send0 (r : ℕ) (hr : r < 4) : (sched (F := F) m ρ).duties (kcell (d, 1)) r = {()} := duties_send m ρ d 0 r hr
theorem tb_amount_send0 (r : ℕ) (u : Unit) : (sched (F := F) m ρ).amount (kcell (d, 1)) r u = N := amount_send m ρ d 0 r u
theorem tb_expect_send0 (r : ℕ) (hr : r < 4) : (sched (F := F) m ρ).expect (kcell (d, 1)) r = N := expect_send m ρ d 0 r hr
theorem tb_payload_send0 (r : ℕ) (u : Unit) : (sched (F := F) m ρ).payload (kcell (d, 1)) r u
    = iprop(∃ f, sSlot0.view.loc (d : Thread nD τ) ↦[sSlot0.view.set]{fullShare} f) := payload_send m ρ d 0 r u

theorem tb_duties_send1 (r : ℕ) (hr : r < 4) : (sched (F := F) m ρ).duties (kcell (d, 2)) r = {()} := duties_send m ρ d 1 r hr
theorem tb_amount_send1 (r : ℕ) (u : Unit) : (sched (F := F) m ρ).amount (kcell (d, 2)) r u = N := amount_send m ρ d 1 r u
theorem tb_expect_send1 (r : ℕ) (hr : r < 4) : (sched (F := F) m ρ).expect (kcell (d, 2)) r = N := expect_send m ρ d 1 r hr
theorem tb_payload_send1 (r : ℕ) (u : Unit) : (sched (F := F) m ρ).payload (kcell (d, 2)) r u
    = iprop(∃ f, sSlot1.view.loc (d : Thread nD τ) ↦[sSlot1.view.set]{fullShare} f) := payload_send m ρ d 1 r u

theorem tb_duties_recv0 : (sched (F := F) m ρ).duties (kcell (d, 3)) 0 = {()} := duties_recv m ρ d 0
theorem tb_amount_recv0 (r : ℕ) (u : Unit) : (sched (F := F) m ρ).amount (kcell (d, 3)) r u = N := amount_recv m ρ d 0 r u
theorem tb_expect_recv0 : (sched (F := F) m ρ).expect (kcell (d, 3)) 0 = N := expect_recv m ρ d 0
theorem tb_payload_recv0 (r : ℕ) (u : Unit) : (sched (F := F) m ρ).payload (kcell (d, 3)) r u
    = (rSlot0.view.loc (d : Thread nD τ) ↦[rSlot0.view.set]{fullShare} landed m ρ d 0) := payload_recv m ρ d 0 r u

theorem tb_duties_recv1 : (sched (F := F) m ρ).duties (kcell (d, 4)) 0 = {()} := duties_recv m ρ d 1
theorem tb_amount_recv1 (r : ℕ) (u : Unit) : (sched (F := F) m ρ).amount (kcell (d, 4)) r u = N := amount_recv m ρ d 1 r u
theorem tb_expect_recv1 : (sched (F := F) m ρ).expect (kcell (d, 4)) 0 = N := expect_recv m ρ d 1
theorem tb_payload_recv1 (r : ℕ) (u : Unit) : (sched (F := F) m ρ).payload (kcell (d, 4)) r u
    = (rSlot1.view.loc (d : Thread nD τ) ↦[rSlot1.view.set]{fullShare} landed m ρ d 1) := payload_recv m ρ d 1 r u

theorem tb_duties_recv2 : (sched (F := F) m ρ).duties (kcell (d, 5)) 0 = {()} := duties_recv m ρ d 2
theorem tb_amount_recv2 (r : ℕ) (u : Unit) : (sched (F := F) m ρ).amount (kcell (d, 5)) r u = N := amount_recv m ρ d 2 r u
theorem tb_expect_recv2 : (sched (F := F) m ρ).expect (kcell (d, 5)) 0 = N := expect_recv m ρ d 2
theorem tb_payload_recv2 (r : ℕ) (u : Unit) : (sched (F := F) m ρ).payload (kcell (d, 5)) r u
    = (rSlot2.view.loc (d : Thread nD τ) ↦[rSlot2.view.set]{fullShare} landed m ρ d 2) := payload_recv m ρ d 2 r u

theorem tb_duties_recv3 : (sched (F := F) m ρ).duties (kcell (d, 6)) 0 = {()} := duties_recv m ρ d 3
theorem tb_amount_recv3 (r : ℕ) (u : Unit) : (sched (F := F) m ρ).amount (kcell (d, 6)) r u = N := amount_recv m ρ d 3 r u
theorem tb_expect_recv3 : (sched (F := F) m ρ).expect (kcell (d, 6)) 0 = N := expect_recv m ρ d 3
theorem tb_payload_recv3 (r : ℕ) (u : Unit) : (sched (F := F) m ρ).payload (kcell (d, 6)) r u
    = (rSlot3.view.loc (d : Thread nD τ) ↦[rSlot3.view.set]{fullShare} landed m ρ d 3) := payload_recv m ρ d 3 r u

theorem tb_duties_recv4 : (sched (F := F) m ρ).duties (kcell (d, 7)) 0 = {()} := duties_recv m ρ d 4
theorem tb_amount_recv4 (r : ℕ) (u : Unit) : (sched (F := F) m ρ).amount (kcell (d, 7)) r u = N := amount_recv m ρ d 4 r u
theorem tb_expect_recv4 : (sched (F := F) m ρ).expect (kcell (d, 7)) 0 = N := expect_recv m ρ d 4
theorem tb_payload_recv4 (r : ℕ) (u : Unit) : (sched (F := F) m ρ).payload (kcell (d, 7)) r u
    = (rSlot4.view.loc (d : Thread nD τ) ↦[rSlot4.view.set]{fullShare} landed m ρ d 4) := payload_recv m ρ d 4 r u

theorem tb_duties_recv5 : (sched (F := F) m ρ).duties (kcell (d, 8)) 0 = {()} := duties_recv m ρ d 5
theorem tb_amount_recv5 (r : ℕ) (u : Unit) : (sched (F := F) m ρ).amount (kcell (d, 8)) r u = N := amount_recv m ρ d 5 r u
theorem tb_expect_recv5 : (sched (F := F) m ρ).expect (kcell (d, 8)) 0 = N := expect_recv m ρ d 5
theorem tb_payload_recv5 (r : ℕ) (u : Unit) : (sched (F := F) m ρ).payload (kcell (d, 8)) r u
    = (rSlot5.view.loc (d : Thread nD τ) ↦[rSlot5.view.set]{fullShare} landed m ρ d 5) := payload_recv m ρ d 5 r u

theorem tb_duties_recv6 : (sched (F := F) m ρ).duties (kcell (d, 9)) 0 = {()} := duties_recv m ρ d 6
theorem tb_amount_recv6 (r : ℕ) (u : Unit) : (sched (F := F) m ρ).amount (kcell (d, 9)) r u = N := amount_recv m ρ d 6 r u
theorem tb_expect_recv6 : (sched (F := F) m ρ).expect (kcell (d, 9)) 0 = N := expect_recv m ρ d 6
theorem tb_payload_recv6 (r : ℕ) (u : Unit) : (sched (F := F) m ρ).payload (kcell (d, 9)) r u
    = (rSlot6.view.loc (d : Thread nD τ) ↦[rSlot6.view.set]{fullShare} landed m ρ d 6) := payload_recv m ρ d 6 r u

theorem tb_duties_recv7 : (sched (F := F) m ρ).duties (kcell (d, 10)) 0 = {()} := duties_recv m ρ d 7
theorem tb_amount_recv7 (r : ℕ) (u : Unit) : (sched (F := F) m ρ).amount (kcell (d, 10)) r u = N := amount_recv m ρ d 7 r u
theorem tb_expect_recv7 : (sched (F := F) m ρ).expect (kcell (d, 10)) 0 = N := expect_recv m ρ d 7
theorem tb_payload_recv7 (r : ℕ) (u : Unit) : (sched (F := F) m ρ).payload (kcell (d, 10)) r u
    = (rSlot7.view.loc (d : Thread nD τ) ↦[rSlot7.view.set]{fullShare} landed m ρ d 7) := payload_recv m ρ d 7 r u

end Tables

/-- The partner's barrier payload, resolved: what this device hands over is its own landing buffer. -/
theorem tb_payload_bar_peer (c : Dev nD) (r : ℕ) (u : Unit) : (sched (F := F) m ρ).payload (kcell (peer c, 0)) r u
    = iprop(∃ f, ((rM : Memref sig .tc .vmem S8x256x512 .bf16).view.loc (c : Thread nD τ)) ↦{fullShare} f) := by
  rw [tb_payload_bar, peer_peer]

attribute [local sl_rounds] tb_peer_peer tb_duties_bar tb_amount_bar tb_expect_bar tb_payload_bar tb_duties_send0 tb_amount_send0 tb_expect_send0 tb_payload_send0 tb_duties_send1 tb_amount_send1 tb_expect_send1 tb_payload_send1 tb_duties_recv0 tb_amount_recv0 tb_expect_recv0 tb_payload_recv0 tb_duties_recv1 tb_amount_recv1 tb_expect_recv1 tb_payload_recv1 tb_duties_recv2 tb_amount_recv2 tb_expect_recv2 tb_payload_recv2 tb_duties_recv3 tb_amount_recv3 tb_expect_recv3 tb_payload_recv3 tb_duties_recv4 tb_amount_recv4 tb_expect_recv4 tb_payload_recv4 tb_duties_recv5 tb_amount_recv5 tb_expect_recv5 tb_payload_recv5 tb_duties_recv6 tb_amount_recv6 tb_expect_recv6 tb_payload_recv6 tb_duties_recv7 tb_amount_recv7 tb_expect_recv7 tb_payload_recv7
attribute [local sl_canon] dev1_eq dev2_eq dev3_eq dev4_eq dev5_eq dev6_eq dev7_eq dev8_eq dev9_eq
attribute [local sl_rounds high] tb_payload_bar_peer

/-! ## The body's pre- and postcondition, as the launch hands them over -/

def pre (c : Dev nD) : sProp 𝕄 :=
  iprop(Φ₀ m ρ c ∗ (dats m ρ 0 c).owesAt () t₀.castSucc
    ∗ (∃ d, owns (c : Thread nD τ) (xM : Memref sig .tc .vmem S2048x1024 .f32) fullShare ((dats m ρ 0 c).before (0 : Fin 2) t₀ d))
    ∗ (∃ d, owns (c : Thread nD τ) (oM : Memref sig .tc .vmem S4096x512 .f32) fullShare ((dats m ρ 0 c).before (1 : Fin 2) t₀ d)))

def post (c : Dev nD) : sProp 𝕄 :=
  iprop(Φ₁ c ∗ (dats m ρ 0 c).owesAt () t₀.succ
    ∗ owns (c : Thread nD τ) (xM : Memref sig .tc .vmem S2048x1024 .f32) fullShare (xstg m ρ c)
    ∗ owns (c : Thread nD τ) (oM : Memref sig .tc .vmem S4096x512 .f32) fullShare (outAt m ρ c))

/-! ## One remote transfer -/

/-- A transfer from a staging slot `src`, which holds `V`, into the partner's landing slot `dst`, addressed to a device `n` that IS the
    partner: the departure cell's duty of round `r` and the partner's arrival cell's duty of round 0 are paid, the staging slot lent until
    the departure wait, the landing slot handed over at what the transfer writes. -/
theorem wp_send_at (c n : Dev nD) (hn : n = peer c) (src dst : Memref sig .tc .vmem S256x512 .bf16) (sS sR : DmaSem sig) (κ₁ κ₂ r : ℕ)
    {hsc : (dst : Memref sig (Dev.tc n : Thread nD τ).2.kind .vmem S256x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (V : Vec F S256x512 .bf16) (O : CellTallies nD τ sig Unit)
    (hd₁ : () ∈ (sched m ρ).duties ((c : Thread nD τ), .dma sS) r) (hd₂ : () ∈ (sched m ρ).duties ((peer c : Thread nD τ), .dma sR) 0)
    (hN : dst.view.amount (.dma sR) = N)
    (hk₁ : (sched m ρ).amount ((c : Thread nD τ), .dma sS) r () = N) (hk₂ : (sched m ρ).amount ((peer c : Thread nD τ), .dma sR) 0 () = N)
    (hpay₁ : ∀ fs : Buf (Elt F) (src.view.loc (c : Thread nD τ)),
      ((src.view.loc (c : Thread nD τ) ↦[src.view.set]{fullShare} fs) : sProp 𝕄) ⊢ (sched m ρ).payload ((c : Thread nD τ), .dma sS) r ())
    (hpay₂ : ∀ (fs : Buf (Elt F) (src.view.loc (c : Thread nD τ))) (fd : Buf (Elt F) (dst.view.loc (peer c : Thread nD τ))), src.view.read (Elt F) fs = V →
      ((dst.view.loc (peer c : Thread nD τ) ↦[dst.view.set]{fullShare} (dst.view.write (Elt F) fd (src.view.read (Elt F) fs) Finset.univ)) : sProp 𝕄)
        ⊢ (sched m ρ).payload ((peer c : Thread nD τ), .dma sR) 0 ()) :
    iprop((∃ fs : Buf (Elt F) (src.view.loc (c : Thread nD τ)), (src.view.loc (c : Thread nD τ) ↦[src.view.set]{fullShare} fs) ∗ ⌜src.view.read (Elt F) fs = V⌝)
        ∗ (∃ fd : Buf (Elt F) (dst.view.loc (peer c : Thread nD τ)), dst.view.loc (peer c : Thread nD τ) ↦[dst.view.set]{fullShare} fd)
        ∗ (∃ W : Waits sig Unit, owes (c : Thread nD τ) (O + tallyAt ((peer c : Thread nD τ), .dma sR) () N) W)
        ∗ cellInv ER (sched m ρ) κ₁ ((c : Thread nD τ), .dma sS) ∗ cellInv ER (sched m ρ) κ₂ ((peer c : Thread nD τ), .dma sR)
        ∗ dutyTok ER ((c : Thread nD τ), .dma sS) r () ∗ reached ER ((c : Thread nD τ), .dma sS) r
        ∗ dutyTok ER ((peer c : Thread nD τ), .dma sR) 0 () ∗ reached ER ((peer c : Thread nD τ), .dma sR) 0)
      ⊢ iprop(((cred (tallyAt ((c : Thread nD τ), .dma sS) () N) ∗ ∃ W : Waits sig Unit, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  iintro ⟨⟨%fs, Hsrc, %hv⟩, ⟨%fd, Hdst⟩, ⟨%W, HO⟩, #I1, #I2, T1, #R1, T2, #R2⟩ Hk
  iapply (Rounds.wp_send_pointsTo 𝒱₀ ER (sched m ρ) (c : Thread nD τ) none (κ₁ := κ₁) (κ₂ := κ₂) (r₁ := r) (r₂ := 0) (d₁ := ()) (d₂ := ()) (fd := fd)
    hd₁ hd₂ () () N hN hk₁ hk₂ O rfl (W := W) (hpay₁ fs) (hpay₂ fs fd hv)) $$ [Hsrc Hdst HO T1 T2]
  · isplitr; · iexact I1
    isplitr; · iexact I2
    isplitl [Hsrc]; · iexact Hsrc
    isplitl [Hdst]; · iexact Hdst
    isplitl [HO]; · iexact HO
    isplitl [T1]; · iexact T1
    isplitr; · iexact R1
    isplitl [T2]; · iexact T2
    iexact R2
  iintro ⟨Hc, HO⟩
  iapply Hk
  isplitl [Hc]; · iexact Hc
  iexists W; iexact HO

/-- The staged input holds the device's block when the body starts (the window is fetched at the one point). -/
theorem before_x (c : Dev nD) (d) : (dats m ρ 0 c).before (0 : Fin 2) t₀ d = xstg m ρ c :=
  ((dats m ρ 0 c).before_in_eq_fetched 0 rfl (fun _ => rfl) (fun _ _ _ => rfl) (fun t => by rw [fin_N t]; rfl) t₀ d).trans rfl

/-! ## Side facts of a transfer, at the schedule's tables -/

theorem mem_duties_send (c : Dev nD) (s : Fin 2) (r : ℕ) (hr : r < 4) : () ∈ (sched (F := F) m ρ).duties (sendCell c s) r := by
  rw [duties_send m ρ c s r hr]; exact Finset.mem_singleton_self _
theorem mem_duties_recv (c : Dev nD) (i : Fin 8) : () ∈ (sched (F := F) m ρ).duties (recvCell c i) 0 := by
  rw [duties_recv]; exact Finset.mem_singleton_self _
/-- A staging slot, at whatever contents, is what its departure cell's duty hands back. -/
theorem sendPay_intro (c : Dev nD) (s : Fin 2) (r : ℕ) (f : Buf (Elt F) ((sSlot s).view.loc (c : Thread nD τ))) :
    (((sSlot s).view.loc (c : Thread nD τ)) ↦[(sSlot s).view.set]{fullShare} f : sProp 𝕄) ⊢ (sched m ρ).payload (sendCell c s) r () := by
  rw [payload_send]; unfold sendPay; iintro H; iexists f; iexact H
theorem slot_amount (i : Fin 8) : (rSlot i).view.amount (.dma (recvS i).sem) = N := by fin_cases i <;> rfl

/-- What lands in the partner's slot is what the schedule promises the partner, whatever the slot held. -/
theorem landing' (c : Dev nD) (s : Fin 2) (i : Fin 8) (fs : Buf (Elt F) ((sSlot s).view.loc (c : Thread nD τ))) (fd : Buf (Elt F) ((rSlot i).view.loc (peer c : Thread nD τ)))
    (hv : (sSlot s).view.read (Elt F) fs = sentVal m ρ c i) :
    (((rSlot i).view.loc (peer c : Thread nD τ)) ↦[(rSlot i).view.set]{fullShare} ((rSlot i).view.write (Elt F) fd ((sSlot s).view.read (Elt F) fs) Finset.univ) : sProp 𝕄)
      ⊢ (sched m ρ).payload (recvCell (peer c) i) 0 () := landing m ρ c i fd _ hv

set_option maxHeartbeats 4000000 in
theorem sound_body (c : Dev nD) (Kt : PUnit → sProp 𝕄) :
    iprop(pre m ρ c ∗ (post m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold pre Φ₀ start scratch Dat.owesAt Pipeline.owesWithin
  simp only [ghost_flat, invs_flat, payToks_flat, creds_flat]
  rw [show (dats m ρ 0 c).owed t₀.castSucc = O₀ c from rfl]
  unfold O₀ owns
  iintro ⟨⟨⟨⟨⟨%K, ⟨⟨#I0, #I1, #I2, #I3, #I4, #I5, #I6, #I7, #I8, #I9, #I10⟩, ⟨#J0, #J1, #J2, #J3, #J4, #J5, #J6, #J7, #J8, #J9, #J10⟩⟩,
      ⟨A0, A1, A2, A3, A4, A5, A6, A7, A8, A9, A10⟩, ⟨#R0, #R1, #R2, #R3, #R4, #R5, #R6, #R7, #R8, #R9, #R10⟩,
      ⟨#P0, #P1, #P2, #P3, #P4, #P5, #P6, #P7, #P8, #P9, #P10⟩,
      Tb, ⟨Tr0, Tr1, Tr2, Tr3, Tr4, Tr5, Tr6, Tr7⟩, ⟨Ts00, Ts01, Ts02, Ts03⟩, ⟨Ts10, Ts11, Ts12, Ts13⟩⟩,
      ⟨Cb, Cr0, Cr1, Cr2, Cr3, Cr4, Cr5, Cr6, Cr7⟩, #Hlev⟩, ⟨%fs, Hs⟩, ⟨%fr, Hr⟩⟩, ⟨%W, %hW, HO⟩, ⟨%d0, %x0, %hx0, Hx⟩, ⟨%d1, %o0, %ho0, Hout⟩⟩, Hk⟩
  have hx : x0 = xstg m ρ c := hx0.trans (before_x m ρ c d0)
  subst hx
  ihave Hs' := (send_split c fs) $$ Hs
  icases Hs' with ⟨Hs0, Hs1⟩
  have hmwB : (levAts L lv : sProp 𝕄) ⊢ MayWait (c : Thread nD τ) (.reg barS) () (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) := mayWait_bar c _ (by repeat' (first | apply OwesArrivals.add | apply owesArrivals_tally))
  have hmwS2 : (levAts L lv : sProp 𝕄) ⊢ MayWait (c : Thread nD τ) (.dma sendS0.sem) () (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) := mayWait_low c _ (lv_send c 0 ()) _ (OwesArrivals.partner (by repeat' (first | apply OwesArrivals.add | apply owesArrivals_tally)))
  have hmwS3 : (levAts L lv : sProp 𝕄) ⊢ MayWait (c : Thread nD τ) (.dma sendS1.sem) () (tallyAt (recvCell (peer c) 7) () N + tallyAt (recvCell (peer c) 6) () N + tallyAt (recvCell (peer c) 5) () N + tallyAt (recvCell (peer c) 4) () N + tallyAt (recvCell (peer c) 3) () N) := mayWait_low c _ (lv_send c 1 ()) _ (OwesArrivals.partner (by repeat' (first | apply OwesArrivals.add | apply owesArrivals_tally)))
  have hmwS4 : (levAts L lv : sProp 𝕄) ⊢ MayWait (c : Thread nD τ) (.dma sendS0.sem) () (tallyAt (recvCell (peer c) 7) () N + tallyAt (recvCell (peer c) 6) () N + tallyAt (recvCell (peer c) 5) () N + tallyAt (recvCell (peer c) 4) () N) := mayWait_low c _ (lv_send c 0 ()) _ (OwesArrivals.partner (by repeat' (first | apply OwesArrivals.add | apply owesArrivals_tally)))
  have hmwS5 : (levAts L lv : sProp 𝕄) ⊢ MayWait (c : Thread nD τ) (.dma sendS1.sem) () (tallyAt (recvCell (peer c) 7) () N + tallyAt (recvCell (peer c) 6) () N + tallyAt (recvCell (peer c) 5) () N) := mayWait_low c _ (lv_send c 1 ()) _ (OwesArrivals.partner (by repeat' (first | apply OwesArrivals.add | apply owesArrivals_tally)))
  have hmwS6 : (levAts L lv : sProp 𝕄) ⊢ MayWait (c : Thread nD τ) (.dma sendS0.sem) () (tallyAt (recvCell (peer c) 7) () N + tallyAt (recvCell (peer c) 6) () N) := mayWait_low c _ (lv_send c 0 ()) _ (OwesArrivals.partner (by repeat' (first | apply OwesArrivals.add | apply owesArrivals_tally)))
  have hmwS7 : (levAts L lv : sProp 𝕄) ⊢ MayWait (c : Thread nD τ) (.dma sendS1.sem) () (tallyAt (recvCell (peer c) 7) () N) := mayWait_low c _ (lv_send c 1 ()) _ (OwesArrivals.partner (by repeat' (first | apply OwesArrivals.add | apply owesArrivals_tally)))
  sl_unfold [cc0_body]
  sl_exec
  ihave Hp := (recv_split (peer c) A0_pay1_v) $$ A0_pay1
  icases Hp with ⟨Hp0, Hp1, Hp2, Hp3, Hp4, Hp5, Hp6, Hp7⟩
  -- transfer 0: staging slot 0 (round 0 of its departure cell) into the partner's landing slot 0
  iapply (wp_send_at m ρ c ⟨k0_dev2 c, k0_dev2_lt c⟩ (dev2_eq c) sSlot0 rSlot0 sendS0.sem recvS0.sem (K (c, 1)) (K (peer c, 3)) 0
      (sentVal m ρ c 0) (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N)
      (mem_duties_send m ρ c 0 0 (by decide)) (mem_duties_recv m ρ (peer c) 0) (slot_amount 0)
      (amount_send m ρ c 0 0 ()) (amount_recv m ρ (peer c) 0 0 ())
      (fun fs => sendPay_intro m ρ c 0 0 fs) (fun fs fd hv => landing' m ρ c 0 0 fs fd hv)) $$ [HO Hs0 Hp0 Ts00 Tr0]
  · isplitl [Hs0]
    · iexists _; isplitl [Hs0]; · iexact Hs0
      ipureintro; exact slot0_read_write c _ _
    isplitl [Hp0]; · iexists _; iexact Hp0
    isplitl [HO]; · iexists _; iexact HO
    isplitr; · iexact I1
    isplitr; · iexact J3
    isplitl [Ts00]; · iexact Ts00
    isplitr; · iexact R1
    isplitl [Tr0]; · iexact Tr0
    iexact P3
  iintro ⟨Cs0, ⟨%W0, HO⟩⟩
  sl_exec
  -- transfer 1: staging slot 1 (round 0 of its departure cell) into the partner's landing slot 1
  iapply (wp_send_at m ρ c ⟨k0_dev3 c, k0_dev3_lt c⟩ (dev3_eq c) sSlot1 rSlot1 sendS1.sem recvS1.sem (K (c, 2)) (K (peer c, 4)) 0
      (sentVal m ρ c 1) (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N)
      (mem_duties_send m ρ c 1 0 (by decide)) (mem_duties_recv m ρ (peer c) 1) (slot_amount 1)
      (amount_send m ρ c 1 0 ()) (amount_recv m ρ (peer c) 1 0 ())
      (fun fs => sendPay_intro m ρ c 1 0 fs) (fun fs fd hv => landing' m ρ c 1 1 fs fd hv)) $$ [HO Hs1 Hp1 Ts10 Tr1]
  · isplitl [Hs1]
    · iexists _; isplitl [Hs1]; · iexact Hs1
      ipureintro; exact slot1_read_write c _ _
    isplitl [Hp1]; · iexists _; iexact Hp1
    isplitl [HO]; · iexists _; iexact HO
    isplitr; · iexact I2
    isplitr; · iexact J4
    isplitl [Ts10]; · iexact Ts10
    isplitr; · iexact R2
    isplitl [Tr1]; · iexact Tr1
    iexact P4
  iintro ⟨Cs1, ⟨%W1, HO⟩⟩
  sl_exec
  -- transfer 2: staging slot 0 (round 1 of its departure cell) into the partner's landing slot 2
  iapply (wp_send_at m ρ c ⟨k0_dev4 c, k0_dev4_lt c⟩ (dev4_eq c) sSlot0 rSlot2 sendS0.sem recvS2.sem (K (c, 1)) (K (peer c, 5)) 1
      (sentVal m ρ c 2) (tallyAt (recvCell (peer c) 7) () N + tallyAt (recvCell (peer c) 6) () N + tallyAt (recvCell (peer c) 5) () N + tallyAt (recvCell (peer c) 4) () N + tallyAt (recvCell (peer c) 3) () N)
      (mem_duties_send m ρ c 0 1 (by decide)) (mem_duties_recv m ρ (peer c) 2) (slot_amount 2)
      (amount_send m ρ c 0 1 ()) (amount_recv m ρ (peer c) 2 0 ())
      (fun fs => sendPay_intro m ρ c 0 1 fs) (fun fs fd hv => landing' m ρ c 0 2 fs fd hv)) $$ [HO A1_pay1 Hp2 Ts01 Tr2 A1_reached]
  · isplitl [A1_pay1]
    · iexists _; isplitl [A1_pay1]; · iexact A1_pay1
      ipureintro; exact slot0_read_write c _ _
    isplitl [Hp2]; · iexists _; iexact Hp2
    isplitl [HO]; · iexists _; iexact HO
    isplitr; · iexact I1
    isplitr; · iexact J5
    isplitl [Ts01]; · iexact Ts01
    isplitl [A1_reached]; · iexact A1_reached
    isplitl [Tr2]; · iexact Tr2
    iexact P5
  iintro ⟨Cs2, ⟨%W2, HO⟩⟩
  sl_exec
  -- transfer 3: staging slot 1 (round 1 of its departure cell) into the partner's landing slot 3
  iapply (wp_send_at m ρ c ⟨k0_dev5 c, k0_dev5_lt c⟩ (dev5_eq c) sSlot1 rSlot3 sendS1.sem recvS3.sem (K (c, 2)) (K (peer c, 6)) 1
      (sentVal m ρ c 3) (tallyAt (recvCell (peer c) 7) () N + tallyAt (recvCell (peer c) 6) () N + tallyAt (recvCell (peer c) 5) () N + tallyAt (recvCell (peer c) 4) () N)
      (mem_duties_send m ρ c 1 1 (by decide)) (mem_duties_recv m ρ (peer c) 3) (slot_amount 3)
      (amount_send m ρ c 1 1 ()) (amount_recv m ρ (peer c) 3 0 ())
      (fun fs => sendPay_intro m ρ c 1 1 fs) (fun fs fd hv => landing' m ρ c 1 3 fs fd hv)) $$ [HO A2_pay1 Hp3 Ts11 Tr3 A2_reached]
  · isplitl [A2_pay1]
    · iexists _; isplitl [A2_pay1]; · iexact A2_pay1
      ipureintro; exact slot1_read_write c _ _
    isplitl [Hp3]; · iexists _; iexact Hp3
    isplitl [HO]; · iexists _; iexact HO
    isplitr; · iexact I2
    isplitr; · iexact J6
    isplitl [Ts11]; · iexact Ts11
    isplitl [A2_reached]; · iexact A2_reached
    isplitl [Tr3]; · iexact Tr3
    iexact P6
  iintro ⟨Cs3, ⟨%W3, HO⟩⟩
  sl_exec
  -- transfer 4: staging slot 0 (round 2 of its departure cell) into the partner's landing slot 4
  iapply (wp_send_at m ρ c ⟨k0_dev6 c, k0_dev6_lt c⟩ (dev6_eq c) sSlot0 rSlot4 sendS0.sem recvS4.sem (K (c, 1)) (K (peer c, 7)) 2
      (sentVal m ρ c 4) (tallyAt (recvCell (peer c) 7) () N + tallyAt (recvCell (peer c) 6) () N + tallyAt (recvCell (peer c) 5) () N)
      (mem_duties_send m ρ c 0 2 (by decide)) (mem_duties_recv m ρ (peer c) 4) (slot_amount 4)
      (amount_send m ρ c 0 2 ()) (amount_recv m ρ (peer c) 4 0 ())
      (fun fs => sendPay_intro m ρ c 0 2 fs) (fun fs fd hv => landing' m ρ c 0 4 fs fd hv)) $$ [HO A1_pay1 Hp4 Ts02 Tr4 A1_reached]
  · isplitl [A1_pay1]
    · iexists _; isplitl [A1_pay1]; · iexact A1_pay1
      ipureintro; exact slot0_read_write c _ _
    isplitl [Hp4]; · iexists _; iexact Hp4
    isplitl [HO]; · iexists _; iexact HO
    isplitr; · iexact I1
    isplitr; · iexact J7
    isplitl [Ts02]; · iexact Ts02
    isplitl [A1_reached]; · iexact A1_reached
    isplitl [Tr4]; · iexact Tr4
    iexact P7
  iintro ⟨Cs4, ⟨%W4, HO⟩⟩
  sl_exec
  -- transfer 5: staging slot 1 (round 2 of its departure cell) into the partner's landing slot 5
  iapply (wp_send_at m ρ c ⟨k0_dev7 c, k0_dev7_lt c⟩ (dev7_eq c) sSlot1 rSlot5 sendS1.sem recvS5.sem (K (c, 2)) (K (peer c, 8)) 2
      (sentVal m ρ c 5) (tallyAt (recvCell (peer c) 7) () N + tallyAt (recvCell (peer c) 6) () N)
      (mem_duties_send m ρ c 1 2 (by decide)) (mem_duties_recv m ρ (peer c) 5) (slot_amount 5)
      (amount_send m ρ c 1 2 ()) (amount_recv m ρ (peer c) 5 0 ())
      (fun fs => sendPay_intro m ρ c 1 2 fs) (fun fs fd hv => landing' m ρ c 1 5 fs fd hv)) $$ [HO A2_pay1 Hp5 Ts12 Tr5 A2_reached]
  · isplitl [A2_pay1]
    · iexists _; isplitl [A2_pay1]; · iexact A2_pay1
      ipureintro; exact slot1_read_write c _ _
    isplitl [Hp5]; · iexists _; iexact Hp5
    isplitl [HO]; · iexists _; iexact HO
    isplitr; · iexact I2
    isplitr; · iexact J8
    isplitl [Ts12]; · iexact Ts12
    isplitl [A2_reached]; · iexact A2_reached
    isplitl [Tr5]; · iexact Tr5
    iexact P8
  iintro ⟨Cs5, ⟨%W5, HO⟩⟩
  sl_exec
  -- transfer 6: staging slot 0 (round 3 of its departure cell) into the partner's landing slot 6
  iapply (wp_send_at m ρ c ⟨k0_dev8 c, k0_dev8_lt c⟩ (dev8_eq c) sSlot0 rSlot6 sendS0.sem recvS6.sem (K (c, 1)) (K (peer c, 9)) 3
      (sentVal m ρ c 6) (tallyAt (recvCell (peer c) 7) () N)
      (mem_duties_send m ρ c 0 3 (by decide)) (mem_duties_recv m ρ (peer c) 6) (slot_amount 6)
      (amount_send m ρ c 0 3 ()) (amount_recv m ρ (peer c) 6 0 ())
      (fun fs => sendPay_intro m ρ c 0 3 fs) (fun fs fd hv => landing' m ρ c 0 6 fs fd hv)) $$ [HO A1_pay1 Hp6 Ts03 Tr6 A1_reached]
  · isplitl [A1_pay1]
    · iexists _; isplitl [A1_pay1]; · iexact A1_pay1
      ipureintro; exact slot0_read_write c _ _
    isplitl [Hp6]; · iexists _; iexact Hp6
    isplitl [HO]; · iexists _; iexact HO
    isplitr; · iexact I1
    isplitr; · iexact J9
    isplitl [Ts03]; · iexact Ts03
    isplitl [A1_reached]; · iexact A1_reached
    isplitl [Tr6]; · iexact Tr6
    iexact P9
  iintro ⟨Cs6, ⟨%W6, HO⟩⟩
  sl_exec
  -- transfer 7: staging slot 1 (round 3 of its departure cell) into the partner's landing slot 7
  iapply (wp_send_at m ρ c ⟨k0_dev9 c, k0_dev9_lt c⟩ (dev9_eq c) sSlot1 rSlot7 sendS1.sem recvS7.sem (K (c, 2)) (K (peer c, 10)) 3
      (sentVal m ρ c 7) (0)
      (mem_duties_send m ρ c 1 3 (by decide)) (mem_duties_recv m ρ (peer c) 7) (slot_amount 7)
      (amount_send m ρ c 1 3 ()) (amount_recv m ρ (peer c) 7 0 ())
      (fun fs => sendPay_intro m ρ c 1 3 fs) (fun fs fd hv => landing' m ρ c 1 7 fs fd hv)) $$ [HO A2_pay1 Hp7 Ts13 Tr7 A2_reached]
  · isplitl [A2_pay1]
    · iexists _; isplitl [A2_pay1]; · iexact A2_pay1
      ipureintro; exact slot1_read_write c _ _
    isplitl [Hp7]; · iexists _; iexact Hp7
    isplitl [HO]; · iexists _; rw [zero_add]; iexact HO
    isplitr; · iexact I2
    isplitr; · iexact J10
    isplitl [Ts13]; · iexact Ts13
    isplitl [A2_reached]; · iexact A2_reached
    isplitl [Tr7]; · iexact Tr7
    iexact P10
  iintro ⟨Cs7, ⟨%W7, HO⟩⟩
  sl_exec
  -- the ten own cells have no duty left: each is closed, its counter handed back at zero
  imod (Rounds.cell_close ER (sched m ρ) (κ := K (c, 1)) (Set.mem_univ _) (fun h => h) (R := 4) (duties_send_later m ρ c 0)) $$ [A1] with Z1
  · isplitr; · iexact I1
    iexact A1
  imod (Rounds.cell_close ER (sched m ρ) (κ := K (c, 2)) (Set.mem_univ _) (fun h => h) (R := 4) (duties_send_later m ρ c 1)) $$ [A2] with Z2
  · isplitr; · iexact I2
    iexact A2
  imod (Rounds.cell_close ER (sched m ρ) (κ := K (c, 3)) (Set.mem_univ _) (fun h => h) (R := 1) (duties_recv_later m ρ c 0)) $$ [A3] with Z3
  · isplitr; · iexact I3
    iexact A3
  imod (Rounds.cell_close ER (sched m ρ) (κ := K (c, 4)) (Set.mem_univ _) (fun h => h) (R := 1) (duties_recv_later m ρ c 1)) $$ [A4] with Z4
  · isplitr; · iexact I4
    iexact A4
  imod (Rounds.cell_close ER (sched m ρ) (κ := K (c, 5)) (Set.mem_univ _) (fun h => h) (R := 1) (duties_recv_later m ρ c 2)) $$ [A5] with Z5
  · isplitr; · iexact I5
    iexact A5
  imod (Rounds.cell_close ER (sched m ρ) (κ := K (c, 6)) (Set.mem_univ _) (fun h => h) (R := 1) (duties_recv_later m ρ c 3)) $$ [A6] with Z6
  · isplitr; · iexact I6
    iexact A6
  imod (Rounds.cell_close ER (sched m ρ) (κ := K (c, 7)) (Set.mem_univ _) (fun h => h) (R := 1) (duties_recv_later m ρ c 4)) $$ [A7] with Z7
  · isplitr; · iexact I7
    iexact A7
  imod (Rounds.cell_close ER (sched m ρ) (κ := K (c, 8)) (Set.mem_univ _) (fun h => h) (R := 1) (duties_recv_later m ρ c 5)) $$ [A8] with Z8
  · isplitr; · iexact I8
    iexact A8
  imod (Rounds.cell_close ER (sched m ρ) (κ := K (c, 9)) (Set.mem_univ _) (fun h => h) (R := 1) (duties_recv_later m ρ c 6)) $$ [A9] with Z9
  · isplitr; · iexact I9
    iexact A9
  imod (Rounds.cell_close ER (sched m ρ) (κ := K (c, 10)) (Set.mem_univ _) (fun h => h) (R := 1) (duties_recv_later m ρ c 7)) $$ [A10] with Z10
  · isplitr; · iexact I10
    iexact A10
  sl_step
  iapply Hk
  unfold post Φ₁ scratch ownZero Dat.owesAt Pipeline.owesWithin owns
  rw [sepChain_fin2, sepChain_fin8]
  isplitl [A1_pay1 A2_pay1 A3_pay1 A4_pay1 A5_pay1 A6_pay1 A7_pay1 A8_pay1 A9_pay1 A10_pay1 Z1 Z2 Z3 Z4 Z5 Z6 Z7 Z8 Z9 Z10]
  · isplitl [A1_pay1 A2_pay1 A3_pay1 A4_pay1 A5_pay1 A6_pay1 A7_pay1 A8_pay1 A9_pay1 A10_pay1]
    · -- the two scratch buffers, whole again
      isplitl [A1_pay1 A2_pay1]
      · iapply (send_join c A1_pay1_v A2_pay1_v)
        isplitl [A1_pay1]; · iexact A1_pay1
        iexact A2_pay1
      · iapply (recv_join c (landed m ρ c 0) (landed m ρ c 1) (landed m ρ c 2) (landed m ρ c 3) (landed m ρ c 4) (landed m ρ c 5) (landed m ρ c 6) (landed m ρ c 7))
        isplitl [A3_pay1]; · iexact A3_pay1
        isplitl [A4_pay1]; · iexact A4_pay1
        isplitl [A5_pay1]; · iexact A5_pay1
        isplitl [A6_pay1]; · iexact A6_pay1
        isplitl [A7_pay1]; · iexact A7_pay1
        isplitl [A8_pay1]; · iexact A8_pay1
        isplitl [A9_pay1]; · iexact A9_pay1
        iexact A10_pay1
    · isplitl [Z1 Z2]
      · isplitl [Z1]; · iexact Z1
        iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      iexact Z10
  isplitl [HO]
  · iexists _; isplitr
    swap; · iexact HO
    ipureintro; exact fun _ _ => Or.inl trivial
  isplitl [Hx]
  · iexists _; isplitr
    swap; · iexact Hx
    ipureintro; rfl
  iexists _; isplitr
  swap; · iexact Hout
  ipureintro
  unfold sound_body.sl.r_2 sound_body.sl.v226
  exact out_writes_eq m ρ c o0

set_option maxHeartbeats 4000000 in
set_option maxRecDepth 8000 in
attribute [local irreducible] outAt in
/-- The library's body obligation on device `c`: the one grid point, the body run from what the launch hands over to what it takes back. -/
theorem body_obligation (c : Dev nD) : BodyObligation (dats (F := F) m ρ 0 c) (defs₀ (F := F)) 𝒱₀ () Set.univ := fun t => by
  rw [fin_N t, bigSep_W0, bigSep_W0]
  show pre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => post m ρ c)
  iintro H
  iapply (sound_body m ρ c fun _ => post m ρ c)
  isplitl [H]; · iexact H
  iintro H; iexact H

/-- info: 'Cert.KernelIdeal.A2A.body_obligation' depends on axioms: [propext, Classical.choice, Quot.sound] -/
#guard_msgs in #print axioms body_obligation

end Cert.KernelIdeal.A2A

end
-- ==== Proof.Launch.lean ====
/-
  The launch of the exchange: from each device's body to the run of the whole program on the mesh.

  The eleven cells of every device are funded at once: the round states at counter zero, the owners' positions and reached marks,
  and seventeen duty tokens per device. The ten DMA semaphores are the kernel's own (scoped); the barrier semaphore is the one
  unscoped semaphore, so its counter at zero arrives with the unscoped ones and all cells are allocated under ONE update. The tokens are
  then dealt: a device's barrier token and its eight arrival tokens go to its partner (who pays those duties), its eight departure tokens
  stay. What a device is owed at launch is exactly what its partner owes it: one unit on the barrier cell and a slot's credit on each
  arrival cell.
-/
import proofs.«900619_g7700000000000620_dist_a2a_v7x_xyz2x2x2_x_m2048_n512_f32_1_alg».proof.Proof.Dat
import proofs.«900619_g7700000000000620_dist_a2a_v7x_xyz2x2x2_x_m2048_n512_f32_1_alg».proof.Proof.Levels
import proofs.«900619_g7700000000000620_dist_a2a_v7x_xyz2x2x2_x_m2048_n512_f32_1_alg».proof.Proof.Gen.KernelIdeal.Launch
import proofs.«900619_g7700000000000620_dist_a2a_v7x_xyz2x2x2_x_m2048_n512_f32_1_alg».proof.Proof.Gen.KernelIdeal.Frame
import proofs.«900619_g7700000000000620_dist_a2a_v7x_xyz2x2x2_x_m2048_n512_f32_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The ten DMA semaphores of the exchange: the kernel's own (scoped) ones. -/
abbrev osem : Fin 10 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 11 → SemLoc sig) := by decide

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the exchange: every device's eleven. -/
def xCells : Finset (GSem nD τ sig) := Finset.univ.map ⟨kcell, kcell_injective⟩

/-- The duty tokens minted for a device's own cells: its barrier cell's, its eight arrival cells', its two departure cells' four each. -/
abbrev TokIx : Type := Unit ⊕ (Fin 8 ⊕ (Fin 2 × Fin 4))

abbrev tokOf (cj : Dev nD × TokIx) : GSem nD τ sig × ℕ × Unit := match cj.2 with
  | .inl _ => (barCell cj.1, 0, ())
  | .inr (.inl i) => (recvCell cj.1 i, 0, ())
  | .inr (.inr sr) => (sendCell cj.1 sr.1, sr.2.val, ())

theorem tokOf_injective : Function.Injective (tokOf : Dev nD × TokIx → GSem nD τ sig × ℕ × Unit) := by
  rintro ⟨c, j⟩ ⟨c', j'⟩ h
  have h1 : c = c' := by
    have := congrArg (fun x : GSem nD τ sig × ℕ × Unit => x.1.1.1) h
    rcases j with _ | i | sr <;> rcases j' with _ | i' | sr' <;> exact this
  subst h1
  have h2 := congrArg (fun x : GSem nD τ sig × ℕ × Unit => x.1.2) h
  have h3 := congrArg (fun x : GSem nD τ sig × ℕ × Unit => x.2.1) h
  rcases j with _ | i | ⟨s, r⟩ <;> rcases j' with _ | i' | ⟨s', r'⟩ <;> dsimp only at h2 h3
  · rfl
  · exact absurd h2 (fun h => by cases h)
  · exact absurd h2 (fun h => by cases h)
  · exact absurd h2 (fun h => by cases h)
  · have hv := congrArg (fun q : DmaSem sig => q.val) (SemLoc.dma.inj h2)
    dsimp only at hv; rw [recvS_val, recvS_val] at hv
    rw [show i = i' from Fin.ext (by omega)]
  · have hv := congrArg (fun q : DmaSem sig => q.val) (SemLoc.dma.inj h2)
    dsimp only at hv; rw [recvS_val, sendS_val] at hv
    exact absurd hv (by have := s'.isLt; omega)
  · exact absurd h2 (fun h => by cases h)
  · have hv := congrArg (fun q : DmaSem sig => q.val) (SemLoc.dma.inj h2)
    dsimp only at hv; rw [recvS_val, sendS_val] at hv
    exact absurd hv (by have := s.isLt; omega)
  · have hv := congrArg (fun q : DmaSem sig => q.val) (SemLoc.dma.inj h2)
    dsimp only at hv; rw [sendS_val, sendS_val] at hv
    rw [show s = s' from Fin.ext (by omega), show r = r' from Fin.ext h3]

/-- The duty tokens of the exchange: every device's seventeen. -/
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 ()
    ∗ (bigSep Finset.univ fun i : Fin 8 => dutyTok ER (recvCell c i) 0 ())
    ∗ (bigSep Finset.univ fun sr : Fin 2 × Fin 4 => dutyTok ER (sendCell c sr.1) sr.2.val ()))

/-- Every payload of the schedule is a points-to, or empty: it can be kept in an invariant. -/
instance sched_payload_storable (g : GSem nD τ sig) (r : ℕ) (d : Unit) :
    BI.Storable (upEmb : UEmb _ 𝕄) ((sched (F := F) m ρ).payload g r d) := by
  dsimp only [sched]
  cases classify g.2 with
  | none => infer_instance
  | some k => cases k with
    | bar => unfold barPay; infer_instance
    | send s => unfold sendPay; infer_instance
    | recv i => fin_cases i <;> (dsimp only [recvPay]; infer_instance)

/-- What the launch element deals device `c`. -/
def G (c : Dev nD) : sProp 𝕄 :=
  iprop((bigSep Finset.univ fun k : Fin 11 => roundState ER (sched m ρ) (kcell (c, k)) 0)
    ∗ (bigSep Finset.univ fun k : Fin 11 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
/-- A conjunction over `Fin (n + 1)` is its first conjunct and the conjunction over the successors. -/
theorem bigSep_fin_succ (n : ℕ) (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 11 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by
      unfold toks; rw [bigSep_univ_sum, bigSep_univ_sum, bigSep_univ_of_subsingleton ()]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The eleven counters at zero: the barrier's with the unscoped semaphores, the ten others the kernel's own. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the whole mesh: every cell's invariant at its name, and round 0 of every cell reached. -/
def records (K : Dev nD × Fin 11 → ℕ) : sProp 𝕄 :=
  iprop((bigSep Finset.univ fun ck : Dev nD × Fin 11 => cellInv ER (sched m ρ) (K ck) (kcell ck))
    ∗ bigSep Finset.univ fun ck : Dev nD × Fin 11 => reached ER (kcell ck) 0)

instance records_persistent (K : Dev nD × Fin 11 → ℕ) : BI.Persistent (records m ρ K) := by unfold records; infer_instance

theorem inv_row (K : Dev nD × Fin 11 → ℕ) (c : Dev nD) :
    (bigSep Finset.univ fun ck : Dev nD × Fin 11 => (cellInv ER (sched m ρ) (K ck) (kcell ck) : sProp 𝕄))
      ⊢ bigSep Finset.univ fun k : Fin 11 => cellInv ER (sched m ρ) (K (c, k)) (kcell (c, k)) := by
  rw [bigSep_univ_prod]; exact bigSep_elim (Finset.mem_univ c)
omit [FloatOps F] in
theorem reached_row (c : Dev nD) :
    (bigSep Finset.univ fun ck : Dev nD × Fin 11 => (reached ER (kcell ck) 0 : sProp 𝕄))
      ⊢ bigSep Finset.univ fun k : Fin 11 => reached ER (kcell (c, k)) 0 := by
  rw [bigSep_univ_prod]; exact bigSep_elim (Finset.mem_univ c)

/-- What stays with device `c`: its positions, and the tokens of the duties it pays. -/
def linear (c : Dev nD) : sProp 𝕄 :=
  iprop((bigSep Finset.univ fun k : Fin 11 => atPos ER (kcell (c, k)) 0 ∅ 0) ∗ payToks c)

theorem ghost_intro (K : Dev nD × Fin 11 → ℕ) (c : Dev nD) : iprop(records m ρ K ∗ linear c) ⊢ G' m ρ c := by
  unfold records linear G' ghost invs
  iintro ⟨⟨#HI, #HR⟩, Hat, Htok⟩
  iexists K
  isplitr
  · isplitr
    · iapply (inv_row m ρ K c); iexact HI
    · iapply (inv_row m ρ K (peer c)); iexact HI
  isplitl [Hat]; · iexact Hat
  isplitr; · iapply (reached_row (F := F) c); iexact HR
  isplitr; · iapply (reached_row (F := F) (peer c)); iexact HR
  iexact Htok

omit [FloatOps F] in
/-- The tokens dealt: a device's barrier token and its eight arrival tokens go to its partner, its departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun i : Fin 8 => dutyTok ER (recvCell c i) 0 () : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 11 => iprop(∃ κ : ℕ, cellInv ER (sched m ρ) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 11 => (atPos ER (kcell (c, k)) 0 ∅ 0 : sProp 𝕄)) payToks).symm).trans
      (bigSep_mono fun c _ => show _ ⊢ linear c from .rfl))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What the devices owe device `c`'s cells: only its partner does, one unit on the barrier cell and a slot's credit on each arrival cell. -/
theorem launch_creds (c : Dev nD) : (Pipeline.launchCred O₀ c : sProp 𝕄) ⊢ creds c := by
  have hb := Pipeline.launchCred_tallyAt (Ix := Unit) (Name := ℕ) (U := UU) (Lvl := ℕ) (Val := Elt F) (τ := τ) (.reg barS) peer peer peer_peer peer_peer () 1 c
  have hr := fun i : Fin 8 => Pipeline.launchCred_tallyAt (Ix := Unit) (Name := ℕ) (U := UU) (Lvl := ℕ) (Val := Elt F) (τ := τ) (.dma (recvS i).sem) peer peer peer_peer peer_peer () N c
  show (Pipeline.launchCred (fun d => tallyAt (recvCell (peer d) 7) () N + tallyAt (recvCell (peer d) 6) () N + tallyAt (recvCell (peer d) 5) () N + tallyAt (recvCell (peer d) 4) () N
    + tallyAt (recvCell (peer d) 3) () N + tallyAt (recvCell (peer d) 2) () N + tallyAt (recvCell (peer d) 1) () N + tallyAt (recvCell (peer d) 0) () N
    + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add]
  unfold creds
  rw [bigSep_fin8]
  iintro ⟨⟨⟨⟨⟨⟨⟨⟨H7, H6⟩, H5⟩, H4⟩, H3⟩, H2⟩, H1⟩, H0⟩, Hb⟩
  isplitl [Hb]; · iapply hb; iexact Hb
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  iapply (hr 7); iexact H7

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

omit [FloatOps F] in
/-- The kernel's own ten counters, listed as the departure and the arrival cells. -/
theorem ownSems0_of_ownZero (c : Dev nD) :
    (ownZero c : sProp 𝕄) ⊢ Pipeline.ownSems0 (Ix := Unit) (Name := ℕ) (U := UU) (Lvl := ℕ) (Val := Elt F) (τ := τ) osem c := by
  have ho : (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (recvCell c 0) 0 ∗ semVal (recvCell c 1) 0 ∗ semVal (recvCell c 2) 0 ∗ semVal (recvCell c 3) 0
          ∗ semVal (recvCell c 4) 0 ∗ semVal (recvCell c 5) 0 ∗ semVal (recvCell c 6) 0 ∗ semVal (recvCell c 7) 0) := by
    rw [Pipeline.ownSems0_eq_of_list c osem [0, 1, 2, 3, 4, 5, 6, 7, 8, 9] (by decide) (by decide)]; rfl
  unfold ownZero
  rw [ho, bigSep_univ_two, bigSep_fin8]
  iintro ⟨⟨S0, S1⟩, R0, R1, R2, R3, R4, R5, R6, R7⟩
  isplitl [S0]; · iexact S0
  isplitl [S1]; · iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  isplitr; · iempintro
  isplitl [Hz]; · iapply (ownSems0_of_ownZero (F := F) c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c _ (by fin_cases w <;> fin_cases s <;> decide)) _ (by
      rcases t with ⟨_ | _, ht⟩
      · exact owesPartner_O₀ c
      · exact owesPartner_zero c)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, given each device's body:
    every weakly fair execution of @main terminates, and every final state has each device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window's one block is the whole array, at block index 0. -/
theorem out_block_zero : (fun a : Fin 2 => (cfg0.win (1 : Fin 2)).index t₀ a * (cfg0.win (1 : Fin 2)).size a) = fun _ => 0 :=
  funext fun a => by fin_cases a <;> decide

theorem out_block_inb : ∀ a : Fin 2, (fun a : Fin 2 => (cfg0.win (1 : Fin 2)).index t₀ a * (cfg0.win (1 : Fin 2)).size a) a + main_v1.ty.shape.size a ≤ main_v1.ty.shape.size a :=
  fun a => by fin_cases a <;> decide

/-- Writing the whole block into the result array replaces the array's contents. -/
theorem write_block_whole (c : Dev nD) (A : Buf (Elt F) ((cfg0.win (1 : Fin 2)).arr.view.loc (c : Thread nD τ)))
    (W : ((cfg0.win (1 : Fin 2)).xblock (cfg0.grid.coords t₀)).Idx → Elt F (cfg0.win (1 : Fin 2)).elt) :
    ((cfg0.win (1 : Fin 2)).blk t₀).view.write (Elt F) A W Finset.univ = W := by
  have hr := fun f => Memref.read_access_unit_zero (Elt F) main_v1 out_block_zero out_block_inb f
  exact (hr _).symm.trans (View.read_write_univ _ _)

attribute [local irreducible] outAt in
/-- What the write-back writes is all of what the body left in the staged result (the window is not cut). -/
theorem flushed_out (c : Dev nD) : (dats (F := F) m ρ 0 c).flushed (1 : Fin 2) t₀ = outAt m ρ c := rfl

attribute [local irreducible] outAt in
/-- The result array after the run is what the body left in the staged result. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  exact (h.trans (write_block_whole c _ _)).trans (flushed_out m ρ c)

/-- info: 'Cert.KernelIdeal.A2A.run_main' depends on axioms: [propext, Classical.choice, Quot.sound] -/
#guard_msgs in #print axioms run_main

/-- info: 'Cert.KernelIdeal.A2A.finalA_out' depends on axioms: [propext, Classical.choice, Quot.sound] -/
#guard_msgs in #print axioms finalA_out

end Cert.KernelIdeal.A2A

end
-- ==== Proof.Value.lean ====
/-
  The value of the exchange at the ideal instance: what a device's staged result holds is its column half of the whole array.

  Write `x = c / 4` for device `c`'s coordinate on the first mesh axis. The device's argument buffer is rows `[2048·x, 2048·x + 2048)` of the
  whole array `X` (4096 × 1024); its result (4096 × 512) must read `X (R, 512·x + j)` at `(R, j)`. The result is the canonical reading of nine
  stores. The one of 2048 rows at rows `2048·x …` holds the device's own rows, columns `512·x …`. The eight of 256 rows at rows
  `2048·(1 − x) + 256·i …` hold landing slot `i` widened, and that slot holds the partner's tile `i` narrowed: rows `256·i …` of the
  partner's block, columns `512·x …`, the partner's block being rows `2048·(1 − x) …` of `X`. Over the extended reals narrowing and widening
  change no value, and the shape casts only add or drop a unit axis, so every store's payload at a local index is `X` at the index the
  store's rectangle places it at; `View.canon_apply_of_pieces` then reads the nine stores back as that one function wherever they cover.
-/
import proofs.«900619_g7700000000000620_dist_a2a_v7x_xyz2x2x2_x_m2048_n512_f32_1_alg».proof.Proof.Dat
import Idealize.ShloMosaic.Lib.Layout
import Idealize.ShloMosaic.PureOps.Ideal
import Idealize.ShloMosaic.Lib.ValueIdx
import Idealize.ShloMosaic.Lib.Pipeline.Value
import Idealize.ShloMosaic.Lib.ValueLayout

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## Indices and the mesh -/

/-- A function of an index reads the same at two indices with the same coordinates. -/
theorem at_congr {S : Shape} {α : Type} (f : S.Idx → α) {i i' : S.Idx} (h : ∀ a, (i a).val = (i' a).val) : f i = f i' :=
  congrArg f (funext fun a => Fin.ext (h a))

/-- On the 2 × 2 × 2 mesh a dimension cut along the first axis gives device `c` block `c / 4`; an uncut one, block 0. -/
theorem lin_first : ∀ c : Dev nD, Layout.meshLin [2, 2, 2] c.val [0] = c.val / 4 := by decide
theorem lin_none : ∀ c : Dev nD, Layout.meshLin [2, 2, 2] c.val [] = 0 := by decide
/-- The partner has the other coordinate on the first axis. -/
theorem peer_x : ∀ c : Dev nD, (peer c).val / 4 = 1 - c.val / 4 := by decide
theorem dev_x_le : ∀ c : Dev nD, c.val / 4 ≤ 1 := by decide

/-! ## Narrowing and widening are the identity on extended reals; the shape casts add or drop the unit axis -/

theorem pay1_apply (v : Vec Ideal S256x512 .f32) (r : Fin 256) (j : Fin 512) :
    k0_pay1 (F := Ideal) v (ix3 (0 : Fin 1) r j) = v (ix2 r j) := by
  unfold k0_pay1
  rw [shapeCast_ab_1ab_apply, truncf_apply, shapeCast_self]
theorem pay2_apply (v : Vec Ideal S256x512 .f32) (r : Fin 256) (j : Fin 512) :
    k0_pay2 (F := Ideal) v (ix3 (0 : Fin 1) r j) = v (ix2 r j) := by
  unfold k0_pay2
  rw [shapeCast_ab_1ab_apply, truncf_apply, shapeCast_self]
theorem pay3_apply (v : Vec Ideal S256x512 .f32) (r : Fin 256) (j : Fin 512) :
    k0_pay3 (F := Ideal) v (ix3 (0 : Fin 1) r j) = v (ix2 r j) := by
  unfold k0_pay3
  rw [shapeCast_ab_1ab_apply, truncf_apply, shapeCast_self]
theorem pay4_apply (v : Vec Ideal S256x512 .f32) (r : Fin 256) (j : Fin 512) :
    k0_pay4 (F := Ideal) v (ix3 (0 : Fin 1) r j) = v (ix2 r j) := by
  unfold k0_pay4
  rw [shapeCast_ab_1ab_apply, truncf_apply, shapeCast_self]
theorem pay5_apply (v : Vec Ideal S256x512 .f32) (r : Fin 256) (j : Fin 512) :
    k0_pay5 (F := Ideal) v (ix3 (0 : Fin 1) r j) = v (ix2 r j) := by
  unfold k0_pay5
  rw [shapeCast_ab_1ab_apply, truncf_apply, shapeCast_self]
theorem pay6_apply (v : Vec Ideal S256x512 .f32) (r : Fin 256) (j : Fin 512) :
    k0_pay6 (F := Ideal) v (ix3 (0 : Fin 1) r j) = v (ix2 r j) := by
  unfold k0_pay6
  rw [shapeCast_ab_1ab_apply, truncf_apply, shapeCast_self]
theorem pay9_apply (v : Vec Ideal S256x512 .f32) (r : Fin 256) (j : Fin 512) :
    k0_pay9 (F := Ideal) v (ix3 (0 : Fin 1) r j) = v (ix2 r j) := by
  unfold k0_pay9
  rw [shapeCast_ab_1ab_apply, truncf_apply, shapeCast_self]
theorem pay87_apply (v : Vec Ideal S256x512 .f32) (r : Fin 256) (j : Fin 512) :
    k0_pay8 (F := Ideal) (k0_pay7 (F := Ideal) v) (ix3 (0 : Fin 1) r j) = v (ix2 r j) := by
  unfold k0_pay8 k0_pay7
  rw [shapeCast_ab_1ab_apply, truncf_apply, shapeCast_self]
theorem pay11_apply (v : Vec Ideal S1x256x512 .bf16) (r : Fin 256) (j : Fin 512) :
    k0_pay11 (F := Ideal) v (ix2 r j) = v (ix3 (0 : Fin 1) r j) := by
  unfold k0_pay11
  rw [extf_apply, shapeCast_1ab_ab_apply]
theorem pay12_apply (v : Vec Ideal S1x256x512 .bf16) (r : Fin 256) (j : Fin 512) :
    k0_pay12 (F := Ideal) v (ix2 r j) = v (ix3 (0 : Fin 1) r j) := by
  unfold k0_pay12
  rw [extf_apply, shapeCast_1ab_ab_apply]
theorem pay13_apply (v : Vec Ideal S1x256x512 .bf16) (r : Fin 256) (j : Fin 512) :
    k0_pay13 (F := Ideal) v (ix2 r j) = v (ix3 (0 : Fin 1) r j) := by
  unfold k0_pay13
  rw [extf_apply, shapeCast_1ab_ab_apply]
theorem pay14_apply (v : Vec Ideal S1x256x512 .bf16) (r : Fin 256) (j : Fin 512) :
    k0_pay14 (F := Ideal) v (ix2 r j) = v (ix3 (0 : Fin 1) r j) := by
  unfold k0_pay14
  rw [extf_apply, shapeCast_1ab_ab_apply]
theorem pay15_apply (v : Vec Ideal S1x256x512 .bf16) (r : Fin 256) (j : Fin 512) :
    k0_pay15 (F := Ideal) v (ix2 r j) = v (ix3 (0 : Fin 1) r j) := by
  unfold k0_pay15
  rw [extf_apply, shapeCast_1ab_ab_apply]
theorem pay16_apply (v : Vec Ideal S1x256x512 .bf16) (r : Fin 256) (j : Fin 512) :
    k0_pay16 (F := Ideal) v (ix2 r j) = v (ix3 (0 : Fin 1) r j) := by
  unfold k0_pay16
  rw [extf_apply, shapeCast_1ab_ab_apply]
theorem pay17_apply (v : Vec Ideal S1x256x512 .bf16) (r : Fin 256) (j : Fin 512) :
    k0_pay17 (F := Ideal) v (ix2 r j) = v (ix3 (0 : Fin 1) r j) := by
  unfold k0_pay17
  rw [extf_apply, shapeCast_1ab_ab_apply]
theorem pay18_apply (v : Vec Ideal S1x256x512 .bf16) (r : Fin 256) (j : Fin 512) :
    k0_pay18 (F := Ideal) v (ix2 r j) = v (ix3 (0 : Fin 1) r j) := by
  unfold k0_pay18
  rw [extf_apply, shapeCast_1ab_ab_apply]

/-! ## A device's block of the whole array -/

section Block

variable (m : (ℓ : Loc nD τ sig) → Buf (Elt Ideal) ℓ) (ρ : Dev nD → PrngReg)
variable (X : (⟨2, ![4096, 1024]⟩ : Shape).Idx → Elt Ideal .f32)

/-- The staged input of a device is its argument buffer: the window's one block is the whole array. -/
theorem xstg_eq (d : Dev nD) : xstg (F := Ideal) m ρ d = m ((d : Thread nD τ).loc main_arg0) := by
  unfold xstg
  exact Memref.read_access_unit_zero (Elt Ideal) main_arg0 (by funext a; exact Nat.zero_mul _) _ _

/-- Row `r`, column `k` of device `d`'s block is row `2048·(d / 4) + r`, column `k` of the whole array. -/
theorem xstg_at
    (hm : ∀ c : Dev nD, m ((c.tc : Thread nD τ).loc main_arg0) = Layout.blockN ⟨2, ![2048, 1024]⟩ ⟨2, ![4096, 1024]⟩ (Layout.meshBlock [2, 2, 2] ![[0], []] c) X)
    (d : Dev nD) (y : S2048x1024.Idx) (z : (⟨2, ![4096, 1024]⟩ : Shape).Idx)
    (h0 : (z 0).val = 2048 * (d.val / 4) + (y 0).val) (h1 : (z 1).val = (y 1).val) :
    xstg (F := Ideal) m ρ d y = X z := by
  rw [xstg_eq]
  refine (congrFun (hm d) y).trans ?_
  rw [Layout.blockN_apply]
  refine at_congr X fun a => ?_
  rw [Layout.TilesN.idx_val]
  match a with
  | ⟨0, _⟩ =>
    show Layout.meshLin [2, 2, 2] d.val [0] * 2048 + (y 0).val = (z 0).val
    rw [lin_first, h0]; omega
  | ⟨1, _⟩ =>
    show Layout.meshLin [2, 2, 2] d.val [] * 1024 + (y 1).val = (z 1).val
    rw [lin_none, h1]; omega

/-- A 256 × 512 tile of a device's block at offsets `off`, at `(r, j)`: the whole array at `(2048·(d / 4) + off 0 + r, off 1 + j)`. -/
theorem tileAt_at
    (hm : ∀ c : Dev nD, m ((c.tc : Thread nD τ).loc main_arg0) = Layout.blockN ⟨2, ![2048, 1024]⟩ ⟨2, ![4096, 1024]⟩ (Layout.meshBlock [2, 2, 2] ![[0], []] c) X)
    (d : Dev nD) (off : Fin 2 → Nat) (inb : ∀ a, off a + S256x512.size a ≤ S2048x1024.size a) (x : S256x512.Idx)
    (z : (⟨2, ![4096, 1024]⟩ : Shape).Idx)
    (h0 : (z 0).val = 2048 * (d.val / 4) + off 0 + (x 0).val) (h1 : (z 1).val = off 1 + (x 1).val) :
    tileAt (xstg (F := Ideal) m ρ d) off inb x = X z := by
  show xstg (F := Ideal) m ρ d ((Rect.unit (s := S2048x1024) off S256x512.size inb).emb x) = X z
  refine xstg_at m ρ X hm d _ z ?_ ?_
  · rw [h0]; show _ = 2048 * (d.val / 4) + (off 0 + 1 * (x 0).val); omega
  · rw [h1]; show _ = off 1 + 1 * (x 1).val; omega

/-- Tile `i` a device sends, at `(0, r, j)`: rows `256·i …` of its block, the partner's column half. -/
theorem chunk_at
    (hm : ∀ c : Dev nD, m ((c.tc : Thread nD τ).loc main_arg0) = Layout.blockN ⟨2, ![2048, 1024]⟩ ⟨2, ![4096, 1024]⟩ (Layout.meshBlock [2, 2, 2] ![[0], []] c) X)
    (d : Dev nD) (i : Fin 8) (r : Fin 256) (j : Fin 512) (z : (⟨2, ![4096, 1024]⟩ : Shape).Idx)
    (h0 : (z 0).val = 2048 * (d.val / 4) + 256 * i.val + r.val) (h1 : (z 1).val = (512 - 512 * (d.val / 4)) + j.val) :
    chunk (F := Ideal) m ρ d i (ix3 (0 : Fin 1) r j) = X z := by
  fin_cases i
  · show k0_pay1 (tileAt (xstg m ρ d) (k0_off1 d) (k0_off1_inb d)) (ix3 (0 : Fin 1) r j) = X z
    rw [pay1_apply]
    refine tileAt_at m ρ X hm d _ _ (ix2 r j) z ?_ ?_
    · replace h0 : (z 0).val = 2048 * (d.val / 4) + 256 * 0 + r.val := h0
      rw [h0, k0_off1_eq]; show _ = 2048 * (d.val / 4) + 0 + r.val; omega
    · rw [h1, k0_off1_eq]; show _ = (512 - 512 * (d.val / 4)) + j.val; omega
  · show k0_pay2 (tileAt (xstg m ρ d) (k0_off2 d) (k0_off2_inb d)) (ix3 (0 : Fin 1) r j) = X z
    rw [pay2_apply]
    refine tileAt_at m ρ X hm d _ _ (ix2 r j) z ?_ ?_
    · replace h0 : (z 0).val = 2048 * (d.val / 4) + 256 * 1 + r.val := h0
      rw [h0, k0_off2_eq]; show _ = 2048 * (d.val / 4) + 256 + r.val; omega
    · rw [h1, k0_off2_eq]; show _ = (512 - 512 * (d.val / 4)) + j.val; omega
  · show k0_pay3 (tileAt (xstg m ρ d) (k0_off3 d) (k0_off3_inb d)) (ix3 (0 : Fin 1) r j) = X z
    rw [pay3_apply]
    refine tileAt_at m ρ X hm d _ _ (ix2 r j) z ?_ ?_
    · replace h0 : (z 0).val = 2048 * (d.val / 4) + 256 * 2 + r.val := h0
      rw [h0, k0_off3_eq]; show _ = 2048 * (d.val / 4) + 512 + r.val; omega
    · rw [h1, k0_off3_eq]; show _ = (512 - 512 * (d.val / 4)) + j.val; omega
  · show k0_pay4 (tileAt (xstg m ρ d) (k0_off4 d) (k0_off4_inb d)) (ix3 (0 : Fin 1) r j) = X z
    rw [pay4_apply]
    refine tileAt_at m ρ X hm d _ _ (ix2 r j) z ?_ ?_
    · replace h0 : (z 0).val = 2048 * (d.val / 4) + 256 * 3 + r.val := h0
      rw [h0, k0_off4_eq]; show _ = 2048 * (d.val / 4) + 768 + r.val; omega
    · rw [h1, k0_off4_eq]; show _ = (512 - 512 * (d.val / 4)) + j.val; omega
  · show k0_pay5 (tileAt (xstg m ρ d) (k0_off5 d) (k0_off5_inb d)) (ix3 (0 : Fin 1) r j) = X z
    rw [pay5_apply]
    refine tileAt_at m ρ X hm d _ _ (ix2 r j) z ?_ ?_
    · replace h0 : (z 0).val = 2048 * (d.val / 4) + 256 * 4 + r.val := h0
      rw [h0, k0_off5_eq]; show _ = 2048 * (d.val / 4) + 1024 + r.val; omega
    · rw [h1, k0_off5_eq]; show _ = (512 - 512 * (d.val / 4)) + j.val; omega
  · show k0_pay6 (tileAt (xstg m ρ d) (k0_off6 d) (k0_off6_inb d)) (ix3 (0 : Fin 1) r j) = X z
    rw [pay6_apply]
    refine tileAt_at m ρ X hm d _ _ (ix2 r j) z ?_ ?_
    · replace h0 : (z 0).val = 2048 * (d.val / 4) + 256 * 5 + r.val := h0
      rw [h0, k0_off6_eq]; show _ = 2048 * (d.val / 4) + 1280 + r.val; omega
    · rw [h1, k0_off6_eq]; show _ = (512 - 512 * (d.val / 4)) + j.val; omega
  · show k0_pay8 (k0_pay7 (tileAt (xstg m ρ d) (k0_off7 d) (k0_off7_inb d))) (ix3 (0 : Fin 1) r j) = X z
    rw [pay87_apply]
    refine tileAt_at m ρ X hm d _ _ (ix2 r j) z ?_ ?_
    · replace h0 : (z 0).val = 2048 * (d.val / 4) + 256 * 6 + r.val := h0
      rw [h0, k0_off7_eq]; show _ = 2048 * (d.val / 4) + 1536 + r.val; omega
    · rw [h1, k0_off7_eq]; show _ = (512 - 512 * (d.val / 4)) + j.val; omega
  · show k0_pay9 (tileAt (xstg m ρ d) (k0_off8 d) (k0_off8_inb d)) (ix3 (0 : Fin 1) r j) = X z
    rw [pay9_apply]
    refine tileAt_at m ρ X hm d _ _ (ix2 r j) z ?_ ?_
    · replace h0 : (z 0).val = 2048 * (d.val / 4) + 256 * 7 + r.val := h0
      rw [h0, k0_off8_eq]; show _ = 2048 * (d.val / 4) + 1792 + r.val; omega
    · rw [h1, k0_off8_eq]; show _ = (512 - 512 * (d.val / 4)) + j.val; omega

/-- Landing slot `i` of device `c`, read through the slot's rectangle at `(0, r, j)`: the partner's tile `i`. -/
theorem landed_at
    (hm : ∀ c : Dev nD, m ((c.tc : Thread nD τ).loc main_arg0) = Layout.blockN ⟨2, ![2048, 1024]⟩ ⟨2, ![4096, 1024]⟩ (Layout.meshBlock [2, 2, 2] ![[0], []] c) X)
    (c : Dev nD) (i : Fin 8) (so : Fin 3 → Nat) (hso : so = ![i.val, 0, 0]) (sinb : ∀ a, so a + S1x256x512.size a ≤ S8x256x512.size a)
    (r : Fin 256) (j : Fin 512) (z : (⟨2, ![4096, 1024]⟩ : Shape).Idx)
    (h0 : (z 0).val = 2048 * ((peer c).val / 4) + 256 * i.val + r.val) (h1 : (z 1).val = (512 - 512 * ((peer c).val / 4)) + j.val) :
    (rM : Memref sig .tc .vmem S8x256x512 .bf16).view.readAt (Elt Ideal) (Rect.unit (s := S8x256x512) so S1x256x512.size sinb).toLoadRect
      (landed (F := Ideal) m ρ c i) (ix3 (0 : Fin 1) r j) = X z := by
  subst hso
  show chunk (F := Ideal) m ρ (peer c) i (ix3 (0 : Fin 1) (⟨0 + 1 * r.val, by omega⟩ : Fin 256) (⟨0 + 1 * j.val, by omega⟩ : Fin 512)) = X z
  refine chunk_at m ρ X hm (peer c) i _ _ z ?_ ?_
  · rw [h0]; show _ = _ + (0 + 1 * r.val); omega
  · rw [h1]; show _ = _ + (0 + 1 * j.val); omega

/-! ## The nine pieces -/

/-- A landed tile, widened, stored at the partner's rows `256·i …` of the result: the whole array's column half there. -/
theorem tile_piece
    (hm : ∀ c : Dev nD, m ((c.tc : Thread nD τ).loc main_arg0) = Layout.blockN ⟨2, ![2048, 1024]⟩ ⟨2, ![4096, 1024]⟩ (Layout.meshBlock [2, 2, 2] ![[0], []] c) X)
    (c : Dev nD) (i : Fin 8) (pay : Vec Ideal S1x256x512 .bf16 → FVec Ideal S256x512 .f32)
    (hpay : ∀ v (r : Fin 256) (j : Fin 512), pay v (ix2 r j) = v (ix3 (0 : Fin 1) r j))
    (off : Fin 2 → Nat) (hoff : off = ![(256 * i.val + 2048) - 2048 * (c.val / 4), 0]) (inb : ∀ a, off a + S256x512.size a ≤ S4096x512.size a)
    (so : Fin 3 → Nat) (hso : so = ![i.val, 0, 0]) (sinb : ∀ a, so a + S1x256x512.size a ≤ S8x256x512.size a) (x : S256x512.Idx) :
    pay ((rM : Memref sig .tc .vmem S8x256x512 .bf16).view.readAt (Elt Ideal) (Rect.unit (s := S8x256x512) so S1x256x512.size sinb).toLoadRect (landed (F := Ideal) m ρ c i)) x
      = (Layout.blockN ⟨2, ![4096, 512]⟩ ⟨2, ![4096, 1024]⟩ (Layout.meshBlock [2, 2, 2] ![[], [0]] c) X) ((Rect.unit (s := S4096x512) off S256x512.size inb).emb x) := by
  subst hoff
  obtain ⟨r, j, rfl⟩ : ∃ (r : Fin 256) (j : Fin 512), x = ix2 r j := ⟨x 0, x 1, eq_ix2 x⟩
  rw [hpay, Layout.blockN_apply]
  have hx := dev_x_le c
  have hi := i.isLt
  refine landed_at m ρ X hm c i so hso sinb r j _ ?_ ?_
  · rw [Layout.TilesN.idx_val, peer_x]
    show Layout.meshLin [2, 2, 2] c.val [] * 4096 + (((256 * i.val + 2048) - 2048 * (c.val / 4)) + 1 * r.val) = _
    rw [lin_none]; omega
  · rw [Layout.TilesN.idx_val, peer_x]
    show Layout.meshLin [2, 2, 2] c.val [0] * 512 + (0 + 1 * j.val) = _
    rw [lin_first]; omega

/-- The device's own column half of its own rows, stored at its rows of the result. -/
theorem own_piece
    (hm : ∀ c : Dev nD, m ((c.tc : Thread nD τ).loc main_arg0) = Layout.blockN ⟨2, ![2048, 1024]⟩ ⟨2, ![4096, 1024]⟩ (Layout.meshBlock [2, 2, 2] ![[0], []] c) X)
    (c : Dev nD) (x : S2048x512.Idx) :
    k0_pay10 (F := Ideal) (ownTile (F := Ideal) m ρ c) x
      = (Layout.blockN ⟨2, ![4096, 512]⟩ ⟨2, ![4096, 1024]⟩ (Layout.meshBlock [2, 2, 2] ![[], [0]] c) X) ((Rect.unit (s := S4096x512) (k0_off10 c) S2048x512.size (k0_off10_inb c)).emb x) := by
  obtain ⟨r, j, rfl⟩ : ∃ (r : Fin 2048) (j : Fin 512), x = ix2 r j := ⟨x 0, x 1, eq_ix2 x⟩
  unfold k0_pay10
  rw [shapeCast_self, Layout.blockN_apply]
  show xstg (F := Ideal) m ρ c ((Rect.unit (s := S2048x1024) (k0_off9 c) S2048x512.size (k0_off9_inb c)).emb (ix2 r j)) = _
  have hx := dev_x_le c
  refine xstg_at m ρ X hm c _ _ ?_ ?_
  · rw [Layout.TilesN.idx_val]
    show Layout.meshLin [2, 2, 2] c.val [] * 4096 + (k0_off10 c 0 + 1 * r.val) = 2048 * (c.val / 4) + (k0_off9 c 0 + 1 * r.val)
    rw [lin_none, k0_off10_eq, k0_off9_eq]
    show 0 * 4096 + (2048 * (c.val / 4) + 1 * r.val) = 2048 * (c.val / 4) + (0 + 1 * r.val)
    omega
  · rw [Layout.TilesN.idx_val]
    show Layout.meshLin [2, 2, 2] c.val [0] * 512 + (k0_off10 c 1 + 1 * j.val) = k0_off9 c 1 + 1 * j.val
    rw [lin_first, k0_off10_eq, k0_off9_eq]
    show c.val / 4 * 512 + (0 + 1 * j.val) = 512 * (c.val / 4) + 1 * j.val
    omega

/-! ## The result -/

/-- Wherever the nine stores cover the result, it holds the device's column half of the whole array. -/
theorem outAt_block_of_cover
    (hm : ∀ c : Dev nD, m ((c.tc : Thread nD τ).loc main_arg0) = Layout.blockN ⟨2, ![2048, 1024]⟩ ⟨2, ![4096, 1024]⟩ (Layout.meshBlock [2, 2, 2] ![[0], []] c) X)
    (c : Dev nD) (hcover : ∀ y : S4096x512.Idx, ∃ p ∈ outPieces (F := Ideal) m ρ c, y ∈ p.1.set) :
    outAt (F := Ideal) m ρ c = Layout.blockN ⟨2, ![4096, 512]⟩ ⟨2, ![4096, 1024]⟩ (Layout.meshBlock [2, 2, 2] ![[], [0]] c) X := by
  funext y
  unfold outAt
  refine View.canon_apply_of_pieces _ (outPieces (F := Ideal) m ρ c) ?_ y (hcover y)
  intro p hp x
  unfold outPieces at hp
  simp only [List.mem_cons, List.mem_nil_iff, or_false] at hp
  rcases hp with rfl | rfl | rfl | rfl | rfl | rfl | rfl | rfl | rfl
  · exact tile_piece m ρ X hm c 7 k0_pay18 pay18_apply _ (k0_off11_eq c 7) (k0_off11_inb c 7) _ rfl inb_S8x256x512_S1x256x512_7_0_0 x
  · exact tile_piece m ρ X hm c 6 k0_pay17 pay17_apply _ (k0_off11_eq c 6) (k0_off11_inb c 6) _ rfl inb_S8x256x512_S1x256x512_6_0_0 x
  · exact tile_piece m ρ X hm c 5 k0_pay16 pay16_apply _ (k0_off11_eq c 5) (k0_off11_inb c 5) _ rfl inb_S8x256x512_S1x256x512_5_0_0 x
  · exact tile_piece m ρ X hm c 4 k0_pay15 pay15_apply _ (k0_off11_eq c 4) (k0_off11_inb c 4) _ rfl inb_S8x256x512_S1x256x512_4_0_0 x
  · exact tile_piece m ρ X hm c 3 k0_pay14 pay14_apply _ (k0_off11_eq c 3) (k0_off11_inb c 3) _ rfl inb_S8x256x512_S1x256x512_3_0_0 x
  · exact tile_piece m ρ X hm c 2 k0_pay13 pay13_apply _ (k0_off11_eq c 2) (k0_off11_inb c 2) _ rfl inb_S8x256x512_S1x256x512_2_0_0 x
  · exact tile_piece m ρ X hm c 1 k0_pay12 pay12_apply _ (k0_off11_eq c 1) (k0_off11_inb c 1) _ rfl inb_S8x256x512_S1x256x512_1_0_0 x
  · exact tile_piece m ρ X hm c 0 k0_pay11 pay11_apply _ (k0_off11_eq c 0) (k0_off11_inb c 0) _ rfl inb_S8x256x512_S1x256x512_0_0_0 x
  · exact own_piece m ρ X hm c x

end Block

/-- info: 'Cert.KernelIdeal.A2A.outAt_block_of_cover' depends on axioms: [propext, Classical.choice, Quot.sound] -/
#guard_msgs in #print axioms outAt_block_of_cover

end Cert.KernelIdeal.A2A

end
-- ==== Proof.RefRun.lean ====
/-
  The run of the reference program. Its @main performs no operation and returns its argument array: it is the
  empty line of host operations. From any memory with zero counters every weakly fair execution therefore
  terminates without fault with every buffer holding what it held at launch; in particular the argument array
  main_arg0, which is also the result, ends equal to its initial contents.
-/
import proofs.«900619_g7700000000000620_dist_a2a_v7x_xyz2x2x2_x_m2048_n512_f32_1_alg».proof.ReferenceIdeal
import proofs.«900619_g7700000000000620_dist_a2a_v7x_xyz2x2x2_x_m2048_n512_f32_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main is the empty line of host operations: the line's program at the empty list is the bare return. -/
theorem main_eq (c : Dev nD) : main (F := F) c = seq [] := rfl

/-- The signature scopes no TensorCore buffer. -/
theorem scopedRefs_eq : (Finset.univ.filter fun b : Ref sig .tc => b.isScoped) = ∅ := by decide

/-- The signature has no semaphore, so it scopes none. -/
theorem scopedSems_eq : (Finset.univ.filter fun sm : SemLoc sig => sm.isScoped .tc) = ∅ := by decide

/-- For any float values: from any memory with zero counters, every weakly fair execution of @main terminates and
    every TensorCore buffer ends at its launch contents (the fold of no operation over them is the identity). -/
theorem run_all (m : (ℓ : Loc nD τ sig) → Buf (Elt F) ℓ) (ρ : Dev nD → PrngReg) :
    θ_run (defs (F := F)) (onTc (τ := τ) (main (F := F))) ⟨m, fun _ => 0, ρ⟩ fun r => ∀ (c : Dev nD) (b : Ref sig .tc),
      r.2.mem ((c.tc : Thread nD τ).loc b) = m ((c.tc : Thread nD τ).loc b) :=
  (θ_run defs _ _).mono (fun _ h c b => (h c b).trans rfl)
    (run_seq scopedRefs_eq scopedSems_eq defs main (fun _ => []) main_eq (fun _ => trivial) m ρ
      (fun _ _ h => nomatch h))

/-- At the ideal instance: the reference runs, and its argument array, which is its result, ends unchanged. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD, r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run defs _ _).mono (fun _ h c => h c main_arg0) (run_all m' g')

/-- info: 'Cert.ReferenceIdeal.RefRun.run' depends on axioms: [propext, Classical.choice, Quot.sound] -/
#guard_msgs in #print axioms Cert.ReferenceIdeal.RefRun.run

end Cert.ReferenceIdeal.RefRun

end
-- ==== Proof.Bits.Proto.lean ====
/-
  The exchange between a device and its partner across the first mesh axis: the names this proof uses.

  Device `c` (linear id `4·x + 2·y + z`) has ONE partner, `peer c`, the device with the other `x` and the same `y`, `z`;
  `peer` is an involution. Each device holds three kinds of semaphore cells: the barrier cell (one unit, signalled by the
  partner at entry), two departure cells (one per staging slot; slot `s` carries the transfers `s, s+2, s+4, s+6`, one per
  round), and eight arrival cells (transfer `i` of the partner lands in landing slot `i` and credits arrival cell `i`).
-/
import proofs.«900619_g7700000000000620_dist_a2a_v7x_xyz2x2x2_x_m2048_n512_f32_1_alg».proof.Proof.Gen.Kernel
import proofs.«900619_g7700000000000620_dist_a2a_v7x_xyz2x2x2_x_m2048_n512_f32_1_alg».proof.Proof.Gen.Kernel.Skeleton
import proofs.«900619_g7700000000000620_dist_a2a_v7x_xyz2x2x2_x_m2048_n512_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (every round has one duty: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device with the other coordinate on the first mesh axis. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

def swap : Dev nD ≃ Dev nD := ⟨peer, peer, peer_peer, peer_peer⟩

theorem dev_closed : ∀ c : Dev nD, (2 * ((c.val / 2) % 2) + (c.val % 2) + 4) - 4 * (c.val / 4) = (c.val + 4) % 8 := by decide

/-- Every `device_id` the body computes names the partner. -/
theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))

/-! ## The buffers -/

/-- The staged block of `x`, the staged result, the two staging slots, the eight landing slots. -/
abbrev xM : Memref sig .tc .vmem S2048x1024 .f32 := Memref.whole cc0_stg0_0
abbrev oM : Memref sig .tc .vmem S4096x512 .f32 := Memref.whole cc0_stg1_0
abbrev sM : Memref sig .tc .vmem S2x256x512 .bf16 := Memref.whole cc0_scratch0
abbrev rM : Memref sig .tc .vmem S8x256x512 .bf16 := Memref.whole cc0_scratch1

abbrev sSlot0 : Memref sig .tc .vmem S256x512 .bf16 := ((sM.slice (Rect.unit (s := S2x256x512) ![0, 0, 0] S1x256x512.size inb_S2x256x512_S1x256x512_0_0_0) (fun _ => rfl)).squeeze S256x512 squeezes_S1x256x512_S256x512)
abbrev sSlot1 : Memref sig .tc .vmem S256x512 .bf16 := ((sM.slice (Rect.unit (s := S2x256x512) ![1, 0, 0] S1x256x512.size inb_S2x256x512_S1x256x512_1_0_0) (fun _ => rfl)).squeeze S256x512 squeezes_S1x256x512_S256x512)
abbrev sSlot : Fin 2 → Memref sig .tc .vmem S256x512 .bf16 := fun | 0 => sSlot0 | 1 => sSlot1

abbrev rSlot0 : Memref sig .tc .vmem S256x512 .bf16 := ((rM.slice (Rect.unit (s := S8x256x512) ![0, 0, 0] S1x256x512.size inb_S8x256x512_S1x256x512_0_0_0) (fun _ => rfl)).squeeze S256x512 squeezes_S1x256x512_S256x512)
abbrev rSlot1 : Memref sig .tc .vmem S256x512 .bf16 := ((rM.slice (Rect.unit (s := S8x256x512) ![1, 0, 0] S1x256x512.size inb_S8x256x512_S1x256x512_1_0_0) (fun _ => rfl)).squeeze S256x512 squeezes_S1x256x512_S256x512)
abbrev rSlot2 : Memref sig .tc .vmem S256x512 .bf16 := ((rM.slice (Rect.unit (s := S8x256x512) ![2, 0, 0] S1x256x512.size inb_S8x256x512_S1x256x512_2_0_0) (fun _ => rfl)).squeeze S256x512 squeezes_S1x256x512_S256x512)
abbrev rSlot3 : Memref sig .tc .vmem S256x512 .bf16 := ((rM.slice (Rect.unit (s := S8x256x512) ![3, 0, 0] S1x256x512.size inb_S8x256x512_S1x256x512_3_0_0) (fun _ => rfl)).squeeze S256x512 squeezes_S1x256x512_S256x512)
abbrev rSlot4 : Memref sig .tc .vmem S256x512 .bf16 := ((rM.slice (Rect.unit (s := S8x256x512) ![4, 0, 0] S1x256x512.size inb_S8x256x512_S1x256x512_4_0_0) (fun _ => rfl)).squeeze S256x512 squeezes_S1x256x512_S256x512)
abbrev rSlot5 : Memref sig .tc .vmem S256x512 .bf16 := ((rM.slice (Rect.unit (s := S8x256x512) ![5, 0, 0] S1x256x512.size inb_S8x256x512_S1x256x512_5_0_0) (fun _ => rfl)).squeeze S256x512 squeezes_S1x256x512_S256x512)
abbrev rSlot6 : Memref sig .tc .vmem S256x512 .bf16 := ((rM.slice (Rect.unit (s := S8x256x512) ![6, 0, 0] S1x256x512.size inb_S8x256x512_S1x256x512_6_0_0) (fun _ => rfl)).squeeze S256x512 squeezes_S1x256x512_S256x512)
abbrev rSlot7 : Memref sig .tc .vmem S256x512 .bf16 := ((rM.slice (Rect.unit (s := S8x256x512) ![7, 0, 0] S1x256x512.size inb_S8x256x512_S1x256x512_7_0_0) (fun _ => rfl)).squeeze S256x512 squeezes_S1x256x512_S256x512)
abbrev rSlot : Fin 8 → Memref sig .tc .vmem S256x512 .bf16 := fun | 0 => rSlot0 | 1 => rSlot1 | 2 => rSlot2 | 3 => rSlot3 | 4 => rSlot4 | 5 => rSlot5 | 6 => rSlot6 | 7 => rSlot7

/-! ## The semaphores and their cells -/

/-- The barrier semaphore of the collective (the runtime's, not scoped to the launch). -/
abbrev barS : Sem sig := (SemArray.scalar (sig.barrier 0 rfl) : Sems sig S_).sem

abbrev sendS0 : DmaSems sig S_ := (cc0_scratch2.slice (Rect.unit (s := S2) ![0] S1.size inb_S2_S1_0)).squeeze S_ squeezes_S1_S_
abbrev sendS1 : DmaSems sig S_ := (cc0_scratch2.slice (Rect.unit (s := S2) ![1] S1.size inb_S2_S1_1)).squeeze S_ squeezes_S1_S_
abbrev sendS : Fin 2 → DmaSems sig S_ := fun | 0 => sendS0 | 1 => sendS1

abbrev recvS0 : DmaSems sig S_ := (cc0_scratch3.slice (Rect.unit (s := S8) ![0] S1.size inb_S8_S1_0)).squeeze S_ squeezes_S1_S_
abbrev recvS1 : DmaSems sig S_ := (cc0_scratch3.slice (Rect.unit (s := S8) ![1] S1.size inb_S8_S1_1)).squeeze S_ squeezes_S1_S_
abbrev recvS2 : DmaSems sig S_ := (cc0_scratch3.slice (Rect.unit (s := S8) ![2] S1.size inb_S8_S1_2)).squeeze S_ squeezes_S1_S_
abbrev recvS3 : DmaSems sig S_ := (cc0_scratch3.slice (Rect.unit (s := S8) ![3] S1.size inb_S8_S1_3)).squeeze S_ squeezes_S1_S_
abbrev recvS4 : DmaSems sig S_ := (cc0_scratch3.slice (Rect.unit (s := S8) ![4] S1.size inb_S8_S1_4)).squeeze S_ squeezes_S1_S_
abbrev recvS5 : DmaSems sig S_ := (cc0_scratch3.slice (Rect.unit (s := S8) ![5] S1.size inb_S8_S1_5)).squeeze S_ squeezes_S1_S_
abbrev recvS6 : DmaSems sig S_ := (cc0_scratch3.slice (Rect.unit (s := S8) ![6] S1.size inb_S8_S1_6)).squeeze S_ squeezes_S1_S_
abbrev recvS7 : DmaSems sig S_ := (cc0_scratch3.slice (Rect.unit (s := S8) ![7] S1.size inb_S8_S1_7)).squeeze S_ squeezes_S1_S_
abbrev recvS : Fin 8 → DmaSems sig S_ := fun | 0 => recvS0 | 1 => recvS1 | 2 => recvS2 | 3 => recvS3 | 4 => recvS4 | 5 => recvS5 | 6 => recvS6 | 7 => recvS7

/-- The eleven semaphores of the exchange, as this proof indexes them: barrier, two departures, eight arrivals. -/
abbrev csem : Fin 11 → SemLoc sig := fun
  | 0 => .reg barS | 1 => .dma sendS0.sem | 2 => .dma sendS1.sem
  | 3 => .dma recvS0.sem | 4 => .dma recvS1.sem | 5 => .dma recvS2.sem | 6 => .dma recvS3.sem
  | 7 => .dma recvS4.sem | 8 => .dma recvS5.sem | 9 => .dma recvS6.sem | 10 => .dma recvS7.sem

abbrev kcell (ck : Dev nD × Fin 11) : GSem nD τ sig := ((ck.1 : Thread nD τ), csem ck.2)
abbrev barCell (c : Dev nD) : GSem nD τ sig := ((c : Thread nD τ), .reg barS)
abbrev sendCell (c : Dev nD) (s : Fin 2) : GSem nD τ sig := ((c : Thread nD τ), .dma (sendS s).sem)
abbrev recvCell (c : Dev nD) (i : Fin 8) : GSem nD τ sig := ((c : Thread nD τ), .dma (recvS i).sem)

/-- The literal numbers of the semaphores: departures 2 and 3, arrivals 4 to 11 (0 and 1 are the two staging semaphores). -/
theorem sendS_val (s : Fin 2) : ((sendS s).sem : DmaSem sig).val = 2 + s.val := by fin_cases s <;> rfl
theorem recvS_val (i : Fin 8) : ((recvS i).sem : DmaSem sig).val = 4 + i.val := by fin_cases i <;> rfl

/-- The credit of one transfer: a slot's worth. -/
abbrev N : ℕ := (rSlot0 : Memref sig .tc .vmem S256x512 .bf16).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `d`'s staged input holds: its block of `x` (2048 rows of 1024). -/
def xstg (d : Dev nD) : (cc0_stg0_0 : Ref sig .tc).ty.Contents (Elt F) :=
  (win0_0.blk (0 : Fin 1)).view.read (Elt F) ((s₀ m ρ).mem ((d : Thread nD τ).loc main_arg0))

/-- A 256 × 512 tile of a staged input, read at a printed offset. -/
abbrev tileAt (X : (cc0_stg0_0 : Ref sig .tc).ty.Contents (Elt F)) (off : Fin 2 → Nat) (inb : ∀ a, off a + S256x512.size a ≤ S2048x1024.size a) : Vec F S256x512 .f32 :=
  (xM : Memref sig .tc .vmem S2048x1024 .f32).view.readAt (Elt F) (Rect.unit (s := S2048x1024) off S256x512.size inb).toLoadRect X

/-- Tile `i` of device `d`'s block, in the partner's column half, as the body stores it into a staging slot (narrowed to 16 bits, one
    leading unit axis): rows `256·i …`, columns `512·(1 − x) …`. -/
def chunk (d : Dev nD) : Fin 8 → FVec F S1x256x512 .bf16 := fun
  | 0 => k0_pay1 (tileAt (xstg m ρ d) (k0_off1 d) (k0_off1_inb d))
  | 1 => k0_pay2 (tileAt (xstg m ρ d) (k0_off2 d) (k0_off2_inb d))
  | 2 => k0_pay3 (tileAt (xstg m ρ d) (k0_off3 d) (k0_off3_inb d))
  | 3 => k0_pay4 (tileAt (xstg m ρ d) (k0_off4 d) (k0_off4_inb d))
  | 4 => k0_pay5 (tileAt (xstg m ρ d) (k0_off5 d) (k0_off5_inb d))
  | 5 => k0_pay6 (tileAt (xstg m ρ d) (k0_off6 d) (k0_off6_inb d))
  | 6 => k0_pay8 (k0_pay7 (tileAt (xstg m ρ d) (k0_off7 d) (k0_off7_inb d)))
  | 7 => k0_pay9 (tileAt (xstg m ρ d) (k0_off8 d) (k0_off8_inb d))

/-- The same tile as a staging slot holds it, seen through the slot: 256 × 512. -/
def sentVal (d : Dev nD) (i : Fin 8) : Vec F S256x512 .bf16 :=
  fun j => chunk m ρ d i (ValueIdx.ix3 (0 : Fin 1) (j 0 : Fin 256) (j 1 : Fin 512))

/-- A landing buffer all of whose slots hold `V`: what matters of it is one slot. -/
def slotsOf (V : Vec F S256x512 .bf16) : (cc0_scratch1 : Ref sig .tc).ty.Contents (Elt F) :=
  fun idx => V (ValueIdx.ix2 (idx 1 : Fin 256) (idx 2 : Fin 512))

/-- What landing slot `i` of device `c` holds after the partner's transfer `i`: the partner's tile `i`. -/
def landed (c : Dev nD) (i : Fin 8) : Buf (Elt F) ((rM : Memref sig .tc .vmem S8x256x512 .bf16).view.loc (c : Thread nD τ)) :=
  slotsOf (sentVal m ρ (peer c) i)

/-! ## The schedule -/

/-- Which semaphore of the exchange a location is. -/
inductive CK | bar | send (s : Fin 2) | recv (i : Fin 8)
  deriving DecidableEq

def classify : SemLoc sig → Option CK
  | .reg _ => some .bar
  | .dma q => if q.val = 2 then some (.send 0) else if q.val = 3 then some (.send 1)
      else if h : 4 ≤ q.val ∧ q.val < 12 then some (.recv ⟨q.val - 4, by omega⟩) else none

/-- The partner's signal hands a device the partner's whole landing buffer, over some contents: what the eight transfers into it write. -/
def barPay (c : Dev nD) : sProp 𝕄 :=
  iprop(∃ f, ((rM : Memref sig .tc .vmem S8x256x512 .bf16).view.loc (peer c : Thread nD τ)) ↦{fullShare} f)
/-- A departure hands the staging slot back, over some contents (it is overwritten or dropped next). -/
def sendPay (c : Dev nD) (s : Fin 2) : sProp 𝕄 :=
  iprop(∃ f, (sSlot s).view.loc (c : Thread nD τ) ↦[(sSlot s).view.set]{fullShare} f)
/-- An arrival hands the landing slot over, holding the partner's tile. -/
def recvPay (c : Dev nD) : Fin 8 → sProp 𝕄 := fun
  | 0 => rSlot0.view.loc (c : Thread nD τ) ↦[rSlot0.view.set]{fullShare} landed m ρ c 0
  | 1 => rSlot1.view.loc (c : Thread nD τ) ↦[rSlot1.view.set]{fullShare} landed m ρ c 1
  | 2 => rSlot2.view.loc (c : Thread nD τ) ↦[rSlot2.view.set]{fullShare} landed m ρ c 2
  | 3 => rSlot3.view.loc (c : Thread nD τ) ↦[rSlot3.view.set]{fullShare} landed m ρ c 3
  | 4 => rSlot4.view.loc (c : Thread nD τ) ↦[rSlot4.view.set]{fullShare} landed m ρ c 4
  | 5 => rSlot5.view.loc (c : Thread nD τ) ↦[rSlot5.view.set]{fullShare} landed m ρ c 5
  | 6 => rSlot6.view.loc (c : Thread nD τ) ↦[rSlot6.view.set]{fullShare} landed m ρ c 6
  | 7 => rSlot7.view.loc (c : Thread nD τ) ↦[rSlot7.view.set]{fullShare} landed m ρ c 7

/-- One duty a round: the barrier cell and the arrival cells have one round, a departure cell four (its slot is used four times). -/
def sched : Rounds.Schedule (GSem nD τ sig) Unit 𝕄 where
  duties g r := if g.1.2 = .tc then
      (match classify g.2 with
        | some .bar => if r = 0 then {()} else ∅
        | some (.send _) => if r < 4 then {()} else ∅
        | some (.recv _) => if r = 0 then {()} else ∅
        | none => ∅)
    else ∅
  unitless _ := False
  amount g _ _ := match classify g.2 with | some .bar => 1 | _ => N
  payload g _ _ := match classify g.2 with
    | some .bar => barPay g.1.1
    | some (.send s) => sendPay g.1.1 s
    | some (.recv i) => recvPay m ρ g.1.1 i
    | none => iprop(emp)
  amount_pos g _ _ _ := by
    cases classify g.2 with
    | none => exact N_pos
    | some k => cases k with
      | bar => exact Nat.one_pos
      | send s => exact N_pos
      | recv i => exact N_pos

theorem classify_bar : classify (.reg barS : SemLoc sig) = some .bar := rfl
theorem classify_send (s : Fin 2) : classify (.dma (sendS s).sem : SemLoc sig) = some (.send s) := by fin_cases s <;> rfl
theorem classify_recv (i : Fin 8) : classify (.dma (recvS i).sem : SemLoc sig) = some (.recv i) := by fin_cases i <;> rfl

section Sched
variable (c : Dev nD)

theorem duties_bar : (sched (F := F) m ρ).duties (barCell c) 0 = {()} := by
  dsimp only [sched]; rw [if_pos rfl, classify_bar]; rfl
theorem duties_send (s : Fin 2) (r : ℕ) (hr : r < 4) : (sched (F := F) m ρ).duties (sendCell c s) r = {()} := by
  dsimp only [sched]; rw [if_pos rfl, classify_send]; exact if_pos hr
theorem duties_recv (i : Fin 8) : (sched (F := F) m ρ).duties (recvCell c i) 0 = {()} := by
  dsimp only [sched]; rw [if_pos rfl, classify_recv]; rfl

theorem amount_bar (r : ℕ) (d : Unit) : (sched (F := F) m ρ).amount (barCell c) r d = 1 := by dsimp only [sched]; rw [classify_bar]
theorem amount_send (s : Fin 2) (r : ℕ) (d : Unit) : (sched (F := F) m ρ).amount (sendCell c s) r d = N := by dsimp only [sched]; rw [classify_send]
theorem amount_recv (i : Fin 8) (r : ℕ) (d : Unit) : (sched (F := F) m ρ).amount (recvCell c i) r d = N := by dsimp only [sched]; rw [classify_recv]

theorem expect_bar : (sched (F := F) m ρ).expect (barCell c) 0 = 1 := by
  unfold Schedule.expect Schedule.amountOf; rw [duties_bar, Finset.sum_singleton, amount_bar]
theorem expect_send (s : Fin 2) (r : ℕ) (hr : r < 4) : (sched (F := F) m ρ).expect (sendCell c s) r = N := by
  unfold Schedule.expect Schedule.amountOf; rw [duties_send m ρ c s r hr, Finset.sum_singleton, amount_send]
theorem expect_recv (i : Fin 8) : (sched (F := F) m ρ).expect (recvCell c i) 0 = N := by
  unfold Schedule.expect Schedule.amountOf; rw [duties_recv, Finset.sum_singleton, amount_recv]

theorem payload_bar (r : ℕ) (d : Unit) : (sched (F := F) m ρ).payload (barCell c) r d = barPay c := by dsimp only [sched]; rw [classify_bar]
theorem payload_send (s : Fin 2) (r : ℕ) (d : Unit) : (sched (F := F) m ρ).payload (sendCell c s) r d = sendPay c s := by dsimp only [sched]; rw [classify_send]
theorem payload_recv (i : Fin 8) (r : ℕ) (d : Unit) : (sched (F := F) m ρ).payload (recvCell c i) r d = recvPay m ρ c i := by dsimp only [sched]; rw [classify_recv]

end Sched

/-! ## After the last round -/

section Later
variable (c : Dev nD)

theorem duties_bar_later (r : ℕ) (hr : 1 ≤ r) : (sched (F := F) m ρ).duties (barCell c) r = ∅ := by
  dsimp only [sched]; rw [if_pos rfl, classify_bar]; exact if_neg (by omega)
theorem duties_send_later (s : Fin 2) (r : ℕ) (hr : 4 ≤ r) : (sched (F := F) m ρ).duties (sendCell c s) r = ∅ := by
  dsimp only [sched]; rw [if_pos rfl, classify_send]; exact if_neg (by omega)
theorem duties_recv_later (i : Fin 8) (r : ℕ) (hr : 1 ≤ r) : (sched (F := F) m ρ).duties (recvCell c i) r = ∅ := by
  dsimp only [sched]; rw [if_pos rfl, classify_recv]; exact if_neg (by omega)

end Later

/-! ## What each device owes at launch; the levels -/

/-- Device `c` owes the partner's barrier cell one unit and each of the partner's eight arrival cells a slot's credit — summed so that the
    signal peels the last summand and transfer `i` the one before the rest. -/
def O₀ (c : Dev nD) : CellTallies nD τ sig Unit :=
  tallyAt (recvCell (peer c) 7) () N + tallyAt (recvCell (peer c) 6) () N + tallyAt (recvCell (peer c) 5) () N + tallyAt (recvCell (peer c) 4) () N
    + tallyAt (recvCell (peer c) 3) () N + tallyAt (recvCell (peer c) 2) () N + tallyAt (recvCell (peer c) 1) () N + tallyAt (recvCell (peer c) 0) () N
    + tallyAt (barCell (peer c)) () 1

def L (g : GSem nD τ sig) : Finset Unit := if g.1.2 = .tc then {()} else ∅
/-- The barrier cells at level 1, the arrival cells at 2, everything else (the pipeline's staging cells, the departure cells) at 0: a device
    waits on its barrier cell owing only arrival credit, on a departure cell owing only arrival credit, on an arrival cell owing nothing. -/
def lv (g : GSem nD τ sig) (_ : Unit) : ℕ := match classify g.2 with | some .bar => 1 | some (.recv _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [classify_bar]
theorem lv_send (c : Dev nD) (s : Fin 2) (u : Unit) : lv (sendCell c s) u = 0 := by dsimp only [lv]; rw [classify_send]
theorem lv_recv (c : Dev nD) (i : Fin 8) (u : Unit) : lv (recvCell c i) u = 2 := by dsimp only [lv]; rw [classify_recv]

end Cert.Kernel.A2A

end
-- ==== Proof.Bits.Dat.lean ====
/-
  What a device holds when its body starts and when it ends, and the contents the body leaves in the staged result.

  The result block of device `c` (4096 rows of 512) is filled by nine stores: its own column half of its own rows, and for each of the
  eight landed tiles the tile widened back to 32 bits, at the partner's rows. Read back as ONE function it is `View.canon` of those nine
  pieces (the last store first).
-/
import proofs.«900619_g7700000000000620_dist_a2a_v7x_xyz2x2x2_x_m2048_n512_f32_1_alg».proof.Proof.Bits.Proto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's contents -/

/-- The device's own column half of its own 2048 rows. -/
def ownTile (c : Dev nD) : Vec F S2048x512 .f32 :=
  (xM : Memref sig .tc .vmem S2048x1024 .f32).view.readAt (Elt F) (Rect.unit (s := S2048x1024) (k0_off9 c) S2048x512.size (k0_off9_inb c)).toLoadRect (xstg m ρ c)

/-- The nine stores into the staged result, the last first. -/
def outPieces (c : Dev nD) : List (View.Piece (Elt F) S4096x512 .f32) :=
  [
    ⟨Rect.unit (s := S4096x512) (k0_off11 c 1792#32) S256x512.size (k0_off11_inb c 7), (k0_pay18 ((rM : Memref sig .tc .vmem S8x256x512 .bf16).view.readAt (Elt F) (Rect.unit (s := S8x256x512) ![7, 0, 0] S1x256x512.size inb_S8x256x512_S1x256x512_7_0_0).toLoadRect (landed m ρ c 7)))⟩,
    ⟨Rect.unit (s := S4096x512) (k0_off11 c 1536#32) S256x512.size (k0_off11_inb c 6), (k0_pay17 ((rM : Memref sig .tc .vmem S8x256x512 .bf16).view.readAt (Elt F) (Rect.unit (s := S8x256x512) ![6, 0, 0] S1x256x512.size inb_S8x256x512_S1x256x512_6_0_0).toLoadRect (landed m ρ c 6)))⟩,
    ⟨Rect.unit (s := S4096x512) (k0_off11 c 1280#32) S256x512.size (k0_off11_inb c 5), (k0_pay16 ((rM : Memref sig .tc .vmem S8x256x512 .bf16).view.readAt (Elt F) (Rect.unit (s := S8x256x512) ![5, 0, 0] S1x256x512.size inb_S8x256x512_S1x256x512_5_0_0).toLoadRect (landed m ρ c 5)))⟩,
    ⟨Rect.unit (s := S4096x512) (k0_off11 c 1024#32) S256x512.size (k0_off11_inb c 4), (k0_pay15 ((rM : Memref sig .tc .vmem S8x256x512 .bf16).view.readAt (Elt F) (Rect.unit (s := S8x256x512) ![4, 0, 0] S1x256x512.size inb_S8x256x512_S1x256x512_4_0_0).toLoadRect (landed m ρ c 4)))⟩,
    ⟨Rect.unit (s := S4096x512) (k0_off11 c 768#32) S256x512.size (k0_off11_inb c 3), (k0_pay14 ((rM : Memref sig .tc .vmem S8x256x512 .bf16).view.readAt (Elt F) (Rect.unit (s := S8x256x512) ![3, 0, 0] S1x256x512.size inb_S8x256x512_S1x256x512_3_0_0).toLoadRect (landed m ρ c 3)))⟩,
    ⟨Rect.unit (s := S4096x512) (k0_off11 c 512#32) S256x512.size (k0_off11_inb c 2), (k0_pay13 ((rM : Memref sig .tc .vmem S8x256x512 .bf16).view.readAt (Elt F) (Rect.unit (s := S8x256x512) ![2, 0, 0] S1x256x512.size inb_S8x256x512_S1x256x512_2_0_0).toLoadRect (landed m ρ c 2)))⟩,
    ⟨Rect.unit (s := S4096x512) (k0_off11 c 256#32) S256x512.size (k0_off11_inb c 1), (k0_pay12 ((rM : Memref sig .tc .vmem S8x256x512 .bf16).view.readAt (Elt F) (Rect.unit (s := S8x256x512) ![1, 0, 0] S1x256x512.size inb_S8x256x512_S1x256x512_1_0_0).toLoadRect (landed m ρ c 1)))⟩,
    ⟨Rect.unit (s := S4096x512) (k0_off11 c 0#32) S256x512.size (k0_off11_inb c 0), (k0_pay11 ((rM : Memref sig .tc .vmem S8x256x512 .bf16).view.readAt (Elt F) (Rect.unit (s := S8x256x512) ![0, 0, 0] S1x256x512.size inb_S8x256x512_S1x256x512_0_0_0).toLoadRect (landed m ρ c 0)))⟩,
    ⟨Rect.unit (s := S4096x512) (k0_off10 c) S2048x512.size (k0_off10_inb c), k0_pay10 (ownTile m ρ c)⟩ ]

/-- What the body leaves in the staged result. -/
def outAt (c : Dev nD) : (cc0_stg1_0 : Ref sig .tc).ty.Contents (Elt F) := View.canon (outPieces m ρ c)

/-! ## The ghost state -/

/-- The cells' invariants device `c`'s body opens, under the names `K` the launch allocated them at: its own eleven and its partner's. -/
def invs (K : Dev nD × Fin 11 → ℕ) (c : Dev nD) : sProp 𝕄 :=
  iprop((bigSep Finset.univ fun k : Fin 11 => cellInv ER (sched m ρ) (K (c, k)) (kcell (c, k)))
    ∗ (bigSep Finset.univ fun k : Fin 11 => cellInv ER (sched m ρ) (K (peer c, k)) (kcell (peer c, k))))

instance invs_persistent (K : Dev nD × Fin 11 → ℕ) (c : Dev nD) : BI.Persistent (invs m ρ K c) := by unfold invs; infer_instance

/-- The tokens of the duties device `c` pays: the partner's barrier duty, the partner's eight arrival duties, and its own two departure
    cells' four duties each. -/
def payToks (c : Dev nD) : sProp 𝕄 :=
  iprop(dutyTok ER (barCell (peer c)) 0 ()
    ∗ (bigSep Finset.univ fun i : Fin 8 => dutyTok ER (recvCell (peer c) i) 0 ())
    ∗ (bigSep Finset.univ fun sr : Fin 2 × Fin 4 => dutyTok ER (sendCell c sr.1) sr.2.val ()))

/-- The exchange's ghost state device `c` starts from: the invariants; its positions at round 0 of its eleven cells; round 0 reached of its
    own cells and of its partner's; the tokens it pays with. -/
def ghost (K : Dev nD × Fin 11 → ℕ) (c : Dev nD) : sProp 𝕄 :=
  iprop(invs m ρ K c
    ∗ (bigSep Finset.univ fun k : Fin 11 => atPos ER (kcell (c, k)) 0 ∅ 0)
    ∗ (bigSep Finset.univ fun k : Fin 11 => reached ER (kcell (c, k)) 0)
    ∗ (bigSep Finset.univ fun k : Fin 11 => reached ER (kcell (peer c, k)) 0)
    ∗ payToks c)

/-- The credit a device is dealt at launch: its barrier's unit and each arrival cell's slot credit. -/
def creds (c : Dev nD) : sProp 𝕄 :=
  iprop(cred (tallyAt (barCell c) () 1) ∗ bigSep Finset.univ fun i : Fin 8 => cred (tallyAt (recvCell c i) () N))

/-- What device `c`'s body starts from besides its buffers: the ghost state at some names, its launch credit, the level facts. -/
def start (c : Dev nD) : sProp 𝕄 :=
  iprop((∃ K, ghost m ρ K c) ∗ creds c ∗ levAts L lv)

/-- The two scratch buffers, each whole over some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The kernel's own ten semaphores at zero. -/
def ownZero (c : Dev nD) : sProp 𝕄 :=
  iprop((bigSep Finset.univ fun s : Fin 2 => semVal (sendCell c s) 0) ∗ (bigSep Finset.univ fun i : Fin 8 => semVal (recvCell c i) 0))

def Φ₀ (c : Dev nD) : sProp 𝕄 := iprop(start m ρ c ∗ scratch c)
/-- After the point: the scratch buffers back whole, the ten own cells closed with their counters at zero (the barrier cell is the runtime's:
    nothing to hand back). -/
def Φ₁ (c : Dev nD) : sProp 𝕄 := iprop(scratch c ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 11 → ℕ) (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.A2A

end
-- ==== Proof.Bits.Levels.lean ====
/-
  The levels' word at each wait of the exchange: everything a device still owes lies above the cell it waits on.

  A device owes only its partner's cells: the partner's barrier cell (level 1) one unit until its signal, and the partner's arrival cells
  (level 2) until its transfers. It waits on the pipeline's staging cells and on its own departure cells (level 0) owing any of these, on
  its own barrier cell (level 1) owing arrival credit only, and on its own arrival cells owing nothing.
-/
import proofs.«900619_g7700000000000620_dist_a2a_v7x_xyz2x2x2_x_m2048_n512_f32_1_alg».proof.Proof.Bits.Dat

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is owed lies among the partner's arrival cells and the partner's barrier cell. -/
def OwesPartner (c : Dev nD) (O : CellTallies nD τ sig Unit) : Prop :=
  ∀ g u, 0 < O g u → (∃ i : Fin 8, g = recvCell (peer c) i) ∨ g = barCell (peer c)
/-- What is owed lies among the partner's arrival cells. -/
def OwesArrivals (c : Dev nD) (O : CellTallies nD τ sig Unit) : Prop :=
  ∀ g u, 0 < O g u → ∃ i : Fin 8, g = recvCell (peer c) i

theorem owesPartner_zero (c : Dev nD) : OwesPartner c 0 := fun g u h => absurd h (Nat.lt_irrefl 0)
theorem owesArrivals_zero (c : Dev nD) : OwesArrivals c 0 := fun g u h => absurd h (Nat.lt_irrefl 0)
theorem OwesArrivals.partner {c : Dev nD} {O : CellTallies nD τ sig Unit} (h : OwesArrivals c O) : OwesPartner c O := fun g u hg => .inl (h g u hg)

/-- A sum owes the partner when both summands do; a single tally on a partner's arrival cell or barrier cell does. -/
theorem OwesPartner.add {c : Dev nD} {O O' : CellTallies nD τ sig Unit} (h : OwesPartner c O) (h' : OwesPartner c O') : OwesPartner c (O + O') := by
  intro g u hg
  rcases Pipeline.add_pos_cases hg with h1 | h2
  · exact h g u h1
  · exact h' g u h2
theorem OwesArrivals.add {c : Dev nD} {O O' : CellTallies nD τ sig Unit} (h : OwesArrivals c O) (h' : OwesArrivals c O') : OwesArrivals c (O + O') := by
  intro g u hg
  rcases Pipeline.add_pos_cases hg with h1 | h2
  · exact h g u h1
  · exact h' g u h2
theorem owesArrivals_tally (c : Dev nD) (i : Fin 8) (n : ℕ) : OwesArrivals c (tallyAt (recvCell (peer c) i) () n) := by
  intro g u hg
  exact ⟨i, (Pipeline.tallyAt_pos hg).1⟩
theorem owesPartner_bar (c : Dev nD) (n : ℕ) : OwesPartner c (tallyAt (barCell (peer c)) () n) := by
  intro g u hg
  exact .inr (Pipeline.tallyAt_pos hg).1
theorem owesPartner_O₀ (c : Dev nD) : OwesPartner c (O₀ c) := by
  unfold O₀
  exact ((((((((owesArrivals_tally c 7 N).add (owesArrivals_tally c 6 N)).add (owesArrivals_tally c 5 N)).add (owesArrivals_tally c 4 N)).add
    (owesArrivals_tally c 3 N)).add (owesArrivals_tally c 2 N)).add (owesArrivals_tally c 1 N)).add (owesArrivals_tally c 0 N)).partner.add
    (owesPartner_bar c 1)

/-- A wait on a cell at level 0 of the device's own thread, owing the partner. -/
theorem mayWait_low (c : Dev nD) (q : SemLoc sig) (hq : lv ((c : Thread nD τ), q) () = 0) (O : CellTallies nD τ sig Unit) (hO : OwesPartner c O) :
    (levAts L lv : sProp 𝕄) ⊢ MayWait (c : Thread nD τ) q () O := by
  -- the waited cell is at level 0; whatever is owed is a partner's arrival cell (level 2) or the partner's barrier cell (level 1)
  refine Pipeline.mayWait_of_levAts (L := L) (lev := lv) (by rw [L_tc]; exact Finset.mem_singleton_self _) fun g u hg => ?_
  rcases hO g u hg with ⟨i, rfl⟩ | rfl
  · refine ⟨by rw [L_tc]; exact Finset.mem_singleton_self _, ?_⟩
    rw [hq, lv_recv]; exact Nat.zero_lt_two
  · refine ⟨by rw [L_tc]; exact Finset.mem_singleton_self _, ?_⟩
    rw [hq, lv_bar]; exact Nat.zero_lt_one

/-- The barrier wait, owing arrival credit only. -/
theorem mayWait_bar (c : Dev nD) (O : CellTallies nD τ sig Unit) (hO : OwesArrivals c O) :
    (levAts L lv : sProp 𝕄) ⊢ MayWait (c : Thread nD τ) (.reg barS) () O := by
  -- the barrier cell is at level 1; whatever is owed is a partner's arrival cell, at level 2
  refine Pipeline.mayWait_of_levAts (L := L) (lev := lv) (by rw [L_tc]; exact Finset.mem_singleton_self _) fun g u hg => ?_
  obtain ⟨i, rfl⟩ := hO g u hg
  refine ⟨by rw [L_tc]; exact Finset.mem_singleton_self _, ?_⟩
  rw [lv_bar c (), lv_recv]; exact Nat.one_lt_two

/-- The pipeline's two staging cells are at level 0. -/
theorem lv_stage (c : Dev nD) (q : DmaSem sig) (hq : q.val < 2) : lv ((c : Thread nD τ), .dma q) () = 0 := by
  -- semaphores 0 and 1 are none of the exchange's: neither 2, nor 3, nor in 4 … 11
  have hcl : classify (.dma q : SemLoc sig) = none := by
    show (if q.val = 2 then some (CK.send 0) else _) = none
    rw [if_neg (by omega), if_neg (by omega), dif_neg (by omega)]
  unfold lv
  rw [hcl]

/-- info: 'Cert.Kernel.A2A.mayWait_low' depends on axioms: [propext, Classical.choice, Quot.sound] -/
#guard_msgs in #print axioms mayWait_low

/-- info: 'Cert.Kernel.A2A.mayWait_bar' depends on axioms: [propext, Classical.choice, Quot.sound] -/
#guard_msgs in #print axioms mayWait_bar

end Cert.Kernel.A2A

end
-- ==== Proof.Bits.Slots.lean ====
/-
  Cutting the two scratch buffers into their slots and joining them back, and what a landing leaves in a landing slot.

  The staging buffer is two slots and the landing buffer eight, each slot the part of its buffer at one first coordinate: the slots of a
  buffer are pairwise disjoint and together are the whole buffer. A landing slot written everywhere with the partner's tile holds, on the
  slot, what the schedule promises the slot's owner.
-/
import proofs.«900619_g7700000000000620_dist_a2a_v7x_xyz2x2x2_x_m2048_n512_f32_1_alg».proof.Proof.Bits.Dat

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staging buffer: two slots

A slot of the staging buffer is the unit rectangle at first coordinate `k`, whole on the other two axes: an element of the buffer
lies in slot `k` exactly when its first coordinate is `k`. -/

theorem mem_unit_S2 (k : ℕ) (inb : ∀ a, (![k, 0, 0] : Fin 3 → Nat) a + S1x256x512.size a ≤ S2x256x512.size a) (i : S2x256x512.Idx) :
    i ∈ (Rect.unit (s := S2x256x512) ![k, 0, 0] S1x256x512.size inb).set ↔ (i 0).val = k := by
  have h1 : (i 1).val < 256 := (i 1).isLt
  have h2 : (i 2).val < 512 := (i 2).isLt
  rw [Rect.mem_set_unit]
  constructor
  · intro h
    have h0 := h 0
    simp only [Matrix.cons_val_zero] at h0
    omega
  · intro h a
    fin_cases a
    · simp only [Fin.zero_eta, Matrix.cons_val_zero]; omega
    · simp only [Fin.mk_one, Matrix.cons_val_one, Matrix.cons_val_zero]; omega
    · simp only [Fin.reduceFinMk, Matrix.cons_val]; omega

theorem mem_sSlot0 (i : S2x256x512.Idx) : i ∈ (sSlot0 : Memref sig .tc .vmem S256x512 .bf16).view.set ↔ (i 0).val = 0 := by
  rw [show (sSlot0 : Memref sig .tc .vmem S256x512 .bf16).view.set = (Rect.unit (s := S2x256x512) ![0, 0, 0] S1x256x512.size inb_S2x256x512_S1x256x512_0_0_0).set from by
    simp only [Memref.view_squeeze, Memref.view_slice, Memref.view_whole, View.set_reshape, View.set_slice_whole]]
  exact mem_unit_S2 0 _ i

theorem mem_sSlot1 (i : S2x256x512.Idx) : i ∈ (sSlot1 : Memref sig .tc .vmem S256x512 .bf16).view.set ↔ (i 0).val = 1 := by
  rw [show (sSlot1 : Memref sig .tc .vmem S256x512 .bf16).view.set = (Rect.unit (s := S2x256x512) ![1, 0, 0] S1x256x512.size inb_S2x256x512_S1x256x512_1_0_0).set from by
    simp only [Memref.view_squeeze, Memref.view_slice, Memref.view_whole, View.set_reshape, View.set_slice_whole]]
  exact mem_unit_S2 1 _ i

theorem sSlot_disjoint : Disjoint (sSlot0 : Memref sig .tc .vmem S256x512 .bf16).view.set (sSlot1 : Memref sig .tc .vmem S256x512 .bf16).view.set :=
  Finset.disjoint_left.mpr fun i h0 h1 => by
    rw [mem_sSlot0] at h0; rw [mem_sSlot1] at h1; omega

theorem sSlot_cover : (sSlot0 : Memref sig .tc .vmem S256x512 .bf16).view.set ∪ (sSlot1 : Memref sig .tc .vmem S256x512 .bf16).view.set = Finset.univ := by
  refine Finset.eq_univ_of_forall fun (i : S2x256x512.Idx) => ?_
  have h0 : (i 0).val < 2 := (i 0).isLt
  rw [Finset.mem_union, mem_sSlot0, mem_sSlot1]
  omega

/-- The staging buffer, whole, is its two slots. -/
theorem send_split (c : Dev nD) (f : Buf (Elt F) ((c : Thread nD τ).loc cc0_scratch0)) :
    (((c : Thread nD τ).loc cc0_scratch0) ↦{fullShare} f : sProp 𝕄)
      ⊢ iprop((sSlot0.view.loc (c : Thread nD τ) ↦[sSlot0.view.set]{fullShare} f) ∗ (sSlot1.view.loc (c : Thread nD τ) ↦[sSlot1.view.set]{fullShare} f)) := by
  refine (Entails.of_eq ?_).trans (pointsTo_union (ℓ := (c : Thread nD τ).loc cc0_scratch0) sSlot_disjoint).1
  rw [sSlot_cover]

/-- The two slots, over any contents, are the staging buffer whole over some contents. -/
theorem send_join (c : Dev nD) (f g : Buf (Elt F) ((c : Thread nD τ).loc cc0_scratch0)) :
    iprop((sSlot0.view.loc (c : Thread nD τ) ↦[sSlot0.view.set]{fullShare} f) ∗ (sSlot1.view.loc (c : Thread nD τ) ↦[sSlot1.view.set]{fullShare} g))
      ⊢ (iprop(∃ h : Buf (Elt F) ((c : Thread nD τ).loc cc0_scratch0), ((c : Thread nD τ).loc cc0_scratch0) ↦{fullShare} h) : sProp 𝕄) := by
  refine (pointsTo_join (ℓ := (c : Thread nD τ).loc cc0_scratch0) sSlot_disjoint).trans ?_
  rw [sSlot_cover]
  exact exists_intro (Φ := fun h : Buf (Elt F) ((c : Thread nD τ).loc cc0_scratch0) => (((c : Thread nD τ).loc cc0_scratch0) ↦{fullShare} h : sProp 𝕄)) _

/-! ## The landing buffer: eight slots

Landing slot `k` is the unit rectangle at first coordinate `k` of the landing buffer, whole on the other two axes, its leading unit axis
dropped: its index `y` sits at `(k, y 0, y 1)`. -/

/-- Landing slot `k`, for any in-range `k`: each of the eight named slots is one of these. -/
abbrev rSlotAt (k : ℕ) (inb : ∀ a, (![k, 0, 0] : Fin 3 → Nat) a + S1x256x512.size a ≤ S8x256x512.size a) : Memref sig .tc .vmem S256x512 .bf16 :=
  ((rM.slice (Rect.unit (s := S8x256x512) ![k, 0, 0] S1x256x512.size inb) (fun _ => rfl)).squeeze S256x512 squeezes_S1x256x512_S256x512)

/-- A buffer all of whose slots hold `V`, read under index `y` of slot `k`, is `V y`. -/
theorem slotsOf_emb (V : Vec F S256x512 .bf16) (k : ℕ) (inb : ∀ a, (![k, 0, 0] : Fin 3 → Nat) a + S1x256x512.size a ≤ S8x256x512.size a) (y : S256x512.Idx) :
    slotsOf V ((rSlotAt k inb).view.emb y) = V y := by
  have he : (rSlotAt k inb).view.emb y
      = (Rect.unit (s := S8x256x512) ![k, 0, 0] S1x256x512.size inb).emb (Shape.reshapeEquiv squeezes_S1x256x512_S256x512.numel_eq y) := rfl
  rw [he, Shape.reshapeEquiv_cons_one]
  unfold slotsOf
  congr 1
  funext a
  match a with
  | ⟨0, _⟩ =>
    refine Fin.ext ?_
    show 0 + 1 * ((Fin.cons (⟨0, Nat.one_pos⟩ : Fin 1) y : S1x256x512.Idx) 1).val = (y 0).val
    rw [Nat.zero_add, Nat.one_mul]; rfl
  | ⟨1, _⟩ =>
    refine Fin.ext ?_
    show 0 + 1 * ((Fin.cons (⟨0, Nat.one_pos⟩ : Fin 1) y : S1x256x512.Idx) 2).val = (y 1).val
    rw [Nat.zero_add, Nat.one_mul]; rfl

/-- A landing slot written everywhere with `V` holds, on the slot, what a buffer all of whose slots hold `V` holds. -/
theorem landing_at (k : ℕ) (inb : ∀ a, (![k, 0, 0] : Fin 3 → Nat) a + S1x256x512.size a ≤ S8x256x512.size a) (d : Dev nD)
    (fd : Buf (Elt F) ((rSlotAt k inb).view.loc (d : Thread nD τ))) (V : Vec F S256x512 .bf16) :
    (((rSlotAt k inb).view.loc (d : Thread nD τ)) ↦[(rSlotAt k inb).view.set]{fullShare} ((rSlotAt k inb).view.write (Elt F) fd V Finset.univ) : sProp 𝕄)
      = (((rSlotAt k inb).view.loc (d : Thread nD τ)) ↦[(rSlotAt k inb).view.set]{fullShare} slotsOf V) := by
  refine pointsTo_congr fun j hj => ?_
  obtain ⟨y, rfl⟩ := View.exists_emb_of_mem_set (rSlotAt k inb).view hj
  rw [View.write_emb_of_mem _ _ (Finset.mem_univ y)]
  exact (slotsOf_emb V k inb y).symm

section Landing
variable (m : (ℓ : Loc nD τ sig) → Buf (Elt F) ℓ) (ρ : Dev nD → PrngReg)

/-- What a transfer of device `c`'s tile `i` leaves in landing slot `i` of the partner is what the schedule promises the partner. -/
theorem landing (c : Dev nD) (i : Fin 8) (fd : Buf (Elt F) ((rSlot i).view.loc (peer c : Thread nD τ))) (v : Vec F S256x512 .bf16) (hv : v = sentVal m ρ c i) :
    (((rSlot i).view.loc (peer c : Thread nD τ)) ↦[(rSlot i).view.set]{fullShare} ((rSlot i).view.write (Elt F) fd v Finset.univ) : sProp 𝕄)
      ⊢ (sched m ρ).payload (recvCell (peer c) i) 0 () := by
  subst hv
  rw [payload_recv]
  fin_cases i
  · exact Entails.of_eq ((landing_at 0 inb_S8x256x512_S1x256x512_0_0_0 (peer c) fd (sentVal m ρ c 0)).trans (by unfold recvPay landed; rw [peer_peer]))
  · exact Entails.of_eq ((landing_at 1 inb_S8x256x512_S1x256x512_1_0_0 (peer c) fd (sentVal m ρ c 1)).trans (by unfold recvPay landed; rw [peer_peer]))
  · exact Entails.of_eq ((landing_at 2 inb_S8x256x512_S1x256x512_2_0_0 (peer c) fd (sentVal m ρ c 2)).trans (by unfold recvPay landed; rw [peer_peer]))
  · exact Entails.of_eq ((landing_at 3 inb_S8x256x512_S1x256x512_3_0_0 (peer c) fd (sentVal m ρ c 3)).trans (by unfold recvPay landed; rw [peer_peer]))
  · exact Entails.of_eq ((landing_at 4 inb_S8x256x512_S1x256x512_4_0_0 (peer c) fd (sentVal m ρ c 4)).trans (by unfold recvPay landed; rw [peer_peer]))
  · exact Entails.of_eq ((landing_at 5 inb_S8x256x512_S1x256x512_5_0_0 (peer c) fd (sentVal m ρ c 5)).trans (by unfold recvPay landed; rw [peer_peer]))
  · exact Entails.of_eq ((landing_at 6 inb_S8x256x512_S1x256x512_6_0_0 (peer c) fd (sentVal m ρ c 6)).trans (by unfold recvPay landed; rw [peer_peer]))
  · exact Entails.of_eq ((landing_at 7 inb_S8x256x512_S1x256x512_7_0_0 (peer c) fd (sentVal m ρ c 7)).trans (by unfold recvPay landed; rw [peer_peer]))

end Landing

/-! ## A staging slot read back after a store through the enclosing buffer

Index `j` of staging slot `k` and index `(0, j 0, j 1)` of the unit rectangle at first coordinate `k` are the same element of the staging
buffer, so the slot reads back what was stored through the rectangle. -/

/-- Staging slot `k`, for any in-range `k`: each of the two named slots is one of these. -/
abbrev sSlotAt (k : ℕ) (inb : ∀ a, (![k, 0, 0] : Fin 3 → Nat) a + S1x256x512.size a ≤ S2x256x512.size a) : Memref sig .tc .vmem S256x512 .bf16 :=
  ((sM.slice (Rect.unit (s := S2x256x512) ![k, 0, 0] S1x256x512.size inb) (fun _ => rfl)).squeeze S256x512 squeezes_S1x256x512_S256x512)

/-- An index of a slot behind the one coordinate `0`, by coordinates. -/
theorem cons_eq_ix3 (j : S256x512.Idx) :
    (Fin.cons (⟨0, Nat.one_pos⟩ : Fin 1) j : S1x256x512.Idx) = ValueIdx.ix3 (0 : Fin 1) (j 0 : Fin 256) (j 1 : Fin 512) := by
  funext a; match a with | ⟨0, _⟩ => rfl | ⟨1, _⟩ => rfl | ⟨2, _⟩ => rfl

theorem slot_read_write_at (k : ℕ) (inb : ∀ a, (![k, 0, 0] : Fin 3 → Nat) a + S1x256x512.size a ≤ S2x256x512.size a)
    (f : (cc0_scratch0 : Ref sig .tc).ty.Contents (Elt F)) (w : FVec F S1x256x512 .bf16) :
    (sSlotAt k inb).view.read (Elt F) (View.write (Elt F) ((Memref.whole cc0_scratch0 : Memref sig .tc .vmem S2x256x512 .bf16).access (Rect.unit (s := S2x256x512) ![k, 0, 0] S1x256x512.size inb)) f w Finset.univ)
      = fun j => w (ValueIdx.ix3 (0 : Fin 1) (j 0 : Fin 256) (j 1 : Fin 512)) := by
  funext j
  have he : (sSlotAt k inb).view.emb j
      = ((Memref.whole cc0_scratch0 : Memref sig .tc .vmem S2x256x512 .bf16).access (Rect.unit (s := S2x256x512) ![k, 0, 0] S1x256x512.size inb)).emb
          (ValueIdx.ix3 (0 : Fin 1) (j 0 : Fin 256) (j 1 : Fin 512)) := by
    show (Rect.unit (s := S2x256x512) ![k, 0, 0] S1x256x512.size inb).emb (Shape.reshapeEquiv squeezes_S1x256x512_S256x512.numel_eq j)
      = (Rect.unit (s := S2x256x512) ![k, 0, 0] S1x256x512.size inb).emb (ValueIdx.ix3 (0 : Fin 1) (j 0 : Fin 256) (j 1 : Fin 512))
    rw [Shape.reshapeEquiv_cons_one]
    exact congrArg (fun z : S1x256x512.Idx => (Rect.unit (s := S2x256x512) ![k, 0, 0] S1x256x512.size inb).emb z) (cons_eq_ix3 j)
  rw [View.read_apply, he, View.write_emb_of_mem _ _ (Finset.mem_univ _)]
  rfl

theorem slot0_read_write (c : Dev nD) (f : Buf (Elt F) ((c : Thread nD τ).loc cc0_scratch0)) (w : FVec F S1x256x512 .bf16) :
    sSlot0.view.read (Elt F) (View.write (Elt F) ((Memref.whole cc0_scratch0 : Memref sig .tc .vmem S2x256x512 .bf16).access (Rect.unit (s := S2x256x512) ![0, 0, 0] S1x256x512.size inb_S2x256x512_S1x256x512_0_0_0)) f w Finset.univ)
      = fun j => w (ValueIdx.ix3 (0 : Fin 1) (j 0 : Fin 256) (j 1 : Fin 512)) :=
  slot_read_write_at 0 inb_S2x256x512_S1x256x512_0_0_0 f w

theorem slot1_read_write (c : Dev nD) (f : Buf (Elt F) ((c : Thread nD τ).loc cc0_scratch0)) (w : FVec F S1x256x512 .bf16) :
    sSlot1.view.read (Elt F) (View.write (Elt F) ((Memref.whole cc0_scratch0 : Memref sig .tc .vmem S2x256x512 .bf16).access (Rect.unit (s := S2x256x512) ![1, 0, 0] S1x256x512.size inb_S2x256x512_S1x256x512_1_0_0)) f w Finset.univ)
      = fun j => w (ValueIdx.ix3 (0 : Fin 1) (j 0 : Fin 256) (j 1 : Fin 512)) :=
  slot_read_write_at 1 inb_S2x256x512_S1x256x512_1_0_0 f w

/-- An element of the landing buffer lies in landing slot `k` exactly when its first coordinate is `k`. -/
theorem mem_unit_S8 (k : ℕ) (inb : ∀ a, (![k, 0, 0] : Fin 3 → Nat) a + S1x256x512.size a ≤ S8x256x512.size a) (i : S8x256x512.Idx) :
    i ∈ (Rect.unit (s := S8x256x512) ![k, 0, 0] S1x256x512.size inb).set ↔ (i 0).val = k := by
  have h1 : (i 1).val < 256 := (i 1).isLt
  have h2 : (i 2).val < 512 := (i 2).isLt
  rw [Rect.mem_set_unit]
  constructor
  · intro h
    have h0 := h 0
    simp only [Matrix.cons_val_zero] at h0
    omega
  · intro h a
    fin_cases a
    · simp only [Fin.zero_eta, Matrix.cons_val_zero]; omega
    · simp only [Fin.mk_one, Matrix.cons_val_one, Matrix.cons_val_zero]; omega
    · simp only [Fin.reduceFinMk, Matrix.cons_val]; omega

theorem mem_rSlotAt (k : ℕ) (inb : ∀ a, (![k, 0, 0] : Fin 3 → Nat) a + S1x256x512.size a ≤ S8x256x512.size a) (i : S8x256x512.Idx) :
    i ∈ (rSlotAt k inb).view.set ↔ (i 0).val = k := by
  rw [show (rSlotAt k inb).view.set = (Rect.unit (s := S8x256x512) ![k, 0, 0] S1x256x512.size inb).set from by
    simp only [Memref.view_squeeze, Memref.view_slice, Memref.view_whole, View.set_reshape, View.set_slice_whole]]
  exact mem_unit_S8 k inb i

theorem mem_rSlot0 (i : S8x256x512.Idx) : i ∈ (rSlot0 : Memref sig .tc .vmem S256x512 .bf16).view.set ↔ (i 0).val = 0 := mem_rSlotAt 0 _ i
theorem mem_rSlot1 (i : S8x256x512.Idx) : i ∈ (rSlot1 : Memref sig .tc .vmem S256x512 .bf16).view.set ↔ (i 0).val = 1 := mem_rSlotAt 1 _ i
theorem mem_rSlot2 (i : S8x256x512.Idx) : i ∈ (rSlot2 : Memref sig .tc .vmem S256x512 .bf16).view.set ↔ (i 0).val = 2 := mem_rSlotAt 2 _ i
theorem mem_rSlot3 (i : S8x256x512.Idx) : i ∈ (rSlot3 : Memref sig .tc .vmem S256x512 .bf16).view.set ↔ (i 0).val = 3 := mem_rSlotAt 3 _ i
theorem mem_rSlot4 (i : S8x256x512.Idx) : i ∈ (rSlot4 : Memref sig .tc .vmem S256x512 .bf16).view.set ↔ (i 0).val = 4 := mem_rSlotAt 4 _ i
theorem mem_rSlot5 (i : S8x256x512.Idx) : i ∈ (rSlot5 : Memref sig .tc .vmem S256x512 .bf16).view.set ↔ (i 0).val = 5 := mem_rSlotAt 5 _ i
theorem mem_rSlot6 (i : S8x256x512.Idx) : i ∈ (rSlot6 : Memref sig .tc .vmem S256x512 .bf16).view.set ↔ (i 0).val = 6 := mem_rSlotAt 6 _ i
theorem mem_rSlot7 (i : S8x256x512.Idx) : i ∈ (rSlot7 : Memref sig .tc .vmem S256x512 .bf16).view.set ↔ (i 0).val = 7 := mem_rSlotAt 7 _ i

/-- Each landing slot is disjoint from the slots after it. -/
theorem rSlot_disjoint0 : Disjoint ((rSlot0 : Memref sig .tc .vmem S256x512 .bf16).view.set) ((rSlot1 : Memref sig .tc .vmem S256x512 .bf16).view.set ∪ ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))))) :=
  Finset.disjoint_left.mpr fun (i : S8x256x512.Idx) h h' => by
    rw [mem_rSlot0] at h; rw [Finset.mem_union, mem_rSlot1, Finset.mem_union, mem_rSlot2, Finset.mem_union, mem_rSlot3, Finset.mem_union, mem_rSlot4, Finset.mem_union, mem_rSlot5, Finset.mem_union, mem_rSlot6, mem_rSlot7] at h'; omega
theorem rSlot_disjoint1 : Disjoint ((rSlot1 : Memref sig .tc .vmem S256x512 .bf16).view.set) ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set)))))) :=
  Finset.disjoint_left.mpr fun (i : S8x256x512.Idx) h h' => by
    rw [mem_rSlot1] at h; rw [Finset.mem_union, mem_rSlot2, Finset.mem_union, mem_rSlot3, Finset.mem_union, mem_rSlot4, Finset.mem_union, mem_rSlot5, Finset.mem_union, mem_rSlot6, mem_rSlot7] at h'; omega
theorem rSlot_disjoint2 : Disjoint ((rSlot2 : Memref sig .tc .vmem S256x512 .bf16).view.set) ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))) :=
  Finset.disjoint_left.mpr fun (i : S8x256x512.Idx) h h' => by
    rw [mem_rSlot2] at h; rw [Finset.mem_union, mem_rSlot3, Finset.mem_union, mem_rSlot4, Finset.mem_union, mem_rSlot5, Finset.mem_union, mem_rSlot6, mem_rSlot7] at h'; omega
theorem rSlot_disjoint3 : Disjoint ((rSlot3 : Memref sig .tc .vmem S256x512 .bf16).view.set) ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set)))) :=
  Finset.disjoint_left.mpr fun (i : S8x256x512.Idx) h h' => by
    rw [mem_rSlot3] at h; rw [Finset.mem_union, mem_rSlot4, Finset.mem_union, mem_rSlot5, Finset.mem_union, mem_rSlot6, mem_rSlot7] at h'; omega
theorem rSlot_disjoint4 : Disjoint ((rSlot4 : Memref sig .tc .vmem S256x512 .bf16).view.set) ((rSlot5 : Memref sig .tc .vmem S256x512 .bf16).view.set ∪ ((rSlot6 : Memref sig .tc .vmem S256x512 .bf16).view.set ∪ ((rSlot7 : Memref sig .tc .vmem S256x512 .bf16).view.set))) :=
  Finset.disjoint_left.mpr fun (i : S8x256x512.Idx) h h' => by
    rw [mem_rSlot4] at h; rw [Finset.mem_union, mem_rSlot5, Finset.mem_union, mem_rSlot6, mem_rSlot7] at h'; omega
theorem rSlot_disjoint5 : Disjoint ((rSlot5 : Memref sig .tc .vmem S256x512 .bf16).view.set) ((rSlot6 : Memref sig .tc .vmem S256x512 .bf16).view.set ∪ ((rSlot7 : Memref sig .tc .vmem S256x512 .bf16).view.set)) :=
  Finset.disjoint_left.mpr fun (i : S8x256x512.Idx) h h' => by
    rw [mem_rSlot5] at h; rw [Finset.mem_union, mem_rSlot6, mem_rSlot7] at h'; omega
theorem rSlot_disjoint6 : Disjoint ((rSlot6 : Memref sig .tc .vmem S256x512 .bf16).view.set) ((rSlot7 : Memref sig .tc .vmem S256x512 .bf16).view.set) :=
  Finset.disjoint_left.mpr fun (i : S8x256x512.Idx) h h' => by
    rw [mem_rSlot6] at h; rw [mem_rSlot7] at h'; omega

/-- The eight landing slots are the whole landing buffer. -/
theorem rSlot_cover : (rSlot0 : Memref sig .tc .vmem S256x512 .bf16).view.set ∪ ((rSlot1 : Memref sig .tc .vmem S256x512 .bf16).view.set ∪ ((rSlot2 : Memref sig .tc .vmem S256x512 .bf16).view.set ∪ ((rSlot3 : Memref sig .tc .vmem S256x512 .bf16).view.set ∪ ((rSlot4 : Memref sig .tc .vmem S256x512 .bf16).view.set ∪ ((rSlot5 : Memref sig .tc .vmem S256x512 .bf16).view.set ∪ ((rSlot6 : Memref sig .tc .vmem S256x512 .bf16).view.set ∪ ((rSlot7 : Memref sig .tc .vmem S256x512 .bf16).view.set))))))) = Finset.univ := by
  refine Finset.eq_univ_of_forall fun (i : S8x256x512.Idx) => ?_
  have h0 : (i 0).val < 8 := (i 0).isLt
  rw [Finset.mem_union, mem_rSlot0, Finset.mem_union, mem_rSlot1, Finset.mem_union, mem_rSlot2, Finset.mem_union, mem_rSlot3, Finset.mem_union, mem_rSlot4, Finset.mem_union, mem_rSlot5, Finset.mem_union, mem_rSlot6, mem_rSlot7]
  omega

/-- The landing buffer, whole, is its eight slots. -/
theorem recv_split (c : Dev nD) (f : Buf (Elt F) ((c : Thread nD τ).loc cc0_scratch1)) :
    (((c : Thread nD τ).loc cc0_scratch1) ↦{fullShare} f : sProp 𝕄)
      ⊢ iprop((rSlot0.view.loc (c : Thread nD τ) ↦[rSlot0.view.set]{fullShare} f) ∗ (rSlot1.view.loc (c : Thread nD τ) ↦[rSlot1.view.set]{fullShare} f) ∗ (rSlot2.view.loc (c : Thread nD τ) ↦[rSlot2.view.set]{fullShare} f) ∗ (rSlot3.view.loc (c : Thread nD τ) ↦[rSlot3.view.set]{fullShare} f) ∗ (rSlot4.view.loc (c : Thread nD τ) ↦[rSlot4.view.set]{fullShare} f) ∗ (rSlot5.view.loc (c : Thread nD τ) ↦[rSlot5.view.set]{fullShare} f) ∗ (rSlot6.view.loc (c : Thread nD τ) ↦[rSlot6.view.set]{fullShare} f) ∗ (rSlot7.view.loc (c : Thread nD τ) ↦[rSlot7.view.set]{fullShare} f)) := by
  refine (Entails.of_eq ?_).trans
    ((pointsTo_union (ℓ := (c : Thread nD τ).loc cc0_scratch1) rSlot_disjoint0).1.trans (Idealize.SL.BI.sep_mono_r
    ((pointsTo_union (ℓ := (c : Thread nD τ).loc cc0_scratch1) rSlot_disjoint1).1.trans (Idealize.SL.BI.sep_mono_r
    ((pointsTo_union (ℓ := (c : Thread nD τ).loc cc0_scratch1) rSlot_disjoint2).1.trans (Idealize.SL.BI.sep_mono_r
    ((pointsTo_union (ℓ := (c : Thread nD τ).loc cc0_scratch1) rSlot_disjoint3).1.trans (Idealize.SL.BI.sep_mono_r
    ((pointsTo_union (ℓ := (c : Thread nD τ).loc cc0_scratch1) rSlot_disjoint4).1.trans (Idealize.SL.BI.sep_mono_r
    ((pointsTo_union (ℓ := (c : Thread nD τ).loc cc0_scratch1) rSlot_disjoint5).1.trans (Idealize.SL.BI.sep_mono_r
    (pointsTo_union (ℓ := (c : Thread nD τ).loc cc0_scratch1) rSlot_disjoint6).1))))))))))))
  rw [rSlot_cover]

/-- The eight slots, over any contents, are the landing buffer whole over some contents. -/
theorem recv_join (c : Dev nD) (f0 f1 f2 f3 f4 f5 f6 f7 : Buf (Elt F) ((c : Thread nD τ).loc cc0_scratch1)) :
    iprop((rSlot0.view.loc (c : Thread nD τ) ↦[rSlot0.view.set]{fullShare} f0) ∗ (rSlot1.view.loc (c : Thread nD τ) ↦[rSlot1.view.set]{fullShare} f1) ∗ (rSlot2.view.loc (c : Thread nD τ) ↦[rSlot2.view.set]{fullShare} f2) ∗ (rSlot3.view.loc (c : Thread nD τ) ↦[rSlot3.view.set]{fullShare} f3) ∗ (rSlot4.view.loc (c : Thread nD τ) ↦[rSlot4.view.set]{fullShare} f4) ∗ (rSlot5.view.loc (c : Thread nD τ) ↦[rSlot5.view.set]{fullShare} f5) ∗ (rSlot6.view.loc (c : Thread nD τ) ↦[rSlot6.view.set]{fullShare} f6) ∗ (rSlot7.view.loc (c : Thread nD τ) ↦[rSlot7.view.set]{fullShare} f7))
      ⊢ (iprop(∃ h : Buf (Elt F) ((c : Thread nD τ).loc cc0_scratch1), ((c : Thread nD τ).loc cc0_scratch1) ↦{fullShare} h) : sProp 𝕄) := by
  refine (Idealize.SL.BI.sep_mono_r (Idealize.SL.BI.sep_mono_r (Idealize.SL.BI.sep_mono_r (Idealize.SL.BI.sep_mono_r (Idealize.SL.BI.sep_mono_r (Idealize.SL.BI.sep_mono_r (pointsTo_join (ℓ := (c : Thread nD τ).loc cc0_scratch1) rSlot_disjoint6))))))).trans ?_
  refine (Idealize.SL.BI.sep_mono_r (Idealize.SL.BI.sep_mono_r (Idealize.SL.BI.sep_mono_r (Idealize.SL.BI.sep_mono_r (Idealize.SL.BI.sep_mono_r (pointsTo_join (ℓ := (c : Thread nD τ).loc cc0_scratch1) rSlot_disjoint5)))))).trans ?_
  refine (Idealize.SL.BI.sep_mono_r (Idealize.SL.BI.sep_mono_r (Idealize.SL.BI.sep_mono_r (Idealize.SL.BI.sep_mono_r (pointsTo_join (ℓ := (c : Thread nD τ).loc cc0_scratch1) rSlot_disjoint4))))).trans ?_
  refine (Idealize.SL.BI.sep_mono_r (Idealize.SL.BI.sep_mono_r (Idealize.SL.BI.sep_mono_r (pointsTo_join (ℓ := (c : Thread nD τ).loc cc0_scratch1) rSlot_disjoint3)))).trans ?_
  refine (Idealize.SL.BI.sep_mono_r (Idealize.SL.BI.sep_mono_r (pointsTo_join (ℓ := (c : Thread nD τ).loc cc0_scratch1) rSlot_disjoint2))).trans ?_
  refine (Idealize.SL.BI.sep_mono_r (pointsTo_join (ℓ := (c : Thread nD τ).loc cc0_scratch1) rSlot_disjoint1)).trans ?_
  refine (pointsTo_join (ℓ := (c : Thread nD τ).loc cc0_scratch1) rSlot_disjoint0).trans ?_
  rw [rSlot_cover]
  exact exists_intro (Φ := fun h : Buf (Elt F) ((c : Thread nD τ).loc cc0_scratch1) => (((c : Thread nD τ).loc cc0_scratch1) ↦{fullShare} h : sProp 𝕄)) _

/-- info: 'Cert.Kernel.A2A.send_split' depends on axioms: [propext, Classical.choice, Quot.sound] -/
#guard_msgs in #print axioms send_split

/-- info: 'Cert.Kernel.A2A.send_join' depends on axioms: [propext, Classical.choice, Quot.sound] -/
#guard_msgs in #print axioms send_join

/-- info: 'Cert.Kernel.A2A.landing' depends on axioms: [propext, Classical.choice, Quot.sound] -/
#guard_msgs in #print axioms landing

/-- info: 'Cert.Kernel.A2A.slot0_read_write' depends on axioms: [propext, Classical.choice, Quot.sound] -/
#guard_msgs in #print axioms slot0_read_write

/-- info: 'Cert.Kernel.A2A.slot1_read_write' depends on axioms: [propext, Classical.choice, Quot.sound] -/
#guard_msgs in #print axioms slot1_read_write

/-- info: 'Cert.Kernel.A2A.recv_split' depends on axioms: [propext, Classical.choice, Quot.sound] -/
#guard_msgs in #print axioms recv_split

/-- info: 'Cert.Kernel.A2A.recv_join' depends on axioms: [propext, Classical.choice, Quot.sound] -/
#guard_msgs in #print axioms recv_join

end Cert.Kernel.A2A

end
-- ==== Proof.Bits.Cover.lean ====
/-
  The nine stores into the staged result tile it.

  Write x for the device's coordinate on the first mesh axis (x = c / 4, so x is 0 or 1). The large store covers the
  device's own rows [2048 x, 2048 x + 2048) and the store of landed tile i the partner's rows
  [2048 (1 - x) + 256 i, 2048 (1 - x) + 256 i + 256); every store spans all 512 columns. The eight tiles exhaust the
  partner's 2048 rows, so each index of the 4096 x 512 block lies under one of the nine rectangles: row t of the partner's
  half lies under tile t / 256. Hence what the nine stores leave reads back as ONE function, the overlay of their payloads,
  whatever the buffer held before.
-/
import proofs.«900619_g7700000000000620_dist_a2a_v7x_xyz2x2x2_x_m2048_n512_f32_1_alg».proof.Proof.Bits.Dat
import Idealize.ShloMosaic.Lib.Pipeline.FrameBody

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the nine rectangles -/

/-- A device's coordinate on the first mesh axis is 0 or 1. -/
theorem dev_x (c : Dev nD) : c.val / 4 = 0 ∨ c.val / 4 = 1 := by
  have h : c.val < 8 := c.isLt
  omega

/-- The large rectangle holds every index whose row is one of the device's own 2048 rows. -/
theorem mem_own (c : Dev nD) (y : S4096x512.Idx)
    (h : 2048 * (c.val / 4) ≤ (y 0).val ∧ (y 0).val < 2048 * (c.val / 4) + 2048) :
    y ∈ (Rect.unit (s := S4096x512) (k0_off10 c) S2048x512.size (k0_off10_inb c)).set := by
  rw [Rect.mem_set_unit]
  intro a
  rw [k0_off10_eq c]
  match a with
  | ⟨0, _⟩ => exact h
  | ⟨1, _⟩ =>
    have h1 : (y 1).val < 512 := (y 1).isLt
    show 0 ≤ (y 1).val ∧ (y 1).val < 0 + 512
    omega

/-- The rectangle of landed tile `r` holds every index whose row is one of that tile's 256 rows of the partner's half. -/
theorem mem_tile (c : Dev nD) (r : Fin 8) (y : S4096x512.Idx)
    (h : 256 * r.val + 2048 - 2048 * (c.val / 4) ≤ (y 0).val
      ∧ (y 0).val < 256 * r.val + 2048 - 2048 * (c.val / 4) + 256) :
    y ∈ (Rect.unit (s := S4096x512) (k0_off11 c (BitVec.ofNat 32 (256 * r.val))) S256x512.size (k0_off11_inb c r)).set := by
  rw [Rect.mem_set_unit]
  intro a
  rw [k0_off11_eq c r]
  match a with
  | ⟨0, _⟩ => exact h
  | ⟨1, _⟩ =>
    have h1 : (y 1).val < 512 := (y 1).isLt
    show 0 ≤ (y 1).val ∧ (y 1).val < 0 + 512
    omega

/-! ## The nine pieces, found in the list -/

/-- The large piece is the list's last. -/
theorem own_mem (c : Dev nD) :
    (⟨Rect.unit (s := S4096x512) (k0_off10 c) S2048x512.size (k0_off10_inb c), k0_pay10 (ownTile m ρ c)⟩ :
      View.Piece (Elt F) S4096x512 .f32) ∈ outPieces m ρ c := by
  unfold outPieces
  exact .tail _ (.tail _ (.tail _ (.tail _ (.tail _ (.tail _ (.tail _ (.tail _ (.head _))))))))

/-- The piece stored at the rectangle of landed tile `r` is in the list, at place `7 - r`, with some payload. -/
theorem tile_mem (c : Dev nD) (r : Fin 8) :
    ∃ w, (⟨Rect.unit (s := S4096x512) (k0_off11 c (BitVec.ofNat 32 (256 * r.val))) S256x512.size (k0_off11_inb c r), w⟩ :
      View.Piece (Elt F) S4096x512 .f32) ∈ outPieces m ρ c := by
  unfold outPieces
  match r with
  | ⟨0, _⟩ => exact ⟨_, .tail _ (.tail _ (.tail _ (.tail _ (.tail _ (.tail _ (.tail _ (.head _)))))))⟩
  | ⟨1, _⟩ => exact ⟨_, .tail _ (.tail _ (.tail _ (.tail _ (.tail _ (.tail _ (.head _))))))⟩
  | ⟨2, _⟩ => exact ⟨_, .tail _ (.tail _ (.tail _ (.tail _ (.tail _ (.head _)))))⟩
  | ⟨3, _⟩ => exact ⟨_, .tail _ (.tail _ (.tail _ (.tail _ (.head _))))⟩
  | ⟨4, _⟩ => exact ⟨_, .tail _ (.tail _ (.tail _ (.head _)))⟩
  | ⟨5, _⟩ => exact ⟨_, .tail _ (.tail _ (.head _))⟩
  | ⟨6, _⟩ => exact ⟨_, .tail _ (.head _)⟩
  | ⟨7, _⟩ => exact ⟨_, .head _⟩

/-! ## The cover, and the contents read back -/

/-- Every index of the staged result lies under one of the nine stores. -/
theorem outPieces_cover (c : Dev nD) : ∀ y : S4096x512.Idx, ∃ p ∈ outPieces m ρ c, y ∈ p.1.set := by
  intro y
  have h0 : (y 0).val < 4096 := (y 0).isLt
  have hx := dev_x c
  by_cases hown : 2048 * (c.val / 4) ≤ (y 0).val ∧ (y 0).val < 2048 * (c.val / 4) + 2048
  · exact ⟨_, own_mem m ρ c, mem_own c y hown⟩
  · -- a row of the partner's half: `t = row - 2048 (1 - x)` lies in [0, 2048), under tile `t / 256`
    have hr : ((y 0).val - (2048 - 2048 * (c.val / 4))) / 256 < 8 := by omega
    obtain ⟨w, hw⟩ := tile_mem m ρ c ⟨((y 0).val - (2048 - 2048 * (c.val / 4))) / 256, hr⟩
    refine ⟨_, hw, mem_tile c ⟨((y 0).val - (2048 - 2048 * (c.val / 4))) / 256, hr⟩ y ?_⟩
    show 256 * (((y 0).val - (2048 - 2048 * (c.val / 4))) / 256) + 2048 - 2048 * (c.val / 4) ≤ (y 0).val
      ∧ (y 0).val < 256 * (((y 0).val - (2048 - 2048 * (c.val / 4))) / 256) + 2048 - 2048 * (c.val / 4) + 256
    omega

/-- What any prior contents read as after the nine stores: the overlay of their payloads. -/
theorem out_writes_eq (c : Dev nD) (f : (cc0_stg1_0 : Ref sig .tc).ty.Contents (Elt F)) :
    (oM : Memref sig .tc .vmem S4096x512 .f32).view.read (Elt F)
      ((oM : Memref sig .tc .vmem S4096x512 .f32).view.writes (Elt F) f (outPieces m ρ c)) = outAt m ρ c := by
  unfold outAt
  exact View.read_writes_eq_canon (oM : Memref sig .tc .vmem S4096x512 .f32).view f (outPieces m ρ c)
    (outPieces_cover m ρ c)

/-- The staged result is the whole buffer, read as it stands: the contents the nine stores leave ARE that overlay. -/
theorem out_writes_eq_whole (c : Dev nD) (f : (cc0_stg1_0 : Ref sig .tc).ty.Contents (Elt F)) :
    (oM : Memref sig .tc .vmem S4096x512 .f32).view.writes (Elt F) f (outPieces m ρ c) = outAt m ρ c :=
  (View.read_whole cc0_stg1_0 _).symm.trans (out_writes_eq m ρ c f)

/-- info: 'Cert.Kernel.A2A.outPieces_cover' depends on axioms: [propext, Classical.choice, Quot.sound] -/
#guard_msgs in #print axioms outPieces_cover

/-- info: 'Cert.Kernel.A2A.out_writes_eq_whole' depends on axioms: [propext, Classical.choice, Quot.sound] -/
#guard_msgs in #print axioms out_writes_eq_whole

end Cert.Kernel.A2A

end
-- ==== Proof.Bits.Body.lean ====
/-
  One device's body, stepped from what it holds at entry to what it holds at exit.

  At entry: the exchange's ghost state (the invariants of its own and its partner's cells, its positions, the tokens of the duties it pays),
  the launch credit, the two scratch buffers, the staged block of `x` and the staged result. The body signals the partner's barrier cell (its
  landing buffer goes with the signal), fills staging slot 0, waits its own barrier cell (the partner's landing buffer arrives), and then,
  tile by tile, waits the departure of the slot's previous transfer, fills the slot and transfers it into the partner's landing slot. It
  stores its own column half, then waits each arrival and stores the landed tile, widened. At exit every own cell is past its last round and
  is closed, the slots are joined back into the two scratch buffers, and the staged result holds the nine stores' one function.
-/
import proofs.«900619_g7700000000000620_dist_a2a_v7x_xyz2x2x2_x_m2048_n512_f32_1_alg».proof.Proof.Bits.Dat
import proofs.«900619_g7700000000000620_dist_a2a_v7x_xyz2x2x2_x_m2048_n512_f32_1_alg».proof.Proof.Bits.Levels
import proofs.«900619_g7700000000000620_dist_a2a_v7x_xyz2x2x2_x_m2048_n512_f32_1_alg».proof.Proof.Bits.Slots
import proofs.«900619_g7700000000000620_dist_a2a_v7x_xyz2x2x2_x_m2048_n512_f32_1_alg».proof.Proof.Bits.Cover
import proofs.«900619_g7700000000000620_dist_a2a_v7x_xyz2x2x2_x_m2048_n512_f32_1_alg».proof.Proof.Gen.Kernel.Points
import proofs.«900619_g7700000000000620_dist_a2a_v7x_xyz2x2x2_x_m2048_n512_f32_1_alg».proof.Proof.Gen.Kernel.Frame

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Opening

theorem sepChain_fin2 (Φ : Fin 2 → sProp 𝕄) : bigSep Finset.univ Φ = iprop(Φ 0 ∗ Φ 1) := bigSep_univ_eq_bigSepL [0, 1] (by decide) (by decide) Φ
theorem sepChain_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem sepChain_fin8 (Φ : Fin 8 → sProp 𝕄) : bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
theorem sepChain_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := bigSep_univ_eq_bigSepL [0, 1, 2, 3, 4, 5, 6, 7, 8, 9, 10] (by decide) (by decide) Φ

end Opening

section Flat
variable (K : Dev nD × Fin 11 → ℕ) (c : Dev nD)

theorem invs_flat : invs m ρ K c = iprop((cellInv ER (sched m ρ) (K (c, 0)) (kcell (c, 0)) ∗ cellInv ER (sched m ρ) (K (c, 1)) (kcell (c, 1)) ∗ cellInv ER (sched m ρ) (K (c, 2)) (kcell (c, 2)) ∗ cellInv ER (sched m ρ) (K (c, 3)) (kcell (c, 3)) ∗ cellInv ER (sched m ρ) (K (c, 4)) (kcell (c, 4)) ∗ cellInv ER (sched m ρ) (K (c, 5)) (kcell (c, 5)) ∗ cellInv ER (sched m ρ) (K (c, 6)) (kcell (c, 6)) ∗ cellInv ER (sched m ρ) (K (c, 7)) (kcell (c, 7)) ∗ cellInv ER (sched m ρ) (K (c, 8)) (kcell (c, 8)) ∗ cellInv ER (sched m ρ) (K (c, 9)) (kcell (c, 9)) ∗ cellInv ER (sched m ρ) (K (c, 10)) (kcell (c, 10)))
    ∗ (cellInv ER (sched m ρ) (K (peer c, 0)) (kcell (peer c, 0)) ∗ cellInv ER (sched m ρ) (K (peer c, 1)) (kcell (peer c, 1)) ∗ cellInv ER (sched m ρ) (K (peer c, 2)) (kcell (peer c, 2)) ∗ cellInv ER (sched m ρ) (K (peer c, 3)) (kcell (peer c, 3)) ∗ cellInv ER (sched m ρ) (K (peer c, 4)) (kcell (peer c, 4)) ∗ cellInv ER (sched m ρ) (K (peer c, 5)) (kcell (peer c, 5)) ∗ cellInv ER (sched m ρ) (K (peer c, 6)) (kcell (peer c, 6)) ∗ cellInv ER (sched m ρ) (K (peer c, 7)) (kcell (peer c, 7)) ∗ cellInv ER (sched m ρ) (K (peer c, 8)) (kcell (peer c, 8)) ∗ cellInv ER (sched m ρ) (K (peer c, 9)) (kcell (peer c, 9)) ∗ cellInv ER (sched m ρ) (K (peer c, 10)) (kcell (peer c, 10)))) := by
  unfold invs; rw [sepChain_fin11, sepChain_fin11]

theorem payToks_flat : payToks (F := F) c = iprop(dutyTok ER (barCell (peer c)) 0 ()
    ∗ (dutyTok ER (recvCell (peer c) 0) 0 () ∗ dutyTok ER (recvCell (peer c) 1) 0 () ∗ dutyTok ER (recvCell (peer c) 2) 0 () ∗ dutyTok ER (recvCell (peer c) 3) 0 () ∗ dutyTok ER (recvCell (peer c) 4) 0 () ∗ dutyTok ER (recvCell (peer c) 5) 0 () ∗ dutyTok ER (recvCell (peer c) 6) 0 () ∗ dutyTok ER (recvCell (peer c) 7) 0 ())
    ∗ (dutyTok ER (sendCell c 0) 0 () ∗ dutyTok ER (sendCell c 0) 1 () ∗ dutyTok ER (sendCell c 0) 2 () ∗ dutyTok ER (sendCell c 0) 3 ())
    ∗ (dutyTok ER (sendCell c 1) 0 () ∗ dutyTok ER (sendCell c 1) 1 () ∗ dutyTok ER (sendCell c 1) 2 () ∗ dutyTok ER (sendCell c 1) 3 ())) := by
  unfold payToks; rw [sepChain_fin8, bigSep_univ_prod, sepChain_fin2, sepChain_fin4, sepChain_fin4]; rfl

theorem creds_flat : creds (F := F) c = iprop(cred (tallyAt (barCell c) () 1)
    ∗ (cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))) := by
  unfold creds; rw [sepChain_fin8]

theorem ghost_flat : ghost m ρ K c = iprop(invs m ρ K c
    ∗ (atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0 ∗ atPos ER (kcell (c, 10)) 0 ∅ 0)
    ∗ (reached ER (kcell (c, 0)) 0 ∗ reached ER (kcell (c, 1)) 0 ∗ reached ER (kcell (c, 2)) 0 ∗ reached ER (kcell (c, 3)) 0 ∗ reached ER (kcell (c, 4)) 0 ∗ reached ER (kcell (c, 5)) 0 ∗ reached ER (kcell (c, 6)) 0 ∗ reached ER (kcell (c, 7)) 0 ∗ reached ER (kcell (c, 8)) 0 ∗ reached ER (kcell (c, 9)) 0 ∗ reached ER (kcell (c, 10)) 0)
    ∗ (reached ER (kcell (peer c, 0)) 0 ∗ reached ER (kcell (peer c, 1)) 0 ∗ reached ER (kcell (peer c, 2)) 0 ∗ reached ER (kcell (peer c, 3)) 0 ∗ reached ER (kcell (peer c, 4)) 0 ∗ reached ER (kcell (peer c, 5)) 0 ∗ reached ER (kcell (peer c, 6)) 0 ∗ reached ER (kcell (peer c, 7)) 0 ∗ reached ER (kcell (peer c, 8)) 0 ∗ reached ER (kcell (peer c, 9)) 0 ∗ reached ER (kcell (peer c, 10)) 0)
    ∗ payToks c) := by
  unfold ghost; rw [sepChain_fin11, sepChain_fin11, sepChain_fin11]

end Flat

section Tables
variable (d : Dev nD)

/-! The schedule's tables as the run reads them: the cell spelt as its invariant spells it, the entry on the left, a payload spelt as the
    points-to itself. -/
theorem tb_peer_peer : peer (peer d) = d := peer_peer d

theorem tb_duties_bar : (sched (F := F) m ρ).duties (kcell (d, 0)) 0 = {()} := duties_bar m ρ d
theorem tb_amount_bar (r : ℕ) (u : Unit) : (sched (F := F) m ρ).amount (kcell (d, 0)) r u = 1 := amount_bar m ρ d r u
theorem tb_expect_bar : (sched (F := F) m ρ).expect (kcell (d, 0)) 0 = 1 := expect_bar m ρ d
theorem tb_payload_bar (r : ℕ) (u : Unit) : (sched (F := F) m ρ).payload (kcell (d, 0)) r u
    = iprop(∃ f, ((rM : Memref sig .tc .vmem S8x256x512 .bf16).view.loc (peer d : Thread nD τ)) ↦{fullShare} f) := payload_bar m ρ d r u

theorem tb_duties_send0 (r : ℕ) (hr : r < 4) : (sched (F := F) m ρ).duties (kcell (d, 1)) r = {()} := duties_send m ρ d 0 r hr
theorem tb_amount_send0 (r : ℕ) (u : Unit) : (sched (F := F) m ρ).amount (kcell (d, 1)) r u = N := amount_send m ρ d 0 r u
theorem tb_expect_send0 (r : ℕ) (hr : r < 4) : (sched (F := F) m ρ).expect (kcell (d, 1)) r = N := expect_send m ρ d 0 r hr
theorem tb_payload_send0 (r : ℕ) (u : Unit) : (sched (F := F) m ρ).payload (kcell (d, 1)) r u
    = iprop(∃ f, sSlot0.view.loc (d : Thread nD τ) ↦[sSlot0.view.set]{fullShare} f) := payload_send m ρ d 0 r u

theorem tb_duties_send1 (r : ℕ) (hr : r < 4) : (sched (F := F) m ρ).duties (kcell (d, 2)) r = {()} := duties_send m ρ d 1 r hr
theorem tb_amount_send1 (r : ℕ) (u : Unit) : (sched (F := F) m ρ).amount (kcell (d, 2)) r u = N := amount_send m ρ d 1 r u
theorem tb_expect_send1 (r : ℕ) (hr : r < 4) : (sched (F := F) m ρ).expect (kcell (d, 2)) r = N := expect_send m ρ d 1 r hr
theorem tb_payload_send1 (r : ℕ) (u : Unit) : (sched (F := F) m ρ).payload (kcell (d, 2)) r u
    = iprop(∃ f, sSlot1.view.loc (d : Thread nD τ) ↦[sSlot1.view.set]{fullShare} f) := payload_send m ρ d 1 r u

theorem tb_duties_recv0 : (sched (F := F) m ρ).duties (kcell (d, 3)) 0 = {()} := duties_recv m ρ d 0
theorem tb_amount_recv0 (r : ℕ) (u : Unit) : (sched (F := F) m ρ).amount (kcell (d, 3)) r u = N := amount_recv m ρ d 0 r u
theorem tb_expect_recv0 : (sched (F := F) m ρ).expect (kcell (d, 3)) 0 = N := expect_recv m ρ d 0
theorem tb_payload_recv0 (r : ℕ) (u : Unit) : (sched (F := F) m ρ).payload (kcell (d, 3)) r u
    = (rSlot0.view.loc (d : Thread nD τ) ↦[rSlot0.view.set]{fullShare} landed m ρ d 0) := payload_recv m ρ d 0 r u

theorem tb_duties_recv1 : (sched (F := F) m ρ).duties (kcell (d, 4)) 0 = {()} := duties_recv m ρ d 1
theorem tb_amount_recv1 (r : ℕ) (u : Unit) : (sched (F := F) m ρ).amount (kcell (d, 4)) r u = N := amount_recv m ρ d 1 r u
theorem tb_expect_recv1 : (sched (F := F) m ρ).expect (kcell (d, 4)) 0 = N := expect_recv m ρ d 1
theorem tb_payload_recv1 (r : ℕ) (u : Unit) : (sched (F := F) m ρ).payload (kcell (d, 4)) r u
    = (rSlot1.view.loc (d : Thread nD τ) ↦[rSlot1.view.set]{fullShare} landed m ρ d 1) := payload_recv m ρ d 1 r u

theorem tb_duties_recv2 : (sched (F := F) m ρ).duties (kcell (d, 5)) 0 = {()} := duties_recv m ρ d 2
theorem tb_amount_recv2 (r : ℕ) (u : Unit) : (sched (F := F) m ρ).amount (kcell (d, 5)) r u = N := amount_recv m ρ d 2 r u
theorem tb_expect_recv2 : (sched (F := F) m ρ).expect (kcell (d, 5)) 0 = N := expect_recv m ρ d 2
theorem tb_payload_recv2 (r : ℕ) (u : Unit) : (sched (F := F) m ρ).payload (kcell (d, 5)) r u
    = (rSlot2.view.loc (d : Thread nD τ) ↦[rSlot2.view.set]{fullShare} landed m ρ d 2) := payload_recv m ρ d 2 r u

theorem tb_duties_recv3 : (sched (F := F) m ρ).duties (kcell (d, 6)) 0 = {()} := duties_recv m ρ d 3
theorem tb_amount_recv3 (r : ℕ) (u : Unit) : (sched (F := F) m ρ).amount (kcell (d, 6)) r u = N := amount_recv m ρ d 3 r u
theorem tb_expect_recv3 : (sched (F := F) m ρ).expect (kcell (d, 6)) 0 = N := expect_recv m ρ d 3
theorem tb_payload_recv3 (r : ℕ) (u : Unit) : (sched (F := F) m ρ).payload (kcell (d, 6)) r u
    = (rSlot3.view.loc (d : Thread nD τ) ↦[rSlot3.view.set]{fullShare} landed m ρ d 3) := payload_recv m ρ d 3 r u

theorem tb_duties_recv4 : (sched (F := F) m ρ).duties (kcell (d, 7)) 0 = {()} := duties_recv m ρ d 4
theorem tb_amount_recv4 (r : ℕ) (u : Unit) : (sched (F := F) m ρ).amount (kcell (d, 7)) r u = N := amount_recv m ρ d 4 r u
theorem tb_expect_recv4 : (sched (F := F) m ρ).expect (kcell (d, 7)) 0 = N := expect_recv m ρ d 4
theorem tb_payload_recv4 (r : ℕ) (u : Unit) : (sched (F := F) m ρ).payload (kcell (d, 7)) r u
    = (rSlot4.view.loc (d : Thread nD τ) ↦[rSlot4.view.set]{fullShare} landed m ρ d 4) := payload_recv m ρ d 4 r u

theorem tb_duties_recv5 : (sched (F := F) m ρ).duties (kcell (d, 8)) 0 = {()} := duties_recv m ρ d 5
theorem tb_amount_recv5 (r : ℕ) (u : Unit) : (sched (F := F) m ρ).amount (kcell (d, 8)) r u = N := amount_recv m ρ d 5 r u
theorem tb_expect_recv5 : (sched (F := F) m ρ).expect (kcell (d, 8)) 0 = N := expect_recv m ρ d 5
theorem tb_payload_recv5 (r : ℕ) (u : Unit) : (sched (F := F) m ρ).payload (kcell (d, 8)) r u
    = (rSlot5.view.loc (d : Thread nD τ) ↦[rSlot5.view.set]{fullShare} landed m ρ d 5) := payload_recv m ρ d 5 r u

theorem tb_duties_recv6 : (sched (F := F) m ρ).duties (kcell (d, 9)) 0 = {()} := duties_recv m ρ d 6
theorem tb_amount_recv6 (r : ℕ) (u : Unit) : (sched (F := F) m ρ).amount (kcell (d, 9)) r u = N := amount_recv m ρ d 6 r u
theorem tb_expect_recv6 : (sched (F := F) m ρ).expect (kcell (d, 9)) 0 = N := expect_recv m ρ d 6
theorem tb_payload_recv6 (r : ℕ) (u : Unit) : (sched (F := F) m ρ).payload (kcell (d, 9)) r u
    = (rSlot6.view.loc (d : Thread nD τ) ↦[rSlot6.view.set]{fullShare} landed m ρ d 6) := payload_recv m ρ d 6 r u

theorem tb_duties_recv7 : (sched (F := F) m ρ).duties (kcell (d, 10)) 0 = {()} := duties_recv m ρ d 7
theorem tb_amount_recv7 (r : ℕ) (u : Unit) : (sched (F := F) m ρ).amount (kcell (d, 10)) r u = N := amount_recv m ρ d 7 r u
theorem tb_expect_recv7 : (sched (F := F) m ρ).expect (kcell (d, 10)) 0 = N := expect_recv m ρ d 7
theorem tb_payload_recv7 (r : ℕ) (u : Unit) : (sched (F := F) m ρ).payload (kcell (d, 10)) r u
    = (rSlot7.view.loc (d : Thread nD τ) ↦[rSlot7.view.set]{fullShare} landed m ρ d 7) := payload_recv m ρ d 7 r u

end Tables

/-- The partner's barrier payload, resolved: what this device hands over is its own landing buffer. -/
theorem tb_payload_bar_peer (c : Dev nD) (r : ℕ) (u : Unit) : (sched (F := F) m ρ).payload (kcell (peer c, 0)) r u
    = iprop(∃ f, ((rM : Memref sig .tc .vmem S8x256x512 .bf16).view.loc (c : Thread nD τ)) ↦{fullShare} f) := by
  rw [tb_payload_bar, peer_peer]

attribute [local sl_rounds] tb_peer_peer tb_duties_bar tb_amount_bar tb_expect_bar tb_payload_bar tb_duties_send0 tb_amount_send0 tb_expect_send0 tb_payload_send0 tb_duties_send1 tb_amount_send1 tb_expect_send1 tb_payload_send1 tb_duties_recv0 tb_amount_recv0 tb_expect_recv0 tb_payload_recv0 tb_duties_recv1 tb_amount_recv1 tb_expect_recv1 tb_payload_recv1 tb_duties_recv2 tb_amount_recv2 tb_expect_recv2 tb_payload_recv2 tb_duties_recv3 tb_amount_recv3 tb_expect_recv3 tb_payload_recv3 tb_duties_recv4 tb_amount_recv4 tb_expect_recv4 tb_payload_recv4 tb_duties_recv5 tb_amount_recv5 tb_expect_recv5 tb_payload_recv5 tb_duties_recv6 tb_amount_recv6 tb_expect_recv6 tb_payload_recv6 tb_duties_recv7 tb_amount_recv7 tb_expect_recv7 tb_payload_recv7
attribute [local sl_canon] dev1_eq dev2_eq dev3_eq dev4_eq dev5_eq dev6_eq dev7_eq dev8_eq dev9_eq
attribute [local sl_rounds high] tb_payload_bar_peer

/-! ## The body's pre- and postcondition, as the launch hands them over -/

def pre (c : Dev nD) : sProp 𝕄 :=
  iprop(Φ₀ m ρ c ∗ (dats m ρ 0 c).owesAt () t₀.castSucc
    ∗ (∃ d, owns (c : Thread nD τ) (xM : Memref sig .tc .vmem S2048x1024 .f32) fullShare ((dats m ρ 0 c).before (0 : Fin 2) t₀ d))
    ∗ (∃ d, owns (c : Thread nD τ) (oM : Memref sig .tc .vmem S4096x512 .f32) fullShare ((dats m ρ 0 c).before (1 : Fin 2) t₀ d)))

def post (c : Dev nD) : sProp 𝕄 :=
  iprop(Φ₁ c ∗ (dats m ρ 0 c).owesAt () t₀.succ
    ∗ owns (c : Thread nD τ) (xM : Memref sig .tc .vmem S2048x1024 .f32) fullShare (xstg m ρ c)
    ∗ owns (c : Thread nD τ) (oM : Memref sig .tc .vmem S4096x512 .f32) fullShare (outAt m ρ c))

/-! ## One remote transfer -/

/-- A transfer from a staging slot `src`, which holds `V`, into the partner's landing slot `dst`, addressed to a device `n` that IS the
    partner: the departure cell's duty of round `r` and the partner's arrival cell's duty of round 0 are paid, the staging slot lent until
    the departure wait, the landing slot handed over at what the transfer writes. -/
theorem wp_send_at (c n : Dev nD) (hn : n = peer c) (src dst : Memref sig .tc .vmem S256x512 .bf16) (sS sR : DmaSem sig) (κ₁ κ₂ r : ℕ)
    {hsc : (dst : Memref sig (Dev.tc n : Thread nD τ).2.kind .vmem S256x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (V : Vec F S256x512 .bf16) (O : CellTallies nD τ sig Unit)
    (hd₁ : () ∈ (sched m ρ).duties ((c : Thread nD τ), .dma sS) r) (hd₂ : () ∈ (sched m ρ).duties ((peer c : Thread nD τ), .dma sR) 0)
    (hN : dst.view.amount (.dma sR) = N)
    (hk₁ : (sched m ρ).amount ((c : Thread nD τ), .dma sS) r () = N) (hk₂ : (sched m ρ).amount ((peer c : Thread nD τ), .dma sR) 0 () = N)
    (hpay₁ : ∀ fs : Buf (Elt F) (src.view.loc (c : Thread nD τ)),
      ((src.view.loc (c : Thread nD τ) ↦[src.view.set]{fullShare} fs) : sProp 𝕄) ⊢ (sched m ρ).payload ((c : Thread nD τ), .dma sS) r ())
    (hpay₂ : ∀ (fs : Buf (Elt F) (src.view.loc (c : Thread nD τ))) (fd : Buf (Elt F) (dst.view.loc (peer c : Thread nD τ))), src.view.read (Elt F) fs = V →
      ((dst.view.loc (peer c : Thread nD τ) ↦[dst.view.set]{fullShare} (dst.view.write (Elt F) fd (src.view.read (Elt F) fs) Finset.univ)) : sProp 𝕄)
        ⊢ (sched m ρ).payload ((peer c : Thread nD τ), .dma sR) 0 ()) :
    iprop((∃ fs : Buf (Elt F) (src.view.loc (c : Thread nD τ)), (src.view.loc (c : Thread nD τ) ↦[src.view.set]{fullShare} fs) ∗ ⌜src.view.read (Elt F) fs = V⌝)
        ∗ (∃ fd : Buf (Elt F) (dst.view.loc (peer c : Thread nD τ)), dst.view.loc (peer c : Thread nD τ) ↦[dst.view.set]{fullShare} fd)
        ∗ (∃ W : Waits sig Unit, owes (c : Thread nD τ) (O + tallyAt ((peer c : Thread nD τ), .dma sR) () N) W)
        ∗ cellInv ER (sched m ρ) κ₁ ((c : Thread nD τ), .dma sS) ∗ cellInv ER (sched m ρ) κ₂ ((peer c : Thread nD τ), .dma sR)
        ∗ dutyTok ER ((c : Thread nD τ), .dma sS) r () ∗ reached ER ((c : Thread nD τ), .dma sS) r
        ∗ dutyTok ER ((peer c : Thread nD τ), .dma sR) 0 () ∗ reached ER ((peer c : Thread nD τ), .dma sR) 0)
      ⊢ iprop(((cred (tallyAt ((c : Thread nD τ), .dma sS) () N) ∗ ∃ W : Waits sig Unit, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  iintro ⟨⟨%fs, Hsrc, %hv⟩, ⟨%fd, Hdst⟩, ⟨%W, HO⟩, #I1, #I2, T1, #R1, T2, #R2⟩ Hk
  iapply (Rounds.wp_send_pointsTo 𝒱₀ ER (sched m ρ) (c : Thread nD τ) none (κ₁ := κ₁) (κ₂ := κ₂) (r₁ := r) (r₂ := 0) (d₁ := ()) (d₂ := ()) (fd := fd)
    hd₁ hd₂ () () N hN hk₁ hk₂ O rfl (W := W) (hpay₁ fs) (hpay₂ fs fd hv)) $$ [Hsrc Hdst HO T1 T2]
  · isplitr; · iexact I1
    isplitr; · iexact I2
    isplitl [Hsrc]; · iexact Hsrc
    isplitl [Hdst]; · iexact Hdst
    isplitl [HO]; · iexact HO
    isplitl [T1]; · iexact T1
    isplitr; · iexact R1
    isplitl [T2]; · iexact T2
    iexact R2
  iintro ⟨Hc, HO⟩
  iapply Hk
  isplitl [Hc]; · iexact Hc
  iexists W; iexact HO

/-- The staged input holds the device's block when the body starts (the window is fetched at the one point). -/
theorem before_x (c : Dev nD) (d) : (dats m ρ 0 c).before (0 : Fin 2) t₀ d = xstg m ρ c :=
  ((dats m ρ 0 c).before_in_eq_fetched 0 rfl (fun _ => rfl) (fun _ _ _ => rfl) (fun t => by rw [fin_N t]; rfl) t₀ d).trans rfl

/-! ## Side facts of a transfer, at the schedule's tables -/

theorem mem_duties_send (c : Dev nD) (s : Fin 2) (r : ℕ) (hr : r < 4) : () ∈ (sched (F := F) m ρ).duties (sendCell c s) r := by
  rw [duties_send m ρ c s r hr]; exact Finset.mem_singleton_self _
theorem mem_duties_recv (c : Dev nD) (i : Fin 8) : () ∈ (sched (F := F) m ρ).duties (recvCell c i) 0 := by
  rw [duties_recv]; exact Finset.mem_singleton_self _
/-- A staging slot, at whatever contents, is what its departure cell's duty hands back. -/
theorem sendPay_intro (c : Dev nD) (s : Fin 2) (r : ℕ) (f : Buf (Elt F) ((sSlot s).view.loc (c : Thread nD τ))) :
    (((sSlot s).view.loc (c : Thread nD τ)) ↦[(sSlot s).view.set]{fullShare} f : sProp 𝕄) ⊢ (sched m ρ).payload (sendCell c s) r () := by
  rw [payload_send]; unfold sendPay; iintro H; iexists f; iexact H
theorem slot_amount (i : Fin 8) : (rSlot i).view.amount (.dma (recvS i).sem) = N := by fin_cases i <;> rfl

/-- What lands in the partner's slot is what the schedule promises the partner, whatever the slot held. -/
theorem landing' (c : Dev nD) (s : Fin 2) (i : Fin 8) (fs : Buf (Elt F) ((sSlot s).view.loc (c : Thread nD τ))) (fd : Buf (Elt F) ((rSlot i).view.loc (peer c : Thread nD τ)))
    (hv : (sSlot s).view.read (Elt F) fs = sentVal m ρ c i) :
    (((rSlot i).view.loc (peer c : Thread nD τ)) ↦[(rSlot i).view.set]{fullShare} ((rSlot i).view.write (Elt F) fd ((sSlot s).view.read (Elt F) fs) Finset.univ) : sProp 𝕄)
      ⊢ (sched m ρ).payload (recvCell (peer c) i) 0 () := landing m ρ c i fd _ hv

set_option maxHeartbeats 4000000 in
theorem sound_body (c : Dev nD) (Kt : PUnit → sProp 𝕄) :
    iprop(pre m ρ c ∗ (post m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold pre Φ₀ start scratch Dat.owesAt Pipeline.owesWithin
  simp only [ghost_flat, invs_flat, payToks_flat, creds_flat]
  rw [show (dats m ρ 0 c).owed t₀.castSucc = O₀ c from rfl]
  unfold O₀ owns
  iintro ⟨⟨⟨⟨⟨%K, ⟨⟨#I0, #I1, #I2, #I3, #I4, #I5, #I6, #I7, #I8, #I9, #I10⟩, ⟨#J0, #J1, #J2, #J3, #J4, #J5, #J6, #J7, #J8, #J9, #J10⟩⟩,
      ⟨A0, A1, A2, A3, A4, A5, A6, A7, A8, A9, A10⟩, ⟨#R0, #R1, #R2, #R3, #R4, #R5, #R6, #R7, #R8, #R9, #R10⟩,
      ⟨#P0, #P1, #P2, #P3, #P4, #P5, #P6, #P7, #P8, #P9, #P10⟩,
      Tb, ⟨Tr0, Tr1, Tr2, Tr3, Tr4, Tr5, Tr6, Tr7⟩, ⟨Ts00, Ts01, Ts02, Ts03⟩, ⟨Ts10, Ts11, Ts12, Ts13⟩⟩,
      ⟨Cb, Cr0, Cr1, Cr2, Cr3, Cr4, Cr5, Cr6, Cr7⟩, #Hlev⟩, ⟨%fs, Hs⟩, ⟨%fr, Hr⟩⟩, ⟨%W, %hW, HO⟩, ⟨%d0, %x0, %hx0, Hx⟩, ⟨%d1, %o0, %ho0, Hout⟩⟩, Hk⟩
  have hx : x0 = xstg m ρ c := hx0.trans (before_x m ρ c d0)
  subst hx
  ihave Hs' := (send_split c fs) $$ Hs
  icases Hs' with ⟨Hs0, Hs1⟩
  have hmwB : (levAts L lv : sProp 𝕄) ⊢ MayWait (c : Thread nD τ) (.reg barS) () (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) := mayWait_bar c _ (by repeat' (first | apply OwesArrivals.add | apply owesArrivals_tally))
  have hmwS2 : (levAts L lv : sProp 𝕄) ⊢ MayWait (c : Thread nD τ) (.dma sendS0.sem) () (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) := mayWait_low c _ (lv_send c 0 ()) _ (OwesArrivals.partner (by repeat' (first | apply OwesArrivals.add | apply owesArrivals_tally)))
  have hmwS3 : (levAts L lv : sProp 𝕄) ⊢ MayWait (c : Thread nD τ) (.dma sendS1.sem) () (tallyAt (recvCell (peer c) 7) () N + tallyAt (recvCell (peer c) 6) () N + tallyAt (recvCell (peer c) 5) () N + tallyAt (recvCell (peer c) 4) () N + tallyAt (recvCell (peer c) 3) () N) := mayWait_low c _ (lv_send c 1 ()) _ (OwesArrivals.partner (by repeat' (first | apply OwesArrivals.add | apply owesArrivals_tally)))
  have hmwS4 : (levAts L lv : sProp 𝕄) ⊢ MayWait (c : Thread nD τ) (.dma sendS0.sem) () (tallyAt (recvCell (peer c) 7) () N + tallyAt (recvCell (peer c) 6) () N + tallyAt (recvCell (peer c) 5) () N + tallyAt (recvCell (peer c) 4) () N) := mayWait_low c _ (lv_send c 0 ()) _ (OwesArrivals.partner (by repeat' (first | apply OwesArrivals.add | apply owesArrivals_tally)))
  have hmwS5 : (levAts L lv : sProp 𝕄) ⊢ MayWait (c : Thread nD τ) (.dma sendS1.sem) () (tallyAt (recvCell (peer c) 7) () N + tallyAt (recvCell (peer c) 6) () N + tallyAt (recvCell (peer c) 5) () N) := mayWait_low c _ (lv_send c 1 ()) _ (OwesArrivals.partner (by repeat' (first | apply OwesArrivals.add | apply owesArrivals_tally)))
  have hmwS6 : (levAts L lv : sProp 𝕄) ⊢ MayWait (c : Thread nD τ) (.dma sendS0.sem) () (tallyAt (recvCell (peer c) 7) () N + tallyAt (recvCell (peer c) 6) () N) := mayWait_low c _ (lv_send c 0 ()) _ (OwesArrivals.partner (by repeat' (first | apply OwesArrivals.add | apply owesArrivals_tally)))
  have hmwS7 : (levAts L lv : sProp 𝕄) ⊢ MayWait (c : Thread nD τ) (.dma sendS1.sem) () (tallyAt (recvCell (peer c) 7) () N) := mayWait_low c _ (lv_send c 1 ()) _ (OwesArrivals.partner (by repeat' (first | apply OwesArrivals.add | apply owesArrivals_tally)))
  sl_unfold [cc0_body]
  sl_exec
  ihave Hp := (recv_split (peer c) A0_pay1_v) $$ A0_pay1
  icases Hp with ⟨Hp0, Hp1, Hp2, Hp3, Hp4, Hp5, Hp6, Hp7⟩
  -- transfer 0: staging slot 0 (round 0 of its departure cell) into the partner's landing slot 0
  iapply (wp_send_at m ρ c ⟨k0_dev2 c, k0_dev2_lt c⟩ (dev2_eq c) sSlot0 rSlot0 sendS0.sem recvS0.sem (K (c, 1)) (K (peer c, 3)) 0
      (sentVal m ρ c 0) (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N)
      (mem_duties_send m ρ c 0 0 (by decide)) (mem_duties_recv m ρ (peer c) 0) (slot_amount 0)
      (amount_send m ρ c 0 0 ()) (amount_recv m ρ (peer c) 0 0 ())
      (fun fs => sendPay_intro m ρ c 0 0 fs) (fun fs fd hv => landing' m ρ c 0 0 fs fd hv)) $$ [HO Hs0 Hp0 Ts00 Tr0]
  · isplitl [Hs0]
    · iexists _; isplitl [Hs0]; · iexact Hs0
      ipureintro; exact slot0_read_write c _ _
    isplitl [Hp0]; · iexists _; iexact Hp0
    isplitl [HO]; · iexists _; iexact HO
    isplitr; · iexact I1
    isplitr; · iexact J3
    isplitl [Ts00]; · iexact Ts00
    isplitr; · iexact R1
    isplitl [Tr0]; · iexact Tr0
    iexact P3
  iintro ⟨Cs0, ⟨%W0, HO⟩⟩
  sl_exec
  -- transfer 1: staging slot 1 (round 0 of its departure cell) into the partner's landing slot 1
  iapply (wp_send_at m ρ c ⟨k0_dev3 c, k0_dev3_lt c⟩ (dev3_eq c) sSlot1 rSlot1 sendS1.sem recvS1.sem (K (c, 2)) (K (peer c, 4)) 0
      (sentVal m ρ c 1) (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N)
      (mem_duties_send m ρ c 1 0 (by decide)) (mem_duties_recv m ρ (peer c) 1) (slot_amount 1)
      (amount_send m ρ c 1 0 ()) (amount_recv m ρ (peer c) 1 0 ())
      (fun fs => sendPay_intro m ρ c 1 0 fs) (fun fs fd hv => landing' m ρ c 1 1 fs fd hv)) $$ [HO Hs1 Hp1 Ts10 Tr1]
  · isplitl [Hs1]
    · iexists _; isplitl [Hs1]; · iexact Hs1
      ipureintro; exact slot1_read_write c _ _
    isplitl [Hp1]; · iexists _; iexact Hp1
    isplitl [HO]; · iexists _; iexact HO
    isplitr; · iexact I2
    isplitr; · iexact J4
    isplitl [Ts10]; · iexact Ts10
    isplitr; · iexact R2
    isplitl [Tr1]; · iexact Tr1
    iexact P4
  iintro ⟨Cs1, ⟨%W1, HO⟩⟩
  sl_exec
  -- transfer 2: staging slot 0 (round 1 of its departure cell) into the partner's landing slot 2
  iapply (wp_send_at m ρ c ⟨k0_dev4 c, k0_dev4_lt c⟩ (dev4_eq c) sSlot0 rSlot2 sendS0.sem recvS2.sem (K (c, 1)) (K (peer c, 5)) 1
      (sentVal m ρ c 2) (tallyAt (recvCell (peer c) 7) () N + tallyAt (recvCell (peer c) 6) () N + tallyAt (recvCell (peer c) 5) () N + tallyAt (recvCell (peer c) 4) () N + tallyAt (recvCell (peer c) 3) () N)
      (mem_duties_send m ρ c 0 1 (by decide)) (mem_duties_recv m ρ (peer c) 2) (slot_amount 2)
      (amount_send m ρ c 0 1 ()) (amount_recv m ρ (peer c) 2 0 ())
      (fun fs => sendPay_intro m ρ c 0 1 fs) (fun fs fd hv => landing' m ρ c 0 2 fs fd hv)) $$ [HO A1_pay1 Hp2 Ts01 Tr2 A1_reached]
  · isplitl [A1_pay1]
    · iexists _; isplitl [A1_pay1]; · iexact A1_pay1
      ipureintro; exact slot0_read_write c _ _
    isplitl [Hp2]; · iexists _; iexact Hp2
    isplitl [HO]; · iexists _; iexact HO
    isplitr; · iexact I1
    isplitr; · iexact J5
    isplitl [Ts01]; · iexact Ts01
    isplitl [A1_reached]; · iexact A1_reached
    isplitl [Tr2]; · iexact Tr2
    iexact P5
  iintro ⟨Cs2, ⟨%W2, HO⟩⟩
  sl_exec
  -- transfer 3: staging slot 1 (round 1 of its departure cell) into the partner's landing slot 3
  iapply (wp_send_at m ρ c ⟨k0_dev5 c, k0_dev5_lt c⟩ (dev5_eq c) sSlot1 rSlot3 sendS1.sem recvS3.sem (K (c, 2)) (K (peer c, 6)) 1
      (sentVal m ρ c 3) (tallyAt (recvCell (peer c) 7) () N + tallyAt (recvCell (peer c) 6) () N + tallyAt (recvCell (peer c) 5) () N + tallyAt (recvCell (peer c) 4) () N)
      (mem_duties_send m ρ c 1 1 (by decide)) (mem_duties_recv m ρ (peer c) 3) (slot_amount 3)
      (amount_send m ρ c 1 1 ()) (amount_recv m ρ (peer c) 3 0 ())
      (fun fs => sendPay_intro m ρ c 1 1 fs) (fun fs fd hv => landing' m ρ c 1 3 fs fd hv)) $$ [HO A2_pay1 Hp3 Ts11 Tr3 A2_reached]
  · isplitl [A2_pay1]
    · iexists _; isplitl [A2_pay1]; · iexact A2_pay1
      ipureintro; exact slot1_read_write c _ _
    isplitl [Hp3]; · iexists _; iexact Hp3
    isplitl [HO]; · iexists _; iexact HO
    isplitr; · iexact I2
    isplitr; · iexact J6
    isplitl [Ts11]; · iexact Ts11
    isplitl [A2_reached]; · iexact A2_reached
    isplitl [Tr3]; · iexact Tr3
    iexact P6
  iintro ⟨Cs3, ⟨%W3, HO⟩⟩
  sl_exec
  -- transfer 4: staging slot 0 (round 2 of its departure cell) into the partner's landing slot 4
  iapply (wp_send_at m ρ c ⟨k0_dev6 c, k0_dev6_lt c⟩ (dev6_eq c) sSlot0 rSlot4 sendS0.sem recvS4.sem (K (c, 1)) (K (peer c, 7)) 2
      (sentVal m ρ c 4) (tallyAt (recvCell (peer c) 7) () N + tallyAt (recvCell (peer c) 6) () N + tallyAt (recvCell (peer c) 5) () N)
      (mem_duties_send m ρ c 0 2 (by decide)) (mem_duties_recv m ρ (peer c) 4) (slot_amount 4)
      (amount_send m ρ c 0 2 ()) (amount_recv m ρ (peer c) 4 0 ())
      (fun fs => sendPay_intro m ρ c 0 2 fs) (fun fs fd hv => landing' m ρ c 0 4 fs fd hv)) $$ [HO A1_pay1 Hp4 Ts02 Tr4 A1_reached]
  · isplitl [A1_pay1]
    · iexists _; isplitl [A1_pay1]; · iexact A1_pay1
      ipureintro; exact slot0_read_write c _ _
    isplitl [Hp4]; · iexists _; iexact Hp4
    isplitl [HO]; · iexists _; iexact HO
    isplitr; · iexact I1
    isplitr; · iexact J7
    isplitl [Ts02]; · iexact Ts02
    isplitl [A1_reached]; · iexact A1_reached
    isplitl [Tr4]; · iexact Tr4
    iexact P7
  iintro ⟨Cs4, ⟨%W4, HO⟩⟩
  sl_exec
  -- transfer 5: staging slot 1 (round 2 of its departure cell) into the partner's landing slot 5
  iapply (wp_send_at m ρ c ⟨k0_dev7 c, k0_dev7_lt c⟩ (dev7_eq c) sSlot1 rSlot5 sendS1.sem recvS5.sem (K (c, 2)) (K (peer c, 8)) 2
      (sentVal m ρ c 5) (tallyAt (recvCell (peer c) 7) () N + tallyAt (recvCell (peer c) 6) () N)
      (mem_duties_send m ρ c 1 2 (by decide)) (mem_duties_recv m ρ (peer c) 5) (slot_amount 5)
      (amount_send m ρ c 1 2 ()) (amount_recv m ρ (peer c) 5 0 ())
      (fun fs => sendPay_intro m ρ c 1 2 fs) (fun fs fd hv => landing' m ρ c 1 5 fs fd hv)) $$ [HO A2_pay1 Hp5 Ts12 Tr5 A2_reached]
  · isplitl [A2_pay1]
    · iexists _; isplitl [A2_pay1]; · iexact A2_pay1
      ipureintro; exact slot1_read_write c _ _
    isplitl [Hp5]; · iexists _; iexact Hp5
    isplitl [HO]; · iexists _; iexact HO
    isplitr; · iexact I2
    isplitr; · iexact J8
    isplitl [Ts12]; · iexact Ts12
    isplitl [A2_reached]; · iexact A2_reached
    isplitl [Tr5]; · iexact Tr5
    iexact P8
  iintro ⟨Cs5, ⟨%W5, HO⟩⟩
  sl_exec
  -- transfer 6: staging slot 0 (round 3 of its departure cell) into the partner's landing slot 6
  iapply (wp_send_at m ρ c ⟨k0_dev8 c, k0_dev8_lt c⟩ (dev8_eq c) sSlot0 rSlot6 sendS0.sem recvS6.sem (K (c, 1)) (K (peer c, 9)) 3
      (sentVal m ρ c 6) (tallyAt (recvCell (peer c) 7) () N)
      (mem_duties_send m ρ c 0 3 (by decide)) (mem_duties_recv m ρ (peer c) 6) (slot_amount 6)
      (amount_send m ρ c 0 3 ()) (amount_recv m ρ (peer c) 6 0 ())
      (fun fs => sendPay_intro m ρ c 0 3 fs) (fun fs fd hv => landing' m ρ c 0 6 fs fd hv)) $$ [HO A1_pay1 Hp6 Ts03 Tr6 A1_reached]
  · isplitl [A1_pay1]
    · iexists _; isplitl [A1_pay1]; · iexact A1_pay1
      ipureintro; exact slot0_read_write c _ _
    isplitl [Hp6]; · iexists _; iexact Hp6
    isplitl [HO]; · iexists _; iexact HO
    isplitr; · iexact I1
    isplitr; · iexact J9
    isplitl [Ts03]; · iexact Ts03
    isplitl [A1_reached]; · iexact A1_reached
    isplitl [Tr6]; · iexact Tr6
    iexact P9
  iintro ⟨Cs6, ⟨%W6, HO⟩⟩
  sl_exec
  -- transfer 7: staging slot 1 (round 3 of its departure cell) into the partner's landing slot 7
  iapply (wp_send_at m ρ c ⟨k0_dev9 c, k0_dev9_lt c⟩ (dev9_eq c) sSlot1 rSlot7 sendS1.sem recvS7.sem (K (c, 2)) (K (peer c, 10)) 3
      (sentVal m ρ c 7) (0)
      (mem_duties_send m ρ c 1 3 (by decide)) (mem_duties_recv m ρ (peer c) 7) (slot_amount 7)
      (amount_send m ρ c 1 3 ()) (amount_recv m ρ (peer c) 7 0 ())
      (fun fs => sendPay_intro m ρ c 1 3 fs) (fun fs fd hv => landing' m ρ c 1 7 fs fd hv)) $$ [HO A2_pay1 Hp7 Ts13 Tr7 A2_reached]
  · isplitl [A2_pay1]
    · iexists _; isplitl [A2_pay1]; · iexact A2_pay1
      ipureintro; exact slot1_read_write c _ _
    isplitl [Hp7]; · iexists _; iexact Hp7
    isplitl [HO]; · iexists _; rw [zero_add]; iexact HO
    isplitr; · iexact I2
    isplitr; · iexact J10
    isplitl [Ts13]; · iexact Ts13
    isplitl [A2_reached]; · iexact A2_reached
    isplitl [Tr7]; · iexact Tr7
    iexact P10
  iintro ⟨Cs7, ⟨%W7, HO⟩⟩
  sl_exec
  -- the ten own cells have no duty left: each is closed, its counter handed back at zero
  imod (Rounds.cell_close ER (sched m ρ) (κ := K (c, 1)) (Set.mem_univ _) (fun h => h) (R := 4) (duties_send_later m ρ c 0)) $$ [A1] with Z1
  · isplitr; · iexact I1
    iexact A1
  imod (Rounds.cell_close ER (sched m ρ) (κ := K (c, 2)) (Set.mem_univ _) (fun h => h) (R := 4) (duties_send_later m ρ c 1)) $$ [A2] with Z2
  · isplitr; · iexact I2
    iexact A2
  imod (Rounds.cell_close ER (sched m ρ) (κ := K (c, 3)) (Set.mem_univ _) (fun h => h) (R := 1) (duties_recv_later m ρ c 0)) $$ [A3] with Z3
  · isplitr; · iexact I3
    iexact A3
  imod (Rounds.cell_close ER (sched m ρ) (κ := K (c, 4)) (Set.mem_univ _) (fun h => h) (R := 1) (duties_recv_later m ρ c 1)) $$ [A4] with Z4
  · isplitr; · iexact I4
    iexact A4
  imod (Rounds.cell_close ER (sched m ρ) (κ := K (c, 5)) (Set.mem_univ _) (fun h => h) (R := 1) (duties_recv_later m ρ c 2)) $$ [A5] with Z5
  · isplitr; · iexact I5
    iexact A5
  imod (Rounds.cell_close ER (sched m ρ) (κ := K (c, 6)) (Set.mem_univ _) (fun h => h) (R := 1) (duties_recv_later m ρ c 3)) $$ [A6] with Z6
  · isplitr; · iexact I6
    iexact A6
  imod (Rounds.cell_close ER (sched m ρ) (κ := K (c, 7)) (Set.mem_univ _) (fun h => h) (R := 1) (duties_recv_later m ρ c 4)) $$ [A7] with Z7
  · isplitr; · iexact I7
    iexact A7
  imod (Rounds.cell_close ER (sched m ρ) (κ := K (c, 8)) (Set.mem_univ _) (fun h => h) (R := 1) (duties_recv_later m ρ c 5)) $$ [A8] with Z8
  · isplitr; · iexact I8
    iexact A8
  imod (Rounds.cell_close ER (sched m ρ) (κ := K (c, 9)) (Set.mem_univ _) (fun h => h) (R := 1) (duties_recv_later m ρ c 6)) $$ [A9] with Z9
  · isplitr; · iexact I9
    iexact A9
  imod (Rounds.cell_close ER (sched m ρ) (κ := K (c, 10)) (Set.mem_univ _) (fun h => h) (R := 1) (duties_recv_later m ρ c 7)) $$ [A10] with Z10
  · isplitr; · iexact I10
    iexact A10
  sl_step
  iapply Hk
  unfold post Φ₁ scratch ownZero Dat.owesAt Pipeline.owesWithin owns
  rw [sepChain_fin2, sepChain_fin8]
  isplitl [A1_pay1 A2_pay1 A3_pay1 A4_pay1 A5_pay1 A6_pay1 A7_pay1 A8_pay1 A9_pay1 A10_pay1 Z1 Z2 Z3 Z4 Z5 Z6 Z7 Z8 Z9 Z10]
  · isplitl [A1_pay1 A2_pay1 A3_pay1 A4_pay1 A5_pay1 A6_pay1 A7_pay1 A8_pay1 A9_pay1 A10_pay1]
    · -- the two scratch buffers, whole again
      isplitl [A1_pay1 A2_pay1]
      · iapply (send_join c A1_pay1_v A2_pay1_v)
        isplitl [A1_pay1]; · iexact A1_pay1
        iexact A2_pay1
      · iapply (recv_join c (landed m ρ c 0) (landed m ρ c 1) (landed m ρ c 2) (landed m ρ c 3) (landed m ρ c 4) (landed m ρ c 5) (landed m ρ c 6) (landed m ρ c 7))
        isplitl [A3_pay1]; · iexact A3_pay1
        isplitl [A4_pay1]; · iexact A4_pay1
        isplitl [A5_pay1]; · iexact A5_pay1
        isplitl [A6_pay1]; · iexact A6_pay1
        isplitl [A7_pay1]; · iexact A7_pay1
        isplitl [A8_pay1]; · iexact A8_pay1
        isplitl [A9_pay1]; · iexact A9_pay1
        iexact A10_pay1
    · isplitl [Z1 Z2]
      · isplitl [Z1]; · iexact Z1
        iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      iexact Z10
  isplitl [HO]
  · iexists _; isplitr
    swap; · iexact HO
    ipureintro; exact fun _ _ => Or.inl trivial
  isplitl [Hx]
  · iexists _; isplitr
    swap; · iexact Hx
    ipureintro; rfl
  iexists _; isplitr
  swap; · iexact Hout
  ipureintro
  unfold sound_body.sl.r_2 sound_body.sl.v226
  exact out_writes_eq m ρ c o0

set_option maxHeartbeats 4000000 in
set_option maxRecDepth 8000 in
attribute [local irreducible] outAt in
/-- The library's body obligation on device `c`: the one grid point, the body run from what the launch hands over to what it takes back. -/
theorem body_obligation (c : Dev nD) : BodyObligation (dats (F := F) m ρ 0 c) (defs₀ (F := F)) 𝒱₀ () Set.univ := fun t => by
  rw [fin_N t, bigSep_W0, bigSep_W0]
  show pre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => post m ρ c)
  iintro H
  iapply (sound_body m ρ c fun _ => post m ρ c)
  isplitl [H]; · iexact H
  iintro H; iexact H

/-- info: 'Cert.Kernel.A2A.body_obligation' depends on axioms: [propext, Classical.choice, Quot.sound] -/
#guard_msgs in #print axioms body_obligation

end Cert.Kernel.A2A

end
-- ==== Proof.Bits.Launch.lean ====
/-
  The launch of the exchange: from each device's body to the run of the whole program on the mesh.

  The eleven cells of every device are funded at once: the round states at counter zero, the owners' positions and reached marks,
  and seventeen duty tokens per device. The ten DMA semaphores are the kernel's own (scoped); the barrier semaphore is the one
  unscoped semaphore, so its counter at zero arrives with the unscoped ones and all cells are allocated under ONE update. The tokens are
  then dealt: a device's barrier token and its eight arrival tokens go to its partner (who pays those duties), its eight departure tokens
  stay. What a device is owed at launch is exactly what its partner owes it: one unit on the barrier cell and a slot's credit on each
  arrival cell.
-/
import proofs.«900619_g7700000000000620_dist_a2a_v7x_xyz2x2x2_x_m2048_n512_f32_1_alg».proof.Proof.Bits.Dat
import proofs.«900619_g7700000000000620_dist_a2a_v7x_xyz2x2x2_x_m2048_n512_f32_1_alg».proof.Proof.Bits.Levels
import proofs.«900619_g7700000000000620_dist_a2a_v7x_xyz2x2x2_x_m2048_n512_f32_1_alg».proof.Proof.Gen.Kernel.Launch
import proofs.«900619_g7700000000000620_dist_a2a_v7x_xyz2x2x2_x_m2048_n512_f32_1_alg».proof.Proof.Gen.Kernel.Frame
import proofs.«900619_g7700000000000620_dist_a2a_v7x_xyz2x2x2_x_m2048_n512_f32_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The ten DMA semaphores of the exchange: the kernel's own (scoped) ones. -/
abbrev osem : Fin 10 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 11 → SemLoc sig) := by decide

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the exchange: every device's eleven. -/
def xCells : Finset (GSem nD τ sig) := Finset.univ.map ⟨kcell, kcell_injective⟩

/-- The duty tokens minted for a device's own cells: its barrier cell's, its eight arrival cells', its two departure cells' four each. -/
abbrev TokIx : Type := Unit ⊕ (Fin 8 ⊕ (Fin 2 × Fin 4))

abbrev tokOf (cj : Dev nD × TokIx) : GSem nD τ sig × ℕ × Unit := match cj.2 with
  | .inl _ => (barCell cj.1, 0, ())
  | .inr (.inl i) => (recvCell cj.1 i, 0, ())
  | .inr (.inr sr) => (sendCell cj.1 sr.1, sr.2.val, ())

theorem tokOf_injective : Function.Injective (tokOf : Dev nD × TokIx → GSem nD τ sig × ℕ × Unit) := by
  rintro ⟨c, j⟩ ⟨c', j'⟩ h
  have h1 : c = c' := by
    have := congrArg (fun x : GSem nD τ sig × ℕ × Unit => x.1.1.1) h
    rcases j with _ | i | sr <;> rcases j' with _ | i' | sr' <;> exact this
  subst h1
  have h2 := congrArg (fun x : GSem nD τ sig × ℕ × Unit => x.1.2) h
  have h3 := congrArg (fun x : GSem nD τ sig × ℕ × Unit => x.2.1) h
  rcases j with _ | i | ⟨s, r⟩ <;> rcases j' with _ | i' | ⟨s', r'⟩ <;> dsimp only at h2 h3
  · rfl
  · exact absurd h2 (fun h => by cases h)
  · exact absurd h2 (fun h => by cases h)
  · exact absurd h2 (fun h => by cases h)
  · have hv := congrArg (fun q : DmaSem sig => q.val) (SemLoc.dma.inj h2)
    dsimp only at hv; rw [recvS_val, recvS_val] at hv
    rw [show i = i' from Fin.ext (by omega)]
  · have hv := congrArg (fun q : DmaSem sig => q.val) (SemLoc.dma.inj h2)
    dsimp only at hv; rw [recvS_val, sendS_val] at hv
    exact absurd hv (by have := s'.isLt; omega)
  · exact absurd h2 (fun h => by cases h)
  · have hv := congrArg (fun q : DmaSem sig => q.val) (SemLoc.dma.inj h2)
    dsimp only at hv; rw [recvS_val, sendS_val] at hv
    exact absurd hv (by have := s.isLt; omega)
  · have hv := congrArg (fun q : DmaSem sig => q.val) (SemLoc.dma.inj h2)
    dsimp only at hv; rw [sendS_val, sendS_val] at hv
    rw [show s = s' from Fin.ext (by omega), show r = r' from Fin.ext h3]

/-- The duty tokens of the exchange: every device's seventeen. -/
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 ()
    ∗ (bigSep Finset.univ fun i : Fin 8 => dutyTok ER (recvCell c i) 0 ())
    ∗ (bigSep Finset.univ fun sr : Fin 2 × Fin 4 => dutyTok ER (sendCell c sr.1) sr.2.val ()))

/-- Every payload of the schedule is a points-to, or empty: it can be kept in an invariant. -/
instance sched_payload_storable (g : GSem nD τ sig) (r : ℕ) (d : Unit) :
    BI.Storable (upEmb : UEmb _ 𝕄) ((sched (F := F) m ρ).payload g r d) := by
  dsimp only [sched]
  cases classify g.2 with
  | none => infer_instance
  | some k => cases k with
    | bar => unfold barPay; infer_instance
    | send s => unfold sendPay; infer_instance
    | recv i => fin_cases i <;> (dsimp only [recvPay]; infer_instance)

/-- What the launch element deals device `c`. -/
def G (c : Dev nD) : sProp 𝕄 :=
  iprop((bigSep Finset.univ fun k : Fin 11 => roundState ER (sched m ρ) (kcell (c, k)) 0)
    ∗ (bigSep Finset.univ fun k : Fin 11 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
/-- A conjunction over `Fin (n + 1)` is its first conjunct and the conjunction over the successors. -/
theorem bigSep_fin_succ (n : ℕ) (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 11 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by
      unfold toks; rw [bigSep_univ_sum, bigSep_univ_sum, bigSep_univ_of_subsingleton ()]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The eleven counters at zero: the barrier's with the unscoped semaphores, the ten others the kernel's own. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the whole mesh: every cell's invariant at its name, and round 0 of every cell reached. -/
def records (K : Dev nD × Fin 11 → ℕ) : sProp 𝕄 :=
  iprop((bigSep Finset.univ fun ck : Dev nD × Fin 11 => cellInv ER (sched m ρ) (K ck) (kcell ck))
    ∗ bigSep Finset.univ fun ck : Dev nD × Fin 11 => reached ER (kcell ck) 0)

instance records_persistent (K : Dev nD × Fin 11 → ℕ) : BI.Persistent (records m ρ K) := by unfold records; infer_instance

theorem inv_row (K : Dev nD × Fin 11 → ℕ) (c : Dev nD) :
    (bigSep Finset.univ fun ck : Dev nD × Fin 11 => (cellInv ER (sched m ρ) (K ck) (kcell ck) : sProp 𝕄))
      ⊢ bigSep Finset.univ fun k : Fin 11 => cellInv ER (sched m ρ) (K (c, k)) (kcell (c, k)) := by
  rw [bigSep_univ_prod]; exact bigSep_elim (Finset.mem_univ c)
omit [FloatOps F] in
theorem reached_row (c : Dev nD) :
    (bigSep Finset.univ fun ck : Dev nD × Fin 11 => (reached ER (kcell ck) 0 : sProp 𝕄))
      ⊢ bigSep Finset.univ fun k : Fin 11 => reached ER (kcell (c, k)) 0 := by
  rw [bigSep_univ_prod]; exact bigSep_elim (Finset.mem_univ c)

/-- What stays with device `c`: its positions, and the tokens of the duties it pays. -/
def linear (c : Dev nD) : sProp 𝕄 :=
  iprop((bigSep Finset.univ fun k : Fin 11 => atPos ER (kcell (c, k)) 0 ∅ 0) ∗ payToks c)

theorem ghost_intro (K : Dev nD × Fin 11 → ℕ) (c : Dev nD) : iprop(records m ρ K ∗ linear c) ⊢ G' m ρ c := by
  unfold records linear G' ghost invs
  iintro ⟨⟨#HI, #HR⟩, Hat, Htok⟩
  iexists K
  isplitr
  · isplitr
    · iapply (inv_row m ρ K c); iexact HI
    · iapply (inv_row m ρ K (peer c)); iexact HI
  isplitl [Hat]; · iexact Hat
  isplitr; · iapply (reached_row (F := F) c); iexact HR
  isplitr; · iapply (reached_row (F := F) (peer c)); iexact HR
  iexact Htok

omit [FloatOps F] in
/-- The tokens dealt: a device's barrier token and its eight arrival tokens go to its partner, its departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun i : Fin 8 => dutyTok ER (recvCell c i) 0 () : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 11 => iprop(∃ κ : ℕ, cellInv ER (sched m ρ) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 11 => (atPos ER (kcell (c, k)) 0 ∅ 0 : sProp 𝕄)) payToks).symm).trans
      (bigSep_mono fun c _ => show _ ⊢ linear c from .rfl))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What the devices owe device `c`'s cells: only its partner does, one unit on the barrier cell and a slot's credit on each arrival cell. -/
theorem launch_creds (c : Dev nD) : (Pipeline.launchCred O₀ c : sProp 𝕄) ⊢ creds c := by
  have hb := Pipeline.launchCred_tallyAt (Ix := Unit) (Name := ℕ) (U := UU) (Lvl := ℕ) (Val := Elt F) (τ := τ) (.reg barS) peer peer peer_peer peer_peer () 1 c
  have hr := fun i : Fin 8 => Pipeline.launchCred_tallyAt (Ix := Unit) (Name := ℕ) (U := UU) (Lvl := ℕ) (Val := Elt F) (τ := τ) (.dma (recvS i).sem) peer peer peer_peer peer_peer () N c
  show (Pipeline.launchCred (fun d => tallyAt (recvCell (peer d) 7) () N + tallyAt (recvCell (peer d) 6) () N + tallyAt (recvCell (peer d) 5) () N + tallyAt (recvCell (peer d) 4) () N
    + tallyAt (recvCell (peer d) 3) () N + tallyAt (recvCell (peer d) 2) () N + tallyAt (recvCell (peer d) 1) () N + tallyAt (recvCell (peer d) 0) () N
    + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add]
  unfold creds
  rw [bigSep_fin8]
  iintro ⟨⟨⟨⟨⟨⟨⟨⟨H7, H6⟩, H5⟩, H4⟩, H3⟩, H2⟩, H1⟩, H0⟩, Hb⟩
  isplitl [Hb]; · iapply hb; iexact Hb
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  iapply (hr 7); iexact H7

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

omit [FloatOps F] in
/-- The kernel's own ten counters, listed as the departure and the arrival cells. -/
theorem ownSems0_of_ownZero (c : Dev nD) :
    (ownZero c : sProp 𝕄) ⊢ Pipeline.ownSems0 (Ix := Unit) (Name := ℕ) (U := UU) (Lvl := ℕ) (Val := Elt F) (τ := τ) osem c := by
  have ho : (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (recvCell c 0) 0 ∗ semVal (recvCell c 1) 0 ∗ semVal (recvCell c 2) 0 ∗ semVal (recvCell c 3) 0
          ∗ semVal (recvCell c 4) 0 ∗ semVal (recvCell c 5) 0 ∗ semVal (recvCell c 6) 0 ∗ semVal (recvCell c 7) 0) := by
    rw [Pipeline.ownSems0_eq_of_list c osem [0, 1, 2, 3, 4, 5, 6, 7, 8, 9] (by decide) (by decide)]; rfl
  unfold ownZero
  rw [ho, bigSep_univ_two, bigSep_fin8]
  iintro ⟨⟨S0, S1⟩, R0, R1, R2, R3, R4, R5, R6, R7⟩
  isplitl [S0]; · iexact S0
  isplitl [S1]; · iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  isplitr; · iempintro
  isplitl [Hz]; · iapply (ownSems0_of_ownZero (F := F) c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c _ (by fin_cases w <;> fin_cases s <;> decide)) _ (by
      rcases t with ⟨_ | _, ht⟩
      · exact owesPartner_O₀ c
      · exact owesPartner_zero c)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, given each device's body:
    every weakly fair execution of @main terminates, and every final state has each device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window's one block is the whole array, at block index 0. -/
theorem out_block_zero : (fun a : Fin 2 => (cfg0.win (1 : Fin 2)).index t₀ a * (cfg0.win (1 : Fin 2)).size a) = fun _ => 0 :=
  funext fun a => by fin_cases a <;> decide

theorem out_block_inb : ∀ a : Fin 2, (fun a : Fin 2 => (cfg0.win (1 : Fin 2)).index t₀ a * (cfg0.win (1 : Fin 2)).size a) a + main_v1.ty.shape.size a ≤ main_v1.ty.shape.size a :=
  fun a => by fin_cases a <;> decide

/-- Writing the whole block into the result array replaces the array's contents. -/
theorem write_block_whole (c : Dev nD) (A : Buf (Elt F) ((cfg0.win (1 : Fin 2)).arr.view.loc (c : Thread nD τ)))
    (W : ((cfg0.win (1 : Fin 2)).xblock (cfg0.grid.coords t₀)).Idx → Elt F (cfg0.win (1 : Fin 2)).elt) :
    ((cfg0.win (1 : Fin 2)).blk t₀).view.write (Elt F) A W Finset.univ = W := by
  have hr := fun f => Memref.read_access_unit_zero (Elt F) main_v1 out_block_zero out_block_inb f
  exact (hr _).symm.trans (View.read_write_univ _ _)

attribute [local irreducible] outAt in
/-- What the write-back writes is all of what the body left in the staged result (the window is not cut). -/
theorem flushed_out (c : Dev nD) : (dats (F := F) m ρ 0 c).flushed (1 : Fin 2) t₀ = outAt m ρ c := rfl

attribute [local irreducible] outAt in
/-- The result array after the run is what the body left in the staged result. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  exact (h.trans (write_block_whole c _ _)).trans (flushed_out m ρ c)

/-- info: 'Cert.Kernel.A2A.run_main' depends on axioms: [propext, Classical.choice, Quot.sound] -/
#guard_msgs in #print axioms run_main

/-- info: 'Cert.Kernel.A2A.finalA_out' depends on axioms: [propext, Classical.choice, Quot.sound] -/
#guard_msgs in #print axioms finalA_out

end Cert.Kernel.A2A

end
-- ==== Proof.lean ====
/-
  The exchange on the eight devices of a 2 × 2 × 2 mesh, against the identity on one device.

  Device `c` (linear id `4·x + 2·y + z`) holds rows `[2048·x, 2048·x + 2048)` of a whole 4096 × 1024 array and must end holding its
  columns `[512·x, 512·x + 512)`. It keeps the column half that is its own of the rows it already has, and trades the other half
  with its partner across the first mesh axis, tile by tile (eight tiles of 256 rows, each narrowed to 16 bits for the wire and widened
  back on arrival). Over the extended reals a change of float format is the identity, so every entry of the result is the entry of the
  whole array at the same place: the reference, which returns its argument.

  Frames: each program runs to its end from any memory with zero counters, faults nowhere and leaves its argument arrays as they were — the
  kernel's by the launch of the per-device body (a barrier handshake with the partner, eight remote transfers on two departure and eight
  arrival semaphores, under the rounds discipline: every wait is at a level below everything the waiter still owes), the reference's by
  its run, which is empty. `preserves`: the idealization rewrote nothing. `algebraic`: the kernel's result on device `c`, read off
  the launch as the nine stores' one function, is block `c` of the reference's result, index by index.
-/
import proofs.«900619_g7700000000000620_dist_a2a_v7x_xyz2x2x2_x_m2048_n512_f32_1_alg».proof.Defs
import proofs.«900619_g7700000000000620_dist_a2a_v7x_xyz2x2x2_x_m2048_n512_f32_1_alg».proof.Proof.Gen.Kernel
import proofs.«900619_g7700000000000620_dist_a2a_v7x_xyz2x2x2_x_m2048_n512_f32_1_alg».proof.Proof.Gen.KernelIdeal
import proofs.«900619_g7700000000000620_dist_a2a_v7x_xyz2x2x2_x_m2048_n512_f32_1_alg».proof.Proof.Gen.ReferenceIdeal
import proofs.«900619_g7700000000000620_dist_a2a_v7x_xyz2x2x2_x_m2048_n512_f32_1_alg».proof.Proof.Gen.Pre_finite_inputs_Kernel
import proofs.«900619_g7700000000000620_dist_a2a_v7x_xyz2x2x2_x_m2048_n512_f32_1_alg».proof.Proof.Gen.Pre_finite_inputs_ReferenceIdeal
import proofs.«900619_g7700000000000620_dist_a2a_v7x_xyz2x2x2_x_m2048_n512_f32_1_alg».proof.Proof.Body
import proofs.«900619_g7700000000000620_dist_a2a_v7x_xyz2x2x2_x_m2048_n512_f32_1_alg».proof.Proof.Launch
import proofs.«900619_g7700000000000620_dist_a2a_v7x_xyz2x2x2_x_m2048_n512_f32_1_alg».proof.Proof.Cover
import proofs.«900619_g7700000000000620_dist_a2a_v7x_xyz2x2x2_x_m2048_n512_f32_1_alg».proof.Proof.Value
import proofs.«900619_g7700000000000620_dist_a2a_v7x_xyz2x2x2_x_m2048_n512_f32_1_alg».proof.Proof.RefRun
import proofs.«900619_g7700000000000620_dist_a2a_v7x_xyz2x2x2_x_m2048_n512_f32_1_alg».proof.Proof.Bits.Body
import proofs.«900619_g7700000000000620_dist_a2a_v7x_xyz2x2x2_x_m2048_n512_f32_1_alg».proof.Proof.Bits.Launch
import Idealize.ShloMosaic.Adequacy
import Idealize.ShloMosaic.Init

noncomputable section

namespace Cert.Proof

open Idealize.ShloMosaic Idealize.SL.Sem

/-- The word-level kernel: the launch of the body at `F := Bits`, its argument array read back unchanged. -/
theorem frame_k : Cert.frame_Kernel := fun m ρ _ =>
  (θ_run (Cert.Kernel.defs (F := Bits)) _ _).mono (fun _ h c => (h c 0).trans (Cert.Kernel.A2A.finalA_x m ρ c))
    (Cert.Kernel.A2A.run_main m ρ (Cert.Kernel.A2A.body_obligation m ρ))

/-- The idealized kernel: the same launch at `F := Ideal`. -/
theorem frame_ki : Cert.frame_KernelIdeal := fun m ρ _ =>
  (θ_run (Cert.KernelIdeal.defs (F := Ideal)) _ _).mono (fun _ h c => (h c 0).trans (Cert.KernelIdeal.A2A.finalA_x m ρ c))
    (Cert.KernelIdeal.A2A.run_main m ρ (Cert.KernelIdeal.A2A.body_obligation m ρ))

/-- The reference returns its argument: its run is empty. -/
theorem frame_ri : Cert.frame_ReferenceIdeal := fun m ρ _ => Cert.ReferenceIdeal.RefRun.run m ρ

/-- The ideal pass rewrote no operation. -/
theorem preserves : Cert.preserves_Kernel_KernelIdeal := trivial

/-- Each device's result is its block of the whole argument array, which is what the reference returns. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun _ h c => ⟨?_, ?_⟩)
      (Cert.KernelIdeal.A2A.run_main m ρ (Cert.KernelIdeal.A2A.body_obligation m ρ))
    · exact ((h c 1).trans (Cert.KernelIdeal.A2A.finalA_out m ρ c)).trans
        (Cert.KernelIdeal.A2A.outAt_block_of_cover m ρ _ hagree c (Cert.KernelIdeal.A2A.outPieces_cover m ρ c))
    · exact (h c 0).trans (Cert.KernelIdeal.A2A.finalA_x m ρ c)
  · exact (θ_run (Cert.ReferenceIdeal.defs (F := Ideal)) _ _).mono (fun _ h => ⟨h 0, h 0⟩) (Cert.ReferenceIdeal.RefRun.run m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
